-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x512 : Shape := ⟨2, ![384, 512]⟩
abbrev S384x384 : Shape := ⟨2, ![384, 384]⟩
abbrev S384x147456 : Shape := ⟨2, ![384, 147456]⟩
abbrev S512x192 : Shape := ⟨2, ![512, 192]⟩
abbrev S192 : Shape := ⟨1, ![192]⟩
abbrev S192x64 : Shape := ⟨2, ![192, 64]⟩
abbrev S64 : Shape := ⟨1, ![64]⟩
abbrev S192x192 : Shape := ⟨2, ![192, 192]⟩
abbrev S_ : Shape := ⟨0, ![]⟩

class Facts : Prop where
  bcast_S_S384x512 : S_.BroadcastsInDim S384x512 (![] : Fin 0 → Fin S384x512.rank)
  reducesTo_S384x512_S_d0_1 : S384x512.ReducesTo [0, 1] S_
  h_S_ : 0 < S_.numel
  bcast_S_S384x384 : S_.BroadcastsInDim S384x384 (![] : Fin 0 → Fin S384x384.rank)
  reducesTo_S384x384_S_d0_1 : S384x384.ReducesTo [0, 1] S_
  bcast_S_S384x147456 : S_.BroadcastsInDim S384x147456 (![] : Fin 0 → Fin S384x147456.rank)
  reducesTo_S384x147456_S_d0_1 : S384x147456.ReducesTo [0, 1] S_
  bcast_S_S512x192 : S_.BroadcastsInDim S512x192 (![] : Fin 0 → Fin S512x192.rank)
  reducesTo_S512x192_S_d0_1 : S512x192.ReducesTo [0, 1] S_
  bcast_S_S192 : S_.BroadcastsInDim S192 (![] : Fin 0 → Fin S192.rank)
  reducesTo_S192_S_d0 : S192.ReducesTo [0] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S192x192 : S_.BroadcastsInDim S192x192 (![] : Fin 0 → Fin S192x192.rank)
  reducesTo_S192x192_S_d0_1 : S192x192.ReducesTo [0, 1] S_

variable [Facts]

def fn_part4 {F : FTy → Type} [FloatOps F] (main_arg14 : FVec F S192 .f32) (main_v63 : IVec S_ 1) (main_v67 : IVec S_ 1) : IVec S_ 1 :=
  let main_v68 : IVec S_ 1 := andi main_v63 main_v67
  let main_v69 : FVec F S192 .f32 := Host.absf main_arg14
  let main_cst_26 : FVec F S_ .f32 := constant S_ .f32 0x7F800000#32
  let main_v70 : FVec F S192 .f32 := broadcastInDim S192 ![] bcast_S_S192 main_cst_26
  let main_v71 : IVec S192 1 := cmpf .olt main_v69 main_v70
  let main_c_27 : IVec S_ 1 := constantI S_ 1 1#1
  let main_v72 : IVec S_ 1 := (fun x v => Host.reduce IntOp.andi x v reducesTo_S192_S_d0 h_S_) main_v71 main_c_27
  let main_v73 : IVec S_ 1 := andi main_v68 main_v72
  main_v73

def fn_part3 {F : FTy → Type} [FloatOps F] (main_arg11 : FVec F S192x192 .f32) (main_arg12 : FVec F S192 .f32) (main_arg13 : FVec F S192x192 .f32) (main_arg14 : FVec F S192 .f32) (main_v48 : IVec S_ 1) (main_v49 : FVec F S192 .f32) (main_v50 : FVec F S192 .f32) : IVec S_ 1 :=
  let main_v51 : IVec S192 1 := cmpf .olt main_v49 main_v50
  let main_c_19 : IVec S_ 1 := constantI S_ 1 1#1
  let main_v52 : IVec S_ 1 := (fun x v => Host.reduce IntOp.andi x v reducesTo_S192_S_d0 h_S_) main_v51 main_c_19
  let main_v53 : IVec S_ 1 := andi main_v48 main_v52
  let main_v54 : FVec F S192x192 .f32 := Host.absf main_arg11
  let main_cst_20 : FVec F S_ .f32 := constant S_ .f32 0x7F800000#32
  let main_v55 : FVec F S192x192 .f32 := broadcastInDim S192x192 ![] bcast_S_S192x192 main_cst_20
  let main_v56 : IVec S192x192 1 := cmpf .olt main_v54 main_v55
  let main_c_21 : IVec S_ 1 := constantI S_ 1 1#1
  let main_v57 : IVec S_ 1 := (fun x v => Host.reduce IntOp.andi x v reducesTo_S192x192_S_d0_1 h_S_) main_v56 main_c_21
  let main_v58 : IVec S_ 1 := andi main_v53 main_v57
  let main_v59 : FVec F S192 .f32 := Host.absf main_arg12
  let main_cst_22 : FVec F S_ .f32 := constant S_ .f32 0x7F800000#32
  let main_v60 : FVec F S192 .f32 := broadcastInDim S192 ![] bcast_S_S192 main_cst_22
  let main_v61 : IVec S192 1 := cmpf .olt main_v59 main_v60
  let main_c_23 : IVec S_ 1 := constantI S_ 1 1#1
  let main_v62 : IVec S_ 1 := (fun x v => Host.reduce IntOp.andi x v reducesTo_S192_S_d0 h_S_) main_v61 main_c_23
  let main_v63 : IVec S_ 1 := andi main_v58 main_v62
  let main_v64 : FVec F S192x192 .f32 := Host.absf main_arg13
  let main_cst_24 : FVec F S_ .f32 := constant S_ .f32 0x7F800000#32
  let main_v65 : FVec F S192x192 .f32 := broadcastInDim S192x192 ![] bcast_S_S192x192 main_cst_24
  let main_v66 : IVec S192x192 1 := cmpf .olt main_v64 main_v65
  let main_c_25 : IVec S_ 1 := constantI S_ 1 1#1
  let main_v67 : IVec S_ 1 := (fun x v => Host.reduce IntOp.andi x v reducesTo_S192x192_S_d0_1 h_S_) main_v66 main_c_25
  fn_part4 (F := F) main_arg14 main_v63 main_v67

def fn_part2 {F : FTy → Type} [FloatOps F] (main_arg7 : FVec F S192x192 .f32) (main_arg8 : FVec F S192 .f32) (main_arg9 : FVec F S192x192 .f32) (main_arg10 : FVec F S192 .f32) (main_arg11 : FVec F S192x192 .f32) (main_arg12 : FVec F S192 .f32) (main_arg13 : FVec F S192x192 .f32) (main_arg14 : FVec F S192 .f32) (main_v33 : IVec S_ 1) : IVec S_ 1 :=
  let main_v34 : FVec F S192x192 .f32 := Host.absf main_arg7
  let main_cst_12 : FVec F S_ .f32 := constant S_ .f32 0x7F800000#32
  let main_v35 : FVec F S192x192 .f32 := broadcastInDim S192x192 ![] bcast_S_S192x192 main_cst_12
  let main_v36 : IVec S192x192 1 := cmpf .olt main_v34 main_v35
  let main_c_13 : IVec S_ 1 := constantI S_ 1 1#1
  let main_v37 : IVec S_ 1 := (fun x v => Host.reduce IntOp.andi x v reducesTo_S192x192_S_d0_1 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192x192 .f32 := Host.absf main_arg9
  let main_cst_16 : FVec F S_ .f32 := constant S_ .f32 0x7F800000#32
  let main_v45 : FVec F S192x192 .f32 := broadcastInDim S192x192 ![] bcast_S_S192x192 main_cst_16
  let main_v46 : IVec S192x192 1 := cmpf .olt main_v44 main_v45
  let main_c_17 : IVec S_ 1 := constantI S_ 1 1#1
  let main_v47 : IVec S_ 1 := (fun x v => Host.reduce IntOp.andi x v reducesTo_S192x192_S_d0_1 h_S_) main_v46 main_c_17
  let main_v48 : IVec S_ 1 := andi main_v43 main_v47
  let main_v49 : FVec F S192 .f32 := Host.absf main_arg10
  let main_cst_18 : FVec F S_ .f32 := constant S_ .f32 0x7F800000#32
  let main_v50 : FVec F S192 .f32 := broadcastInDim S192 ![] bcast_S_S192 main_cst_18
  fn_part3 (F := F) main_arg11 main_arg12 main_arg13 main_arg14 main_v48 main_v49 main_v50

def fn_part1 {F : FTy → Type} [FloatOps F] (main_arg4 : FVec F S192 .f32) (main_arg5 : FVec F S192x64 .f32) (main_arg6 : FVec F S64 .f32) (main_arg7 : FVec F S192x192 .f32) (main_arg8 : FVec F S192 .f32) (main_arg9 : FVec F S192x192 .f32) (main_arg10 : FVec F S192 .f32) (main_arg11 : FVec F S192x192 .f32) (main_arg12 : FVec F S192 .f32) (main_arg13 : FVec F S192x192 .f32) (main_arg14 : FVec F S192 .f32) (main_v13 : IVec S_ 1) (main_v16 : IVec S512x192 1) : IVec S_ 1 :=
  let main_c_5 : IVec S_ 1 := constantI S_ 1 1#1
  let main_v17 : IVec S_ 1 := (fun x v => Host.reduce IntOp.andi x v reducesTo_S512x192_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192x64 .f32 := Host.absf main_arg5
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S384x512 .f32) (main_arg1 : FVec F S384x384 .f32) (main_arg2 : FVec F S384x147456 .f32) (main_arg3 : FVec F S512x192 .f32) (main_arg4 : FVec F S192 .f32) (main_arg5 : FVec F S192x64 .f32) (main_arg6 : FVec F S64 .f32) (main_arg7 : FVec F S192x192 .f32) (main_arg8 : FVec F S192 .f32) (main_arg9 : FVec F S192x192 .f32) (main_arg10 : FVec F S192 .f32) (main_arg11 : FVec F S192x192 .f32) (main_arg12 : FVec F S192 .f32) (main_arg13 : FVec F S192x192 .f32) (main_arg14 : FVec F S192 .f32) : IVec S_ 1 :=
  let main_v0 : FVec F S384x512 .f32 := Host.absf main_arg0
  let main_cst : FVec F S_ .f32 := constant S_ .f32 0x7F800000#32
  let main_v1 : FVec F S384x512 .f32 := broadcastInDim S384x512 ![] bcast_S_S384x512 main_cst
  let main_v2 : IVec S384x512 1 := cmpf .olt main_v0 main_v1
  let main_c : IVec S_ 1 := constantI S_ 1 1#1
  let main_v3 : IVec S_ 1 := (fun x v => Host.reduce IntOp.andi x v reducesTo_S384x512_S_d0_1 h_S_) main_v2 main_c
  let main_v4 : FVec F S384x384 .f32 := Host.absf main_arg1
  let main_cst_0 : FVec F S_ .f32 := constant S_ .f32 0x7F800000#32
  let main_v5 : FVec F S384x384 .f32 := broadcastInDim S384x384 ![] bcast_S_S384x384 main_cst_0
  let main_v6 : IVec S384x384 1 := cmpf .olt main_v4 main_v5
  let main_c_1 : IVec S_ 1 := constantI S_ 1 1#1
  let main_v7 : IVec S_ 1 := (fun x v => Host.reduce IntOp.andi x v reducesTo_S384x384_S_d0_1 h_S_) main_v6 main_c_1
  let main_v8 : IVec S_ 1 := andi main_v3 main_v7
  let main_v9 : FVec F S384x147456 .f32 := Host.absf main_arg2
  let main_cst_2 : FVec F S_ .f32 := constant S_ .f32 0x7F800000#32
  let main_v10 : FVec F S384x147456 .f32 := broadcastInDim S384x147456 ![] bcast_S_S384x147456 main_cst_2
  let main_v11 : IVec S384x147456 1 := cmpf .olt main_v9 main_v10
  let main_c_3 : IVec S_ 1 := constantI S_ 1 1#1
  let main_v12 : IVec S_ 1 := (fun x v => Host.reduce IntOp.andi x v reducesTo_S384x147456_S_d0_1 h_S_) main_v11 main_c_3
  let main_v13 : IVec S_ 1 := andi main_v8 main_v12
  let main_v14 : FVec F S512x192 .f32 := Host.absf main_arg3
  let main_cst_4 : FVec F S_ .f32 := constant S_ .f32 0x7F800000#32
  let main_v15 : FVec F S512x192 .f32 := broadcastInDim S512x192 ![] bcast_S_S512x192 main_cst_4
  let main_v16 : IVec S512x192 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S384x512 : Shape := ⟨2, ![384, 512]⟩
abbrev S384x384 : Shape := ⟨2, ![384, 384]⟩
abbrev S384x147456 : Shape := ⟨2, ![384, 147456]⟩
abbrev S512x192 : Shape := ⟨2, ![512, 192]⟩
abbrev S192 : Shape := ⟨1, ![192]⟩
abbrev S192x64 : Shape := ⟨2, ![192, 64]⟩
abbrev S64 : Shape := ⟨1, ![64]⟩
abbrev S192x192 : Shape := ⟨2, ![192, 192]⟩
abbrev S1x192 : Shape := ⟨2, ![1, 192]⟩
abbrev S1x64 : Shape := ⟨2, ![1, 64]⟩
abbrev S384x192 : Shape := ⟨2, ![384, 192]⟩
abbrev S128x3072 : Shape := ⟨2, ![128, 3072]⟩
abbrev S128x192 : Shape := ⟨2, ![128, 192]⟩
abbrev S8x192 : Shape := ⟨2, ![8, 192]⟩
abbrev S8x1x192 : Shape := ⟨3, ![8, 1, 192]⟩
abbrev S1x384x192 : Shape := ⟨3, ![1, 384, 192]⟩
abbrev S8x384x192 : Shape := ⟨3, ![8, 384, 192]⟩
abbrev S3072x192 : Shape := ⟨2, ![3072, 192]⟩
abbrev S_ : Shape := ⟨0, ![]⟩
abbrev S384x64 : Shape := ⟨2, ![384, 64]⟩
abbrev S384 : Shape := ⟨1, ![384]⟩
abbrev S384x1 : Shape := ⟨2, ![384, 1]⟩

abbrev nBuf : Space → Nat
  | .hbm => 35
  | .vmem => 26
  | .smem => 0
  | _ => 0

abbrev bufTy : (tb : Table) → Fin (tcTables nBuf tb) → BufTy
  | .hbm, ⟨0, _⟩ => ⟨S384x512, .f32⟩
  | .hbm, ⟨1, _⟩ => ⟨S384x384, .f32⟩
  | .hbm, ⟨2, _⟩ => ⟨S384x147456, .f32⟩
  | .hbm, ⟨3, _⟩ => ⟨S512x192, .f32⟩
  | .hbm, ⟨4, _⟩ => ⟨S192, .f32⟩
  | .hbm, ⟨5, _⟩ => ⟨S192x64, .f32⟩
  | .hbm, ⟨6, _⟩ => ⟨S64, .f32⟩
  | .hbm, ⟨7, _⟩ => ⟨S192x192, .f32⟩
  | .hbm, ⟨8, _⟩ => ⟨S192, .f32⟩
  | .hbm, ⟨9, _⟩ => ⟨S192x192, .f32⟩
  | .hbm, ⟨10, _⟩ => ⟨S192, .f32⟩
  | .hbm, ⟨11, _⟩ => ⟨S192x192, .f32⟩
  | .hbm, ⟨12, _⟩ => ⟨S192, .f32⟩
  | .hbm, ⟨13, _⟩ => ⟨S192x192, .f32⟩
  | .hbm, ⟨14, _⟩ => ⟨S192, .f32⟩
  | .hbm, ⟨15, _⟩ => ⟨S1x192, .f32⟩
  | .hbm, ⟨16, _⟩ => ⟨S1x192, .f32⟩
  | .hbm, ⟨17, _⟩ => ⟨S1x192, .f32⟩
  | .hbm, ⟨18, _⟩ => ⟨S1x192, .f32⟩
  | .hbm, ⟨19, _⟩ => ⟨S1x192, .f32⟩
  | .hbm, ⟨20, _⟩ => ⟨S1x64, .f32⟩
  | .hbm, ⟨21, _⟩ => ⟨S384x192, .f32⟩
  | .hbm, ⟨22, _⟩ => ⟨S384x192, .f32⟩
  | .hbm, ⟨23, _⟩ => ⟨S384x192, .f32⟩
  | .hbm, ⟨24, _⟩ => ⟨S384x192, .f32⟩
  | .hbm, ⟨25, _⟩ => ⟨S384x192, .f32⟩
  | .hbm, ⟨26, _⟩ => ⟨S384x192, .f32⟩
  | .hbm, ⟨27, _⟩ => ⟨S_, .f32⟩
  | .hbm, ⟨28, _⟩ => ⟨S384x192, .f32⟩
  | .hbm, ⟨29, _⟩ => ⟨S384x192, .f32⟩
  | .hbm, ⟨30, _⟩ => ⟨S384x192, .f32⟩
  | .hbm, ⟨31, _⟩ => ⟨S384x192, .f32⟩
  | .hbm, ⟨32, _⟩ => ⟨S384x192, .f32⟩
  | .hbm, ⟨33, _⟩ => ⟨S384x192, .f32⟩
  | .hbm, ⟨34, _⟩ => ⟨S384x64, .f32⟩
  | .local _ .vmem, ⟨0, _⟩ => ⟨S384x512, .f32⟩
  | .local _ .vmem, ⟨1, _⟩ => ⟨S512x192, .f32⟩
  | .local _ .vmem, ⟨2, _⟩ => ⟨S1x192, .f32⟩
  | .local _ .vmem, ⟨3, _⟩ => ⟨S384x384, .f32⟩
  | .local _ .vmem, ⟨4, _⟩ => ⟨S192x192, .f32⟩
  | .local _ .vmem, ⟨5, _⟩ => ⟨S1x192, .f32⟩
  | .local _ .vmem, ⟨6, _⟩ => ⟨S384x192, .f32⟩
  | .local _ .vmem, ⟨7, _⟩ => ⟨S384x192, .f32⟩
  | .local _ .vmem, ⟨8, _⟩ => ⟨S384x192, .f32⟩
  | .local _ .vmem, ⟨9, _⟩ => ⟨S384x192, .f32⟩
  | .local _ .vmem, ⟨10, _⟩ => ⟨S192x192, .f32⟩
  | .local _ .vmem, ⟨11, _⟩ => ⟨S192x192, .f32⟩
  | .local _ .vmem, ⟨12, _⟩ => ⟨S128x3072, .f32⟩
  | .local _ .vmem, ⟨13, _⟩ => ⟨S128x3072, .f32⟩
  | .local _ .vmem, ⟨14, _⟩ => ⟨S128x192, .f32⟩
  | .local _ .vmem, ⟨15, _⟩ => ⟨S128x192, .f32⟩
  | .local _ .vmem, ⟨16, _⟩ => ⟨S128x192, .f32⟩
  | .local _ .vmem, ⟨17, _⟩ => ⟨S128x192, .f32⟩
  | .local _ .vmem, ⟨18, _⟩ => ⟨S384x192, .f32⟩
  | .local _ .vmem, ⟨19, _⟩ => ⟨S192x192, .f32⟩
  | .local _ .vmem, ⟨20, _⟩ => ⟨S1x192, .f32⟩
  | .local _ .vmem, ⟨21, _⟩ => ⟨S384x384, .f32⟩
  | .local _ .vmem, ⟨22, _⟩ => ⟨S384x192, .f32⟩
  | .local _ .vmem, ⟨23, _⟩ => ⟨S192x64, .f32⟩
  | .local _ .vmem, ⟨24, _⟩ => ⟨S1x64, .f32⟩
  | .local _ .vmem, ⟨25, _⟩ => ⟨S384x64, .f32⟩
  | _, _ => ⟨S384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v7_0 : Ref sig .tc := ⟨.hbm, 23, rfl⟩
abbrev main_v7_1 : Ref sig .tc := ⟨.hbm, 24, rfl⟩
abbrev main_v8 : Ref sig .tc := ⟨.hbm, 25, rfl⟩
abbrev main_v9 : Ref sig .tc := ⟨.hbm, 26, rfl⟩
abbrev main_call0_cst : Ref sig .tc := ⟨.hbm, 27, rfl⟩
abbrev main_call0_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![3, 48], ![false, false]⟩

def k1_mult1 (i : grid1.Coords) : BitVec 32 :=
  let arg1 : BitVec 32 := BitVec.ofNat 32 (i 1).val
  let c8_i32 : BitVec 32 := 8#32
  let v3 : BitVec 32 := Scalar.muli arg1 c8_i32
  v3
def k1_off1 (i : grid1.Coords) : Fin 2 → Nat :=
  let arg1 : BitVec 32 := BitVec.ofNat 32 (i 1).val
  let c8_i32 : BitVec 32 := 8#32
  let v3 : BitVec 32 := Scalar.muli arg1 c8_i32
  let v4 : BitVec 32 := v3
  let v5 : Index := Scalar.indexCast v4
  let c0 : Index := 0#32
  ![v5.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S384x192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S384x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S192x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S192x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S128x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S128x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S384x192 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S192x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S384x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S384x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S192x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S384x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  shapeCasts_S192_S1x192 : S192.ShapeCasts S1x192
  shapeCasts_S64_S1x64 : S64.ShapeCasts S1x64
  inb_S384x512_S384x512_0_0 : ∀ a, (![0, 0] : Fin 2 → Nat) a + S384x512.size a ≤ S384x512.size a
  h_S384x512 : 0 < S384x512.numel
  bitsLt_bf16_f32 : FTy.bits .bf16 < FTy.bits .f32
  inb_S512x192_S512x192_0_0 : ∀ a, (![0, 0] : Fin 2 → Nat) a + S512x192.size a ≤ S512x192.size a
  h_S512x192 : 0 < S512x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S384x192 : S1x192.Broadcasts S384x192
  inb_S384x192_S384x192_0_0 : ∀ a, (![0, 0] : Fin 2 → Nat) a + S384x192.size a ≤ S384x192.size a
  h_S384x192 : 0 < S384x192.numel
  inb_S192x192_S192x192_0_0 : ∀ a, (![0, 0] : Fin 2 → Nat) a + S192x192.size a ≤ S192x192.size a
  h_S192x192 : 0 < S192x192.numel
  inb_S384x384_S384x384_0_0 : ∀ a, (![0, 0] : Fin 2 → Nat) a + S384x384.size a ≤ S384x384.size a
  h_S384x384 : 0 < S384x384.numel
  inb_S128x192_S128x192_0_0 : ∀ a, (![0, 0] : Fin 2 → Nat) a + S128x192.size a ≤ S128x192.size a
  h_S128x192 : 0 < S128x192.numel
  h_S8x192 : 0 < S8x192.numel
  shapeCasts_S8x192_S8x192 : S8x192.ShapeCasts S8x192
  shapeCasts_S384x192_S384x192 : S384x192.ShapeCasts S384x192
  shapeCasts_S8x192_S8x1x192 : S8x192.ShapeCasts S8x1x192
  shapeCasts_S384x192_S1x384x192 : S384x192.ShapeCasts S1x384x192
  broadcasts_S8x1x192_S8x384x192 : S8x1x192.Broadcasts S8x384x192
  broadcasts_S1x384x192_S8x384x192 : S1x384x192.Broadcasts S8x384x192
  shapeCasts_S8x384x192_S3072x192 : S8x384x192.ShapeCasts S3072x192
  inb_S128x3072_S128x3072_0_0 : ∀ a, (![0, 0] : Fin 2 → Nat) a + S128x3072.size a ≤ S128x3072.size a
  h_S128x3072 : 0 < S128x3072.numel
  shapeCasts_S128x192_S128x192 : S128x192.ShapeCasts S128x192
  bcast_S1x192_S384x192_0_1 : S1x192.BroadcastsInDim S384x192 (![0, 1] : Fin 2 → Fin S384x192.rank)
  bcast_S_S384x192 : S_.BroadcastsInDim S384x192 (![] : Fin 0 → Fin S384x192.rank)
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S384x64 : S1x64.Broadcasts S384x64
  reduces_S384x64_S384 : S384x64.Reduces [1] S384
  shapeCasts_S384_S384x1 : S384.ShapeCasts S384x1
  broadcasts_S384x1_S384x64 : S384x1.Broadcasts S384x64
  inb_S384x64_S384x64_0_0 : ∀ a, (![0, 0] : Fin 2 → Nat) a + S384x64.size a ≤ S384x64.size a
  h_S384x64 : 0 < S384x64.numel
  dot_S384x512_S512x192_S384x192_1_0_0_1_n_n_wf : DotDims.WF S384x512 S512x192 S384x192 [1] [0] [0] [1] [] []
  dot_S384x192_S192x192_S384x192_1_0_0_1_n_n_wf : DotDims.WF S384x192 S192x192 S384x192 [1] [0] [0] [1] [] []
  dot_S384x384_S384x192_S384x192_1_0_0_1_n_n_wf : DotDims.WF S384x384 S384x192 S384x192 [1] [0] [0] [1] [] []
  dot_S3072x192_S192x192_S3072x192_1_0_0_1_n_n_wf : DotDims.WF S3072x192 S192x192 S3072x192 [1] [0] [0] [1] [] []
  dot_S128x3072_S3072x192_S128x192_1_0_0_1_n_n_wf : DotDims.WF S128x3072 S3072x192 S128x192 [1] [0] [0] [1] [] []
  dot_S384x192_S192x64_S384x64_1_0_0_1_n_n_wf : DotDims.WF S384x192 S192x64 S384x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x512.size a ≤ S384x512.size a
  hwx0_0 : ∀ i : grid0.Coords, EltTy.bits .f32 = 32 ∨ (Rect.block (s := S384x512) S384x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x192.size a ≤ S512x192.size a
  hwx0_1 : ∀ i : grid0.Coords, EltTy.bits .f32 = 32 ∨ (Rect.block (s := S512x192) S512x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x192.size a ≤ S192x192.size a
  hwx0_4 : ∀ i : grid0.Coords, EltTy.bits .f32 = 32 ∨ (Rect.block (s := S192x192) S192x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x192.size a ≤ S1x192.size a
  hwx0_5 : ∀ i : grid0.Coords, EltTy.bits .f32 = 32 ∨ (Rect.block (s := S1x192) S1x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x192.size a ≤ S384x192.size a
  hwx0_6 : ∀ i : grid0.Coords, EltTy.bits .f32 = 32 ∨ (Rect.block (s := S384x192) S384x192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x192.size a ≤ S384x192.size a
  hwx0_7 : ∀ i : grid0.Coords, EltTy.bits .f32 = 32 ∨ (Rect.block (s := S384x192) S384x192.size (cc0_transform_7 i) (hinb0_7 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S8x192.size a ≤ S384x192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S384x192.size a ≤ S384x192.size a
  hwx1_0 : ∀ i : grid1.Coords, EltTy.bits .f32 = 32 ∨ (Rect.block (s := S384x192) S384x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x192.size a ≤ S384x192.size a
  hwx1_1 : ∀ i : grid1.Coords, EltTy.bits .f32 = 32 ∨ (Rect.block (s := S384x192) S384x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x192.size a ≤ S192x192.size a
  hwx1_2 : ∀ i : grid1.Coords, EltTy.bits .f32 = 32 ∨ (Rect.block (s := S192x192) S192x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x192.size a ≤ S192x192.size a
  hwx1_3 : ∀ i : grid1.Coords, EltTy.bits .f32 = 32 ∨ (Rect.block (s := S192x192) S192x192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x3072.size a ≤ S384x147456.size a
  hwx1_4 : ∀ i : grid1.Coords, EltTy.bits .f32 = 32 ∨ (Rect.block (s := S384x147456) S128x3072.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x192.size a ≤ S384x192.size a
  hwx1_5 : ∀ i : grid1.Coords, EltTy.bits .f32 = 32 ∨ (Rect.block (s := S384x192) S128x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x192.size a ≤ S384x192.size a
  hwx1_6 : ∀ i : grid1.Coords, EltTy.bits .f32 = 32 ∨ (Rect.block (s := S384x192) S128x192.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S384x192.size a ≤ S384x192.size a
  hwx2_0 : ∀ i : grid2.Coords, EltTy.bits .f32 = 32 ∨ (Rect.block (s := S384x192) S384x192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S192x192.size a ≤ S192x192.size a
  hwx2_1 : ∀ i : grid2.Coords, EltTy.bits .f32 = 32 ∨ (Rect.block (s := S192x192) S192x192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x192.size a ≤ S1x192.size a
  hwx2_2 : ∀ i : grid2.Coords, EltTy.bits .f32 = 32 ∨ (Rect.block (s := S1x192) S1x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x384.size a ≤ S384x384.size a
  hwx2_3 : ∀ i : grid2.Coords, EltTy.bits .f32 = 32 ∨ (Rect.block (s := S384x384) S384x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S384x192.size a ≤ S384x192.size a
  hwx2_4 : ∀ i : grid2.Coords, EltTy.bits .f32 = 32 ∨ (Rect.block (s := S384x192) S384x192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S192x64.size a ≤ S192x64.size a
  hwx2_5 : ∀ i : grid2.Coords, EltTy.bits .f32 = 32 ∨ (Rect.block (s := S192x64) S192x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S384x64.size a ≤ S384x64.size a
  hwx2_7 : ∀ i : grid2.Coords, EltTy.bits .f32 = 32 ∨ (Rect.block (s := S384x64) S384x64.size (cc2_transform_7 i) (hinb2_7 i)).WholeWords (EltTy.packing .f32)

variable [Facts₀]

def dot_S384x512_S512x192_S384x192_1_0_0_1_n_n : DotDims S384x512 S512x192 S384x192 where
  lhsContracting := [1]
  rhsContracting := [0]
  lhsNonContracting := [0]
  rhsNonContracting := [1]
  lhsBatch := []
  rhsBatch := []
  wf := dot_S384x512_S512x192_S384x192_1_0_0_1_n_n_wf
def dot_S384x192_S192x192_S384x192_1_0_0_1_n_n : DotDims S384x192 S192x192 S384x192 where
  lhsContracting := [1]
  rhsContracting := [0]
  lhsNonContracting := [0]
  rhsNonContracting := [1]
  lhsBatch := []
  rhsBatch := []
  wf := dot_S384x192_S192x192_S384x192_1_0_0_1_n_n_wf
def dot_S384x384_S384x192_S384x192_1_0_0_1_n_n : DotDims S384x384 S384x192 S384x192 where
  lhsContracting := [1]
  rhsContracting := [0]
  lhsNonContracting := [0]
  rhsNonContracting := [1]
  lhsBatch := []
  rhsBatch := []
  wf := dot_S384x384_S384x192_S384x192_1_0_0_1_n_n_wf
def dot_S3072x192_S192x192_S3072x192_1_0_0_1_n_n : DotDims S3072x192 S192x192 S3072x192 where
  lhsContracting := [1]
  rhsContracting := [0]
  lhsNonContracting := [0]
  rhsNonContracting := [1]
  lhsBatch := []
  rhsBatch := []
  wf := dot_S3072x192_S192x192_S3072x192_1_0_0_1_n_n_wf
def dot_S128x3072_S3072x192_S128x192_1_0_0_1_n_n : DotDims S128x3072 S3072x192 S128x192 where
  lhsContracting := [1]
  rhsContracting := [0]
  lhsNonContracting := [0]
  rhsNonContracting := [1]
  lhsBatch := []
  rhsBatch := []
  wf := dot_S128x3072_S3072x192_S128x192_1_0_0_1_n_n_wf
def dot_S384x192_S192x64_S384x64_1_0_0_1_n_n : DotDims S384x192 S192x64 S384x64 where
  lhsContracting := [1]
  rhsContracting := [0]
  lhsNonContracting := [0]
  rhsNonContracting := [1]
  lhsBatch := []
  rhsBatch := []
  wf := dot_S384x192_S192x64_S384x64_1_0_0_1_n_n_wf

abbrev win0_0 : Pipeline.Window sig grid0 :=
  Pipeline.Window.ofSpec (Memref.whole main_arg0) S384x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S192x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S384x192.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S384x192.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6_0) S384x192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S384x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S192x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S192x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x3072.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_0) S128x192.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_1) S128x192.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v12) S384x192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S192x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S384x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S384x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S192x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S384x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S384x512 : Shape := ⟨2, ![384, 512]⟩
abbrev S384x384 : Shape := ⟨2, ![384, 384]⟩
abbrev S384x147456 : Shape := ⟨2, ![384, 147456]⟩
abbrev S512x192 : Shape := ⟨2, ![512, 192]⟩
abbrev S192 : Shape := ⟨1, ![192]⟩
abbrev S192x64 : Shape := ⟨2, ![192, 64]⟩
abbrev S64 : Shape := ⟨1, ![64]⟩
abbrev S192x192 : Shape := ⟨2, ![192, 192]⟩
abbrev S384x192 : Shape := ⟨2, ![384, 192]⟩
abbrev S1x192 : Shape := ⟨2, ![1, 192]⟩
abbrev S384x1x192 : Shape := ⟨3, ![384, 1, 192]⟩
abbrev S1x384x192 : Shape := ⟨3, ![1, 384, 192]⟩
abbrev S384x384x192 : Shape := ⟨3, ![384, 384, 192]⟩
abbrev S147456x192 : Shape := ⟨2, ![147456, 192]⟩
abbrev S_ : Shape := ⟨0, ![]⟩
abbrev S384x64 : Shape := ⟨2, ![384, 64]⟩
abbrev S1x64 : Shape := ⟨2, ![1, 64]⟩
abbrev S384 : Shape := ⟨1, ![384]⟩
abbrev S384x1 : Shape := ⟨2, ![384, 1]⟩

abbrev nBuf : Space → Nat
  | .hbm => 83
  | .vmem => 0
  | .smem => 0
  | _ => 0

abbrev bufTy : (tb : Table) → Fin (tcTables nBuf tb) → BufTy
  | .hbm, ⟨0, _⟩ => ⟨S384x512, .f32⟩
  | .hbm, ⟨1, _⟩ => ⟨S384x384, .f32⟩
  | .hbm, ⟨2, _⟩ => ⟨S384x147456, .f32⟩
  | .hbm, ⟨3, _⟩ => ⟨S512x192, .f32⟩
  | .hbm, ⟨4, _⟩ => ⟨S192, .f32⟩
  | .hbm, ⟨5, _⟩ => ⟨S192x64, .f32⟩
  | .hbm, ⟨6, _⟩ => ⟨S64, .f32⟩
  | .hbm, ⟨7, _⟩ => ⟨S192x192, .f32⟩
  | .hbm, ⟨8, _⟩ => ⟨S192, .f32⟩
  | .hbm, ⟨9, _⟩ => ⟨S192x192, .f32⟩
  | .hbm, ⟨10, _⟩ => ⟨S192, .f32⟩
  | .hbm, ⟨11, _⟩ => ⟨S192x192, .f32⟩
  | .hbm, ⟨12, _⟩ => ⟨S192, .f32⟩
  | .hbm, ⟨13, _⟩ => ⟨S192x192, .f32⟩
  | .hbm, ⟨14, _⟩ => ⟨S192, .f32⟩
  | .hbm, ⟨15, _⟩ => ⟨S384x192, .f32⟩
  | .hbm, ⟨16, _⟩ => ⟨S1x192, .f32⟩
  | .hbm, ⟨17, _⟩ => ⟨S384x192, .f32⟩
  | .hbm, ⟨18, _⟩ => ⟨S384x192, .f32⟩
  | .hbm, ⟨19, _⟩ => ⟨S384x1x192, .f32⟩
  | .hbm, ⟨20, _⟩ => ⟨S1x384x192, .f32⟩
  | .hbm, ⟨21, _⟩ => ⟨S384x384x192, .f32⟩
  | .hbm, ⟨22, _⟩ => ⟨S384x384x192, .f32⟩
  | .hbm, ⟨23, _⟩ => ⟨S384x384x192, .f32⟩
  | .hbm, ⟨24, _⟩ => ⟨S147456x192, .f32⟩
  | .hbm, ⟨25, _⟩ => ⟨S147456x192, .f32⟩
  | .hbm, ⟨26, _⟩ => ⟨S384x192, .f32⟩
  | .hbm, ⟨27, _⟩ => ⟨S1x192, .f32⟩
  | .hbm, ⟨28, _⟩ => ⟨S384x192, .f32⟩
  | .hbm, ⟨29, _⟩ => ⟨S384x192, .f32⟩
  | .hbm, ⟨30, _⟩ => ⟨S_, .f32⟩
  | .hbm, ⟨31, _⟩ => ⟨S384x192, .f32⟩
  | .hbm, ⟨32, _⟩ => ⟨S384x192, .f32⟩
  | .hbm, ⟨33, _⟩ => ⟨S384x192, .f32⟩
  | .hbm, ⟨34, _⟩ => ⟨S384x192, .f32⟩
  | .hbm, ⟨35, _⟩ => ⟨S1x192, .f32⟩
  | .hbm, ⟨36, _⟩ => ⟨S384x192, .f32⟩
  | .hbm, ⟨37, _⟩ => ⟨S384x192, .f32⟩
  | .hbm, ⟨38, _⟩ => ⟨S_, .f32⟩
  | .hbm, ⟨39, _⟩ => ⟨S384x192, .f32⟩
  | .hbm, ⟨40, _⟩ => ⟨S384x192, .f32⟩
  | .hbm, ⟨41, _⟩ => ⟨S384x192, .f32⟩
  | .hbm, ⟨42, _⟩ => ⟨S384x192, .f32⟩
  | .hbm, ⟨43, _⟩ => ⟨S384x192, .f32⟩
  | .hbm, ⟨44, _⟩ => ⟨S384x192, .f32⟩
  | .hbm, ⟨45, _⟩ => ⟨S1x192, .f32⟩
  | .hbm, ⟨46, _⟩ => ⟨S384x192, .f32⟩
  | .hbm, ⟨47, _⟩ => ⟨S384x192, .f32⟩
  | .hbm, ⟨48, _⟩ => ⟨S384x1x192, .f32⟩
  | .hbm, ⟨49, _⟩ => ⟨S1x384x192, .f32⟩
  | .hbm, ⟨50, _⟩ => ⟨S384x384x192, .f32⟩
  | .hbm, ⟨51, _⟩ => ⟨S384x384x192, .f32⟩
  | .hbm, ⟨52, _⟩ => ⟨S384x384x192, .f32⟩
  | .hbm, ⟨53, _⟩ => ⟨S147456x192, .f32⟩
  | .hbm, ⟨54, _⟩ => ⟨S147456x192, .f32⟩
  | .hbm, ⟨55, _⟩ => ⟨S147456x192, .f32⟩
  | .hbm, ⟨56, _⟩ => ⟨S384x192, .f32⟩
  | .hbm, ⟨57, _⟩ => ⟨S1x192, .f32⟩
  | .hbm, ⟨58, _⟩ => ⟨S384x192, .f32⟩
  | .hbm, ⟨59, _⟩ => ⟨S384x192, .f32⟩
  | .hbm, ⟨60, _⟩ => ⟨S384x192, .f32⟩
  | .hbm, ⟨61, _⟩ => ⟨S_, .f32⟩
  | .hbm, ⟨62, _⟩ => ⟨S384x192, .f32⟩
  | .hbm, ⟨63, _⟩ => ⟨S384x192, .f32⟩
  | .hbm, ⟨64, _⟩ => ⟨S384x64, .f32⟩
  | .hbm, ⟨65, _⟩ => ⟨S1x64, .f32⟩
  | .hbm, ⟨66, _⟩ => ⟨S384x64, .f32⟩
  | .hbm, ⟨67, _⟩ => ⟨S384x64, .f32⟩
  | .hbm, ⟨68, _⟩ => ⟨S_, .f32⟩
  | .hbm, ⟨69, _⟩ => ⟨S384, .f32⟩
  | .hbm, ⟨70, _⟩ => ⟨S_, .f32⟩
  | .hbm, ⟨71, _⟩ => ⟨S384, .f32⟩
  | .hbm, ⟨72, _⟩ => ⟨S384, .f32⟩
  | .hbm, ⟨73, _⟩ => ⟨S384x1, .f32⟩
  | .hbm, ⟨74, _⟩ => ⟨S384x64, .f32⟩
  | .hbm, ⟨75, _⟩ => ⟨S384x64, .f32⟩
  | .hbm, ⟨76, _⟩ => ⟨S384x64, .f32⟩
  | .hbm, ⟨77, _⟩ => ⟨S_, .f32⟩
  | .hbm, ⟨78, _⟩ => ⟨S384, .f32⟩
  | .hbm, ⟨79, _⟩ => ⟨S384x1, .f32⟩
  | .hbm, ⟨80, _⟩ => ⟨S384x1, .f32⟩
  | .hbm, ⟨81, _⟩ => ⟨S384x64, .f32⟩
  | .hbm, ⟨82, _⟩ => ⟨S384x64, .f32⟩
  | _, _ => ⟨S384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_cst : Ref sig .tc := ⟨.hbm, 38, rfl⟩
abbrev main_call1_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call2_cst : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call3_cst : Ref sig .tc := ⟨.hbm, 68, rfl⟩
abbrev main_call3_v0 : Ref sig .tc := ⟨.hbm, 69, rfl⟩
abbrev main_call3_cst_0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_cst_1 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_v47 : Ref sig .tc := ⟨.hbm, 82, rfl⟩

abbrev nD : Nat := 1
abbrev τ : Topo := Topo.v7x

variable {F : FTy → Type} [FloatOps F]

class Facts₀ : Prop where
  bcast_S192_S1x192_1 : S192.BroadcastsInDim S1x192 (![1] : Fin 1 → Fin S1x192.rank)
  bcast_S1x192_S384x192_0_1 : S1x192.BroadcastsInDim S384x192 (![0, 1] : Fin 2 → Fin S384x192.rank)
  bcast_S384x192_S384x1x192_0_2 : S384x192.BroadcastsInDim S384x1x192 (![0, 2] : Fin 2 → Fin S384x1x192.rank)
  bcast_S384x192_S1x384x192_1_2 : S384x192.BroadcastsInDim S1x384x192 (![1, 2] : Fin 2 → Fin S1x384x192.rank)
  bcast_S384x1x192_S384x384x192_0_1_2 : S384x1x192.BroadcastsInDim S384x384x192 (![0, 1, 2] : Fin 3 → Fin S384x384x192.rank)
  bcast_S1x384x192_S384x384x192_0_1_2 : S1x384x192.BroadcastsInDim S384x384x192 (![0, 1, 2] : Fin 3 → Fin S384x384x192.rank)
  shapeCasts_S384x384x192_S147456x192 : S384x384x192.ShapeCasts S147456x192
  bcast_S_S384x192 : S_.BroadcastsInDim S384x192 (![] : Fin 0 → Fin S384x192.rank)
  bcast_S64_S1x64_1 : S64.BroadcastsInDim S1x64 (![1] : Fin 1 → Fin S1x64.rank)
  bcast_S1x64_S384x64_0_1 : S1x64.BroadcastsInDim S384x64 (![0, 1] : Fin 2 → Fin S384x64.rank)
  reducesTo_S384x64_S384_d1 : S384x64.ReducesTo [1] S384
  h_S_ : 0 < S_.numel
  bcast_S_S384 : S_.BroadcastsInDim S384 (![] : Fin 0 → Fin S384.rank)
  bcast_S384_S384x1_0 : S384.BroadcastsInDim S384x1 (![0] : Fin 1 → Fin S384x1.rank)
  bcast_S384x1_S384x64_0_1 : S384x1.BroadcastsInDim S384x64 (![0, 1] : Fin 2 → Fin S384x64.rank)
  dot_S384x512_S512x192_S384x192_1_0_0_1_n_n_wf : DotDims.WF S384x512 S512x192 S384x192 [1] [0] [0] [1] [] []
  dot_S147456x192_S192x192_S147456x192_1_0_0_1_n_n_wf : DotDims.WF S147456x192 S192x192 S147456x192 [1] [0] [0] [1] [] []
  dot_S384x147456_S147456x192_S384x192_1_0_0_1_n_n_wf : DotDims.WF S384x147456 S147456x192 S384x192 [1] [0] [0] [1] [] []
  dot_S384x192_S192x192_S384x192_1_0_0_1_n_n_wf : DotDims.WF S384x192 S192x192 S384x192 [1] [0] [0] [1] [] []
  dot_S384x384_S384x192_S384x192_1_0_0_1_n_n_wf : DotDims.WF S384x384 S384x192 S384x192 [1] [0] [0] [1] [] []
  dot_S384x192_S192x64_S384x64_1_0_0_1_n_n_wf : DotDims.WF S384x192 S192x64 S384x64 [1] [0] [0] [1] [] []

variable [Facts₀]

def dot_S384x512_S512x192_S384x192_1_0_0_1_n_n : DotDims S384x512 S512x192 S384x192 where
  lhsContracting := [1]
  rhsContracting := [0]
  lhsNonContracting := [0]
  rhsNonContracting := [1]
  lhsBatch := []
  rhsBatch := []
  wf := dot_S384x512_S512x192_S384x192_1_0_0_1_n_n_wf
def dot_S147456x192_S192x192_S147456x192_1_0_0_1_n_n : DotDims S147456x192 S192x192 S147456x192 where
  lhsContracting := [1]
  rhsContracting := [0]
  lhsNonContracting := [0]
  rhsNonContracting := [1]
  lhsBatch := []
  rhsBatch := []
  wf := dot_S147456x192_S192x192_S147456x192_1_0_0_1_n_n_wf
def dot_S384x147456_S147456x192_S384x192_1_0_0_1_n_n : DotDims S384x147456 S147456x192 S384x192 where
  lhsContracting := [1]
  rhsContracting := [0]
  lhsNonContracting := [0]
  rhsNonContracting := [1]
  lhsBatch := []
  rhsBatch := []
  wf := dot_S384x147456_S147456x192_S384x192_1_0_0_1_n_n_wf
def dot_S384x192_S192x192_S384x192_1_0_0_1_n_n : DotDims S384x192 S192x192 S384x192 where
  lhsContracting := [1]
  rhsContracting := [0]
  lhsNonContracting := [0]
  rhsNonContracting := [1]
  lhsBatch := []
  rhsBatch := []
  wf := dot_S384x192_S192x192_S384x192_1_0_0_1_n_n_wf
def dot_S384x384_S384x192_S384x192_1_0_0_1_n_n : DotDims S384x384 S384x192 S384x192 where
  lhsContracting := [1]
  rhsContracting := [0]
  lhsNonContracting := [0]
  rhsNonContracting := [1]
  lhsBatch := []
  rhsBatch := []
  wf := dot_S384x384_S384x192_S384x192_1_0_0_1_n_n_wf
def dot_S384x192_S192x64_S384x64_1_0_0_1_n_n : DotDims S384x192 S192x64 S384x64 where
  lhsContracting := [1]
  rhsContracting := [0]
  lhsNonContracting := [0]
  rhsNonContracting := [1]
  lhsBatch := []
  rhsBatch := []
  wf := dot_S384x192_S192x64_S384x64_1_0_0_1_n_n_wf

class Facts : Prop extends Facts₀ where

variable [Facts]
-- ==== Proof.Spec.lean ====
/-
  The network both programs compute, written once over matrices of extended reals.

  A matrix is a function of a row and a column. The layers are: an affine map `x · W + b`; a graph
  convolution `A · (u · W) + b`; the rectifier `max(·, 0)`; the edge features of a pair of node
  feature matrices, where edge `e = 384·i + j` carries the elementwise product of row `i` of the
  first and row `j` of the second; the edge aggregation `B · (f · W)` over all 147456 edges; and the
  row-wise log-softmax `z - m - log Σ exp(z - m)` with `m` the row maximum taken from `-∞`.

  The one law proved here is that a sum over the 147456 edges is the sum, over 48 consecutive runs
  of 3072 edges, of the sums within each run: the edge set is the product of the runs and the
  positions within a run, and a finite sum over a product is an iterated sum. No finiteness of the
  summands is needed: addition of extended reals is commutative and associative.
-/
import Idealize.ShloMosaic.Lib.ValueIdx
import Idealize.ShloMosaic.PureOps.Ideal.Laws

open scoped BigOperators

noncomputable section

namespace EdgeGcn

open Idealize.ShloMosaic Idealize.ShloMosaic.ValueIdx

/-- A matrix of extended reals with `m` rows and `n` columns. -/
abbrev Mat (m n : Nat) : Type := Fin m → Fin n → EReal

/-- A rank-2 array read as a matrix. -/
def mat {m n : Nat} (X : (⟨2, ![m, n]⟩ : Shape).Idx → EReal) : Mat m n := fun p q => X (ix2 p q)

/-- A matrix as a rank-2 array. -/
def arr {m n : Nat} (f : Mat m n) : (⟨2, ![m, n]⟩ : Shape).Idx → EReal := fun i => f (i 0) (i 1)

/-- A rank-1 array read as a vector. -/
def vec {n : Nat} (b : (⟨1, ![n]⟩ : Shape).Idx → EReal) : Fin n → EReal := fun q => b (ix1 q)

/-- A one-row rank-2 array read as a vector. -/
def row {n : Nat} (b : (⟨2, ![1, n]⟩ : Shape).Idx → EReal) : Fin n → EReal := fun q => b (ix2 0 q)

theorem arr_apply {m n : Nat} (f : Mat m n) (p : Fin m) (q : Fin n) : arr f (ix2 p q) = f p q := rfl

theorem mat_arr {m n : Nat} (f : Mat m n) : mat (arr f) = f := rfl

theorem arr_mat {m n : Nat} (X : (⟨2, ![m, n]⟩ : Shape).Idx → EReal) : arr (mat X) = X :=
  funext fun i => (congrArg X (eq_ix2 i)).symm

/-- Two arrays that agree at every `(p, q)` are equal. -/
theorem arr_ext {m n : Nat} {X : (⟨2, ![m, n]⟩ : Shape).Idx → EReal} {f : Mat m n}
    (h : ∀ p q, X (ix2 p q) = f p q) : X = arr f :=
  funext fun i => by rw [eq_ix2 i]; exact h (i 0) (i 1)

/-- The value of the 32-bit pattern of `+0.0`; it is `0`, which only the accumulation needs. -/
abbrev zero32 : EReal := Ideal.ofBits .f32 0x00000000#32

/-- The value of the 32-bit pattern of `-∞`, the start of a row maximum. -/
abbrev negInf32 : EReal := Ideal.ofBits .f32 0xFF800000#32

/-- `x · W + b`. -/
def affine {m k n : Nat} (x : Mat m k) (W : Mat k n) (b : Fin n → EReal) : Mat m n :=
  fun p q => (∑ j : Fin k, x p j * W j q) + b q

/-- `A · (u · W) + b`. -/
def gconv {n k h : Nat} (A : Mat n n) (u : Mat n k) (W : Mat k h) (b : Fin h → EReal) : Mat n h :=
  fun p q => (∑ j : Fin n, A p j * ∑ l : Fin k, u j l * W l q) + b q

/-- `max(u, 0)`, the zero being the pattern `+0.0`'s value. -/
def relu {m n : Nat} (u : Mat m n) : Mat m n := fun p q => max (u p q) zero32

/-- The first node of edge `e`: `e / 384`. -/
def src (e : Fin 147456) : Fin 384 := ⟨e.val / 384, by have := e.isLt; omega⟩

/-- The second node of edge `e`: `e % 384`. -/
def dst (e : Fin 147456) : Fin 384 := ⟨e.val % 384, Nat.mod_lt _ (by decide)⟩

/-- Edge features: at edge `e = (i, j)` the elementwise product of row `i` of `u` and row `j` of `v`. -/
def outer (u v : Mat 384 192) : Mat 147456 192 := fun e h => u (src e) h * v (dst e) h

/-- `B · (f · W)` over all edges. -/
def eagg (B : Mat 384 147456) (f : Mat 147456 192) (W : Mat 192 192) : Mat 384 192 :=
  fun r c => ∑ e : Fin 147456, B r e * ∑ h : Fin 192, f e h * W h c

/-- The row maximum, started from `-∞` and joined with `-∞` once more. -/
def rowMax {m n : Nat} (z : Mat m n) (p : Fin m) : EReal :=
  max negInf32 ((Finset.univ : Finset (Fin n)).fold max negInf32 (z p))

/-- Row-wise log-softmax: `(z - m) - log Σ exp(z - m)`. -/
def logSoftmax {m n : Nat} (z : Mat m n) : Mat m n :=
  fun p q => (z p q - rowMax z p) - Ideal.log (∑ l : Fin n, Ideal.exp (z p l - rowMax z p))

section Network

variable (x : Mat 384 512) (adj : Mat 384 384) (adj1 : Mat 384 147456) (Wemb : Mat 512 192)
  (bemb : Fin 192 → EReal) (Wcls : Mat 192 64) (bcls : Fin 64 → EReal) (W1 : Mat 192 192) (b1 : Fin 192 → EReal)
  (W2 : Mat 192 192) (b2 : Fin 192 → EReal) (We : Mat 192 192) (be : Fin 192 → EReal) (We2 : Mat 192 192)
  (be2 : Fin 192 → EReal)

/-- The embedded node features. -/
def embed : Mat 384 192 := affine x Wemb bemb

/-- The first graph convolution of the embedding, rectified. -/
def hidden (xi : Mat 384 192) : Mat 384 192 := relu (gconv adj xi W1 b1)

/-- The first edge convolution: the aggregated squares of the embedding. -/
def edgeRaw (xi : Mat 384 192) : Mat 384 192 := eagg adj1 (outer xi xi) We

/-- The second edge convolution: over the sum of both layers' edge features. -/
def edgeRaw2 (xi xh : Mat 384 192) : Mat 384 192 :=
  eagg adj1 (fun e h => outer xi xi e h + outer xh xh e h) We2

/-- The skip sum `xh + relu(er + be) + xi`, in this order. -/
def skip (xi xh er : Mat 384 192) : Mat 384 192 :=
  fun p q => xh p q + max (er p q + be q) zero32 + xi p q

/-- The classifier's input `relu((A · (xs · W2) + b2) + xe2)`. -/
def preLogits (xs xe2 : Mat 384 192) : Mat 384 192 :=
  relu fun p q => gconv adj xs W2 b2 p q + xe2 p q

/-- The output of the classifier head on `xs` and `xe2`. -/
def head (xs xe2 : Mat 384 192) : Mat 384 64 :=
  logSoftmax (affine (preLogits adj W2 b2 xs xe2) Wcls bcls)

/-- The whole network. -/
def forward : Mat 384 64 :=
  let xi := embed x Wemb bemb
  let xh := hidden adj W1 b1 xi
  let xs := skip be xi xh (edgeRaw adj1 We xi)
  let xe2 : Mat 384 192 := fun p q => edgeRaw2 adj1 We2 xi xh p q + be2 q
  head adj Wcls bcls W2 b2 xs xe2

end Network

/-! ## The edges as 48 runs of 3072 -/

/-- Edge number `k` of run `s`. -/
def chunkEdge (s : Fin 48) (k : Fin 3072) : Fin 147456 :=
  ⟨3072 * s.val + k.val, by have := s.isLt; have := k.isLt; omega⟩

theorem src_chunkEdge (s : Fin 48) (k : Fin 3072) : (src (chunkEdge s k)).val = 8 * s.val + k.val / 384 := by
  show (3072 * s.val + k.val) / 384 = _
  omega

theorem dst_chunkEdge (s : Fin 48) (k : Fin 3072) : (dst (chunkEdge s k)).val = k.val % 384 := by
  show (3072 * s.val + k.val) % 384 = _
  omega

/-- A sum over all edges is the sum over the runs of the sums within each run. -/
theorem sum_edges {M : Type*} [AddCommMonoid M] (f : Fin 147456 → M) :
    ∑ e : Fin 147456, f e = ∑ s : Fin 48, ∑ k : Fin 3072, f (chunkEdge s k) := by
  rw [← Fintype.sum_prod_type' (f := fun s k => f (chunkEdge s k))]
  refine (Fintype.sum_equiv (finProdFinEquiv (m := 48) (n := 3072)) _ _ fun sk => ?_).symm
  refine congrArg f (Fin.ext ?_)
  show 3072 * sk.1.val + sk.2.val = sk.2.val + 3072 * sk.1.val
  omega

end EdgeGcn

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Stage0.lean ====
/-
  What the first kernel leaves in its two result arrays, for any contents `V` of the buffers it is entered with.
  Its grid has one point and every window's block is its whole array, so the arrays are the body's two stored values:
  the embedding `x · W_emb + b_emb` and the rectified graph convolution `max(A · (xi · W1) + b1, 0)` of it.
-/
import proofs.«137686_j73504070304090_1_alg».proof.Proof.Gen.KernelIdeal.Frame
import proofs.«137686_j73504070304090_1_alg».proof.Proof.Spec
import proofs.«137686_j73504070304090_1_alg».proof.Proof.LibPlainDot
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open EdgeGcn

namespace Cert.KernelIdeal.Stage0

open Cert.KernelIdeal Cert.KernelIdeal.Gen

/-! ## The body's two stored values, entry by entry

Both are stated for arbitrary contents of the six operands, so that they can be used at whatever the blocks turn out
to hold. A change of float format is the identity on extended reals; a product into a zero accumulator is the plain
sum over the contracted axis; the bias is a one-row array repeated on every row. -/

/-- The two zero offsets, as a constant function. -/
theorem zeroOffsets : (![0, 0] : Fin 2 → Nat) = fun _ => 0 := funext fun a => by fin_cases a <;> rfl

/-- A one-row array spread over 384 rows, read at row `p` and column `q`, is the row's entry `q`. -/
theorem biasRow_apply (b : Vec Ideal S1x192 .f32) (p : Fin 384) (q : Fin 192) :
    broadcastTo S384x192 (shapeCast S1x192 b shapeCasts_S1x192_S1x192) broadcasts_S1x192_S384x192 (ix2 p q) = row b q := by
  rw [shapeCast_self]
  refine broadcastTo_apply b _ (ix2 p q) (ix2 0 q) fun a => ?_
  match a with
  | ⟨0, _⟩ => rfl
  | ⟨1, _⟩ => rfl

/-- The first stored value at `(p, q)`: `∑ j, x p j · W j q + b q`. -/
theorem embedValue_apply (x : Vec Ideal S384x512 .f32) (W : Vec Ideal S512x192 .f32) (b : Vec Ideal S1x192 .f32)
    (p : Fin 384) (q : Fin 192) :
    k0_pay1 (F := Ideal) x W b (ix2 p q) = affine (mat x) (mat W) (row b) p q := by
  unfold k0_pay1
  rw [addf_apply, biasRow_apply,
    PlainDot.matmul_zero_apply dot_S384x512_S512x192_S384x192_1_0_0_1_n_n rfl rfl rfl rfl rfl rfl rfl rfl]
  rfl

/-- The second stored value at `(p, q)`: with `u` the first one, `max (∑ j, A p j · ∑ l, u j l · W1 l q + b1 q) 0`.
    The inner product is taken first and the adjacency applied to it, as in the specification's graph convolution, so
    the two sums match term by term and no exchange of summation is needed. -/
theorem hiddenValue_apply (x : Vec Ideal S384x512 .f32) (W : Vec Ideal S512x192 .f32) (b : Vec Ideal S1x192 .f32)
    (W1 : Vec Ideal S192x192 .f32) (A : Vec Ideal S384x384 .f32) (b1 : Vec Ideal S1x192 .f32)
    (p : Fin 384) (q : Fin 192) :
    k0_pay2 (F := Ideal) x W b W1 A b1 (ix2 p q)
      = hidden (mat A) (mat W1) (row b1) (affine (mat x) (mat W) (row b)) p q := by
  unfold k0_pay2
  rw [maximumf_apply, broadcast_apply, addf_apply, biasRow_apply,
    PlainDot.matmul_zero_apply dot_S384x384_S384x192_S384x192_1_0_0_1_n_n rfl rfl rfl rfl rfl rfl rfl rfl]
  unfold EdgeGcn.hidden relu gconv
  refine congrArg₂ max (congrArg₂ (· + ·) (Finset.sum_congr rfl fun j _ => ?_) rfl) rfl
  rw [truncf_apply, truncf_apply,
    PlainDot.matmul_zero_apply dot_S384x192_S192x192_S384x192_1_0_0_1_n_n rfl rfl rfl rfl rfl rfl rfl rfl]
  refine congrArg₂ (· * ·) rfl (Finset.sum_congr rfl fun l _ => ?_)
  rw [truncf_apply, truncf_apply, embedValue_apply]
  rfl

variable (V : (c : Dev nD) → (b : Ref sig .tc) → Buf (Elt Ideal) ((c : Thread nD τ).loc b))

/-! ## The one point's blocks are the whole arrays

Every window's block index is `(0, 0)` and its block has the array's extents, so reading the block off an array
returns the array, and the block contains every index of the array. -/

/-- Window 0's block at the one point is the node features as the region finds it. -/
theorem block0_whole (c : Dev nD) : (iblk0 V c 0 t0_0 : Vec Ideal S384x512 .f32) = V c main_arg0 := by
  unfold iblk0
  have hoff : (fun a => win0_0.index t0_0 a * main_arg0.ty.shape.size a) = fun _ => 0 :=
    funext fun a => by fin_cases a <;> decide
  exact Memref.read_access_unit_zero (Elt Ideal) main_arg0 hoff (fun a => by rw [congrFun hoff a]; simp) (V c main_arg0)

/-- Window 1's block at the one point is the embedding weights as the region finds it. -/
theorem block1_whole (c : Dev nD) : (iblk0 V c 1 t0_0 : Vec Ideal S512x192 .f32) = V c main_arg3 := by
  unfold iblk0
  have hoff : (fun a => win0_1.index t0_0 a * main_arg3.ty.shape.size a) = fun _ => 0 :=
    funext fun a => by fin_cases a <;> decide
  exact Memref.read_access_unit_zero (Elt Ideal) main_arg3 hoff (fun a => by rw [congrFun hoff a]; simp) (V c main_arg3)

/-- Window 2's block at the one point is the embedding bias row as the region finds it. -/
theorem block2_whole (c : Dev nD) : (iblk0 V c 2 t0_0 : Vec Ideal S1x192 .f32) = V c main_v0 := by
  unfold iblk0
  have hoff : (fun a => win0_2.index t0_0 a * main_v0.ty.shape.size a) = fun _ => 0 :=
    funext fun a => by fin_cases a <;> decide
  exact Memref.read_access_unit_zero (Elt Ideal) main_v0 hoff (fun a => by rw [congrFun hoff a]; simp) (V c main_v0)

/-- Window 3's block at the one point is the adjacency as the region finds it. -/
theorem block3_whole (c : Dev nD) : (iblk0 V c 3 t0_0 : Vec Ideal S384x384 .f32) = V c main_arg1 := by
  unfold iblk0
  have hoff : (fun a => win0_3.index t0_0 a * main_arg1.ty.shape.size a) = fun _ => 0 :=
    funext fun a => by fin_cases a <;> decide
  exact Memref.read_access_unit_zero (Elt Ideal) main_arg1 hoff (fun a => by rw [congrFun hoff a]; simp) (V c main_arg1)

/-- Window 4's block at the one point is the convolution weights as the region finds it. -/
theorem block4_whole (c : Dev nD) : (iblk0 V c 4 t0_0 : Vec Ideal S192x192 .f32) = V c main_arg7 := by
  unfold iblk0
  have hoff : (fun a => win0_4.index t0_0 a * main_arg7.ty.shape.size a) = fun _ => 0 :=
    funext fun a => by fin_cases a <;> decide
  exact Memref.read_access_unit_zero (Elt Ideal) main_arg7 hoff (fun a => by rw [congrFun hoff a]; simp) (V c main_arg7)

/-- Window 5's block at the one point is the convolution bias row as the region finds it. -/
theorem block5_whole (c : Dev nD) : (iblk0 V c 5 t0_0 : Vec Ideal S1x192 .f32) = V c main_v1 := by
  unfold iblk0
  have hoff : (fun a => win0_5.index t0_0 a * main_v1.ty.shape.size a) = fun _ => 0 :=
    funext fun a => by fin_cases a <;> decide
  exact Memref.read_access_unit_zero (Elt Ideal) main_v1 hoff (fun a => by rw [congrFun hoff a]; simp) (V c main_v1)

/-- Result window 6's block at the one point, read off any contents `G` of its array, is `G`: the block starts at
    row 0 and column 0 and has the array's extents. -/
theorem out6_read_whole (c : Dev nD) (G : Buf (Elt Ideal) ((c : Thread nD τ).loc main_v6_0)) :
    (cfg0.win 6).cut (grid0.coords t0_0) G = ((cfg0.win 6).blk t0_0).view.read (Elt Ideal) G := by
  have hoff : (fun a => win0_6.index t0_0 a * main_v6_0.ty.shape.size a) = fun _ => 0 :=
    funext fun a => by fin_cases a <;> decide
  exact (Memref.read_access_unit_zero (Elt Ideal) main_v6_0 hoff (fun a => by rw [congrFun hoff a]; simp) G).symm

/-- Every index of result 0's array lies in the one point's block. -/
theorem out6_covered (c : Dev nD) (i : ((cfg0.win 6).arr.view.loc (c.tc : Thread nD τ)).2.ty.Idx) :
    i ∈ ((cfg0.win 6).blk t0_0).view.set := by
  show i ∈ ((View.whole main_v6_0).slice (win0_6.rect t0_0)).set
  rw [View.set_slice_whole, Rect.mem_set_unit]
  intro a
  have hlo : win0_6.index t0_0 a * win0_6.size a = 0 := by fin_cases a <;> decide
  have hsz : win0_6.xsize (grid0.coords t0_0) a = main_v6_0.ty.shape.size a := by fin_cases a <;> decide
  rw [hlo, hsz]
  exact ⟨Nat.zero_le _, by rw [Nat.zero_add]; exact (i a).isLt⟩

/-- Result window 7's block at the one point, read off any contents `G` of its array, is `G`: the block starts at
    row 0 and column 0 and has the array's extents. -/
theorem out7_read_whole (c : Dev nD) (G : Buf (Elt Ideal) ((c : Thread nD τ).loc main_v6_1)) :
    (cfg0.win 7).cut (grid0.coords t0_0) G = ((cfg0.win 7).blk t0_0).view.read (Elt Ideal) G := by
  have hoff : (fun a => win0_7.index t0_0 a * main_v6_1.ty.shape.size a) = fun _ => 0 :=
    funext fun a => by fin_cases a <;> decide
  exact (Memref.read_access_unit_zero (Elt Ideal) main_v6_1 hoff (fun a => by rw [congrFun hoff a]; simp) G).symm

/-- Every index of result 1's array lies in the one point's block. -/
theorem out7_covered (c : Dev nD) (i : ((cfg0.win 7).arr.view.loc (c.tc : Thread nD τ)).2.ty.Idx) :
    i ∈ ((cfg0.win 7).blk t0_0).view.set := by
  show i ∈ ((View.whole main_v6_1).slice (win0_7.rect t0_0)).set
  rw [View.set_slice_whole, Rect.mem_set_unit]
  intro a
  have hlo : win0_7.index t0_0 a * win0_7.size a = 0 := by fin_cases a <;> decide
  have hsz : win0_7.xsize (grid0.coords t0_0) a = main_v6_1.ty.shape.size a := by fin_cases a <;> decide
  rw [hlo, hsz]
  exact ⟨Nat.zero_le _, by rw [Nat.zero_add]; exact (i a).isLt⟩

/-- The embedding the region is entered with: `x · W_emb + b_emb` of the entry contents. -/
abbrev xi (c : Dev nD) : Mat 384 192 :=
  affine (mat (m := 384) (n := 512) (V c main_arg0)) (mat (m := 512) (n := 192) (V c main_arg3)) (row (n := 192) (V c main_v0))

/-- Result 0 ends holding the embedding. -/
theorem embed_out (c : Dev nD) : (dat0 (F := Ideal) V c).arrAt 6 cfg0.N = arr (xi V c) := by
  refine (dat0 V c).arrAt_eq_of_cover 6 (arr (xi V c)) (fun t _ => ?_) fun i => ⟨t0_0, flush0_6 t0_0, out6_covered c i⟩
  obtain rfl := fin_N0 t
  show (cfg0.win 6).cut (grid0.coords t0_0) ((dat0 V c).after 6 t0_0) = _
  rw [after0_6, block0_whole, block1_whole, block2_whole]
  unfold out0_6
  rw [View.canon_unit_zero zeroOffsets]
  simp only [View.ld_unit_zero (S := S384x512) zeroOffsets, View.ld_unit_zero (S := S512x192) zeroOffsets,
    View.ld_unit_zero (S := S1x192) zeroOffsets]
  rw [show k0_pay1 (F := Ideal) (V c main_arg0) (V c main_arg3) (V c main_v0) = arr (xi V c) from
    arr_ext fun p q => embedValue_apply _ _ _ p q]
  exact out6_read_whole c _

/-- Result 1 ends holding the rectified graph convolution of the embedding. -/
theorem hidden_out (c : Dev nD) :
    (dat0 (F := Ideal) V c).arrAt 7 cfg0.N
      = arr (hidden (mat (m := 384) (n := 384) (V c main_arg1)) (mat (m := 192) (n := 192) (V c main_arg7)) (row (n := 192) (V c main_v1)) (xi V c)) := by
  refine (dat0 V c).arrAt_eq_of_cover 7 _ (fun t _ => ?_) fun i => ⟨t0_0, flush0_7 t0_0, out7_covered c i⟩
  obtain rfl := fin_N0 t
  show (cfg0.win 7).cut (grid0.coords t0_0) ((dat0 V c).after 7 t0_0) = _
  rw [after0_7, block0_whole, block1_whole, block2_whole, block3_whole, block4_whole, block5_whole]
  unfold out0_7
  rw [View.canon_unit_zero zeroOffsets]
  simp only [View.ld_unit_zero (S := S384x512) zeroOffsets, View.ld_unit_zero (S := S512x192) zeroOffsets,
    View.ld_unit_zero (S := S1x192) zeroOffsets, View.ld_unit_zero (S := S192x192) zeroOffsets,
    View.ld_unit_zero (S := S384x384) zeroOffsets]
  rw [show k0_pay2 (F := Ideal) (V c main_arg0) (V c main_arg3) (V c main_v0) (V c main_arg7) (V c main_arg1) (V c main_v1)
      = arr (hidden (mat (m := 384) (n := 384) (V c main_arg1)) (mat (m := 192) (n := 192) (V c main_arg7)) (row (n := 192) (V c main_v1)) (xi V c)) from
    arr_ext fun p q => hiddenValue_apply _ _ _ _ _ _ p q]
  exact out7_read_whole c _

end Cert.KernelIdeal.Stage0

end
-- ==== Proof.Stage1Math.lean ====
/-
  One run's update of a result block of the second kernel, read at an element, at the ideal values.

  The body multiplies the adjacency block `[128, 3072]` with the projected edge features of the run `[3072, 192]`,
  themselves the product of the run's edge features `[3072, 192]` with a weight matrix `[192, 192]`, and adds the
  result to what the block held. Position `k` of a run is the pair (`k / 384` among the run's eight first nodes,
  `k % 384` among all second nodes), and its feature is the elementwise product of those two rows. So element `(r, c)`
  becomes `old (r, c) + Σ_k B (r, k) · Σ_h (u (k / 384, h) · v (k % 384, h)) · W (h, c)`; the second result does the same
  over the sum of two such features.
-/
import proofs.«137686_j73504070304090_1_alg».proof.Proof.Gen.KernelIdeal.Skeleton
import proofs.«137686_j73504070304090_1_alg».proof.Proof.Spec
import proofs.«137686_j73504070304090_1_alg».proof.Proof.LibPlainDot
import Idealize.ShloMosaic.Lib.Pipeline.Value
import Idealize.ShloMosaic.Lib.ValueLayout

noncomputable section

open Idealize.ShloMosaic Idealize.ShloMosaic.TcCoe Idealize.ShloMosaic.ValueIdx
open EdgeGcn

namespace Cert.KernelIdeal.Stage1Math

open Cert.KernelIdeal Cert.KernelIdeal.Gen

/-- Position `k` of a run: which of the run's eight first nodes. -/
def runSrc (k : Fin 3072) : Fin 8 := ⟨k.val / 384, by have := k.isLt; omega⟩

/-- Position `k` of a run: which second node. -/
def runDst (k : Fin 3072) : Fin 384 := ⟨k.val % 384, Nat.mod_lt _ (by decide)⟩

section Layout
variable {α : Type}

/-- The cast `[8, 384, 192] → [3072, 192]` keeps the row-major position: row `k` is the pair
    `(k / 384, k % 384)`, since `384 · (k / 384) + k % 384 = k`. -/
theorem cast_run_apply (x : S8x384x192.Idx → α) (hc : S8x384x192.ShapeCasts S3072x192) (k : Fin 3072) (h : Fin 192) :
    shapeCast S3072x192 x hc (ix2 k h) = x (ix3 (runSrc k) (runDst k) h) :=
  shapeCast_apply x hc _ _ (by
    rw [Shape.rowMajor_val_three, Shape.rowMajor_val_two]
    show ((k.val / 384) * 384 + k.val % 384) * 192 + h.val = k.val * 192 + h.val
    omega)

/-- The cast `[8, 192] → [8, 1, 192]` at `(a, u, h)` reads `(a, h)`. -/
theorem cast_src_apply (x : S8x192.Idx → α) (hc : S8x192.ShapeCasts S8x1x192) (a : Fin 8) (u : Fin 1) (h : Fin 192) :
    shapeCast S8x1x192 x hc (ix3 a u h) = x (ix2 a h) :=
  shapeCast_apply x hc _ _ (by
    have hu : u.val = 0 := by omega
    rw [Shape.rowMajor_val_two, Shape.rowMajor_val_three]
    show a.val * 192 + h.val = (a.val * 1 + u.val) * 192 + h.val
    omega)

/-- The cast `[384, 192] → [1, 384, 192]` at `(u, j, h)` reads `(j, h)`. -/
theorem cast_dst_apply (x : S384x192.Idx → α) (hc : S384x192.ShapeCasts S1x384x192) (u : Fin 1) (j : Fin 384) (h : Fin 192) :
    shapeCast S1x384x192 x hc (ix3 u j h) = x (ix2 j h) :=
  shapeCast_apply x hc _ _ (by
    have hu : u.val = 0 := by omega
    rw [Shape.rowMajor_val_two, Shape.rowMajor_val_three]
    show j.val * 192 + h.val = (u.val * 384 + j.val) * 192 + h.val
    omega)

/-- The broadcast `[8, 1, 192] → [8, 384, 192]` forgets the middle coordinate. -/
theorem bcast_src_apply (x : S8x1x192.Idx → α) (hb : S8x1x192.Broadcasts S8x384x192) (a : Fin 8) (j : Fin 384) (h : Fin 192) :
    broadcastTo S8x384x192 x hb (ix3 a j h) = x (ix3 a (0 : Fin 1) h) :=
  broadcastTo_apply x hb _ _ fun c => match c with | ⟨0, _⟩ => rfl | ⟨1, _⟩ => rfl | ⟨2, _⟩ => rfl

/-- The broadcast `[1, 384, 192] → [8, 384, 192]` forgets the first coordinate. -/
theorem bcast_dst_apply (x : S1x384x192.Idx → α) (hb : S1x384x192.Broadcasts S8x384x192) (a : Fin 8) (j : Fin 384) (h : Fin 192) :
    broadcastTo S8x384x192 x hb (ix3 a j h) = x (ix3 (0 : Fin 1) j h) :=
  broadcastTo_apply x hb _ _ fun c => match c with | ⟨0, _⟩ => rfl | ⟨1, _⟩ => rfl | ⟨2, _⟩ => rfl

end Layout

/-- The run's edge features at `(k, h)`: row `k / 384` of the first times row `k % 384` of the second. -/
theorem feat_apply (u : Vec Ideal S8x192 .f32) (v : Vec Ideal S384x192 .f32) (k : Fin 3072) (h : Fin 192) :
    k1_pay5 (F := Ideal) u v (ix2 k h) = u (ix2 (runSrc k) h) * v (ix2 (runDst k) h) := by
  unfold k1_pay5
  rw [cast_run_apply, mulf_apply, bcast_src_apply, bcast_dst_apply, cast_src_apply, cast_dst_apply, truncf_apply,
    truncf_apply, shapeCast_self, shapeCast_self]

/-- The run's projected edge features at `(k, c)`. -/
theorem proj_apply (u : Vec Ideal S8x192 .f32) (v : Vec Ideal S384x192 .f32) (w : Vec Ideal S192x192 .f32) (k : Fin 3072)
    (c : Fin 192) :
    k1_pay6 (F := Ideal) u v w (ix2 k c)
      = ∑ h : Fin 192, (u (ix2 (runSrc k) h) * v (ix2 (runDst k) h)) * w (ix2 h c) := by
  unfold k1_pay6
  refine (PlainDot.matmul_zero_apply dot_S3072x192_S192x192_S3072x192_1_0_0_1_n_n rfl rfl rfl rfl rfl rfl rfl rfl
    none _ _ k c).trans ?_
  refine Finset.sum_congr rfl fun h _ => ?_
  rw [feat_apply, truncf_apply]

/-- The second product's left operand is the sum of the two pairs' edge features. -/
theorem pay7_eq (u u' : Vec Ideal S8x192 .f32) (v v' : Vec Ideal S384x192 .f32) (w : Vec Ideal S192x192 .f32) :
    k1_pay7 (F := Ideal) u u' v v' w
      = matmul dot_S3072x192_S192x192_S3072x192_1_0_0_1_n_n none (addf (k1_pay5 u v) (k1_pay5 u' v'))
          (truncf .bf16 w bitsLt_bf16_f32) (constant S3072x192 .f32 0x00000000#32) := rfl

/-- The run's projected summed edge features at `(k, c)`. -/
theorem proj2_apply (u u' : Vec Ideal S8x192 .f32) (v v' : Vec Ideal S384x192 .f32) (w : Vec Ideal S192x192 .f32)
    (k : Fin 3072) (c : Fin 192) :
    k1_pay7 (F := Ideal) u u' v v' w (ix2 k c)
      = ∑ h : Fin 192, (u (ix2 (runSrc k) h) * v (ix2 (runDst k) h)
          + u' (ix2 (runSrc k) h) * v' (ix2 (runDst k) h)) * w (ix2 h c) := by
  rw [pay7_eq]
  refine (PlainDot.matmul_zero_apply dot_S3072x192_S192x192_S3072x192_1_0_0_1_n_n rfl rfl rfl rfl rfl rfl rfl rfl
    none _ _ k c).trans ?_
  refine Finset.sum_congr rfl fun h _ => ?_
  rw [addf_apply, feat_apply, feat_apply, truncf_apply]

/-- A block's update at `(r, c)`: the old value plus row `r` of the adjacency block against column `c` of the
    projected features. -/
theorem upd_apply (p : FVec Ideal S3072x192 .f32) (b : Vec Ideal S128x3072 .f32) (o : Vec Ideal S128x192 .f32) (r : Fin 128)
    (c : Fin 192) :
    k1_pay1 (F := Ideal) p (k1_pay8 b) o (ix2 r c) = o (ix2 r c) + ∑ k : Fin 3072, b (ix2 r k) * p (ix2 k c) := by
  unfold k1_pay1 k1_pay8
  rw [addf_apply, shapeCast_self]
  refine congrArg (o (ix2 r c) + ·) ?_
  refine (PlainDot.matmul_zero_apply dot_S128x3072_S3072x192_S128x192_1_0_0_1_n_n rfl rfl rfl rfl rfl rfl rfl rfl
    none _ _ r c).trans ?_
  refine Finset.sum_congr rfl fun k _ => ?_
  rw [truncf_apply, truncf_apply]

/-- The second block's update is the same operation on its own operands. -/
theorem pay2_eq (p : FVec Ideal S3072x192 .f32) (b : FVec Ideal S128x3072 .bf16) (o : Vec Ideal S128x192 .f32) :
    k1_pay2 (F := Ideal) p b o = k1_pay1 p b o := rfl

/-- The first result's update at `(r, c)`. -/
theorem acc_apply (v6 : Vec Ideal S8x192 .f32) (v13 : Vec Ideal S384x192 .f32) (v32 : Vec Ideal S192x192 .f32)
    (v38 : Vec Ideal S128x3072 .f32) (v40 : Vec Ideal S128x192 .f32) (r : Fin 128) (c : Fin 192) :
    k1_pay1 (F := Ideal) (k1_pay6 v6 v13 v32) (k1_pay8 v38) v40 (ix2 r c)
      = v40 (ix2 r c) + ∑ k : Fin 3072, v38 (ix2 r k)
          * ∑ h : Fin 192, (v6 (ix2 (runSrc k) h) * v13 (ix2 (runDst k) h)) * v32 (ix2 h c) := by
  rw [upd_apply]
  refine congrArg (v40 (ix2 r c) + ·) (Finset.sum_congr rfl fun k _ => ?_)
  rw [proj_apply]

/-- The second result's update at `(r, c)`. -/
theorem acc2_apply (v6 v10 : Vec Ideal S8x192 .f32) (v13 v16 : Vec Ideal S384x192 .f32) (v34 : Vec Ideal S192x192 .f32)
    (v38 : Vec Ideal S128x3072 .f32) (v46 : Vec Ideal S128x192 .f32) (r : Fin 128) (c : Fin 192) :
    k1_pay2 (F := Ideal) (k1_pay7 v6 v10 v13 v16 v34) (k1_pay8 v38) v46 (ix2 r c)
      = v46 (ix2 r c) + ∑ k : Fin 3072, v38 (ix2 r k)
          * ∑ h : Fin 192, (v6 (ix2 (runSrc k) h) * v13 (ix2 (runDst k) h)
              + v10 (ix2 (runSrc k) h) * v16 (ix2 (runDst k) h)) * v34 (ix2 h c) := by
  rw [pay2_eq, upd_apply]
  refine congrArg (v46 (ix2 r c) + ·) (Finset.sum_congr rfl fun k _ => ?_)
  rw [proj2_apply]

end Cert.KernelIdeal.Stage1Math

end
-- ==== Proof.Stage1.lean ====
/-
  What the second kernel leaves in its two result arrays, for any contents `V` of the buffers it is entered with.
  Its grid is 3 row blocks by 48 runs of edges; a result block is zeroed at the first run and each run adds its
  part `B_run · (f_run · W)`, so a block ends at the sum over the 48 runs, which is the sum over all edges.
-/
import proofs.«137686_j73504070304090_1_alg».proof.Proof.Gen.KernelIdeal.Frame
import proofs.«137686_j73504070304090_1_alg».proof.Proof.Spec
import proofs.«137686_j73504070304090_1_alg».proof.Proof.LibPlainDot
import proofs.«137686_j73504070304090_1_alg».proof.Proof.Stage1Math
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open EdgeGcn

namespace Cert.KernelIdeal.Stage1

open Cert.KernelIdeal Cert.KernelIdeal.Gen

variable (V : (c : Dev nD) → (b : Ref sig .tc) → Buf (Elt Ideal) ((c : Thread nD τ).loc b))

/-! ## What one run leaves in a result block

Each result block is written once per run (twice at a first run: the zero block, then the update that reads it back).
The lemmas below read the stored value as the body's arithmetic applied to the blocks the run loads: the eight rows of
each feature matrix that hold the run's first nodes, both feature matrices whole, a weight matrix, the run's adjacency
block, and what the result block held. -/

section Pieces
variable {F : FTy → Type} [FloatOps F]

theorem hz : (![0, 0] : Fin 2 → Nat) = fun _ => 0 := funext fun a => by fin_cases a <;> rfl

/-- A later run: the first result block becomes its update from what it held. -/
theorem pieceB5 (c : Dev nD) (i : grid1.Coords) (a2 : Memref sig .tc .vmem S384x192 .f32) (h2 : a2.IsWhole) (a3 : Memref sig .tc .vmem S384x192 .f32) (h3 : a3.IsWhole) (a4 : Memref sig .tc .vmem S192x192 .f32) (h4 : a4.IsWhole) (a5 : Memref sig .tc .vmem S192x192 .f32) (h5 : a5.IsWhole) (a6 : Memref sig .tc .vmem S128x3072 .f32) (h6 : a6.IsWhole) (a7 : Memref sig .tc .vmem S128x192 .f32) (h7 : a7.IsWhole) (a8 : Memref sig .tc .vmem S128x192 .f32) (h8 : a8.IsWhole) (hc : ¬cond1_0 i)
    (x0 x1 : Vec F S384x192 .f32) (x2 x3 : Vec F S192x192 .f32) (x4 : Vec F S128x3072 .f32) (xo5 xo6 : Vec F S128x192 .f32) :
    out1_B_5 c i a2 h2 a3 h3 a4 h4 a5 h5 a6 h6 a7 h7 a8 h8 hc x0 x1 x2 x3 x4 xo5 xo6
      = k1_pay1 (k1_pay6 (View.ld x0 (Rect.unit (s := S384x192) (k1_off1 i) S8x192.size (k1_off1_inb i))) x0 x2) (k1_pay8 x4) xo5 := by
  unfold out1_B_5
  rw [View.read_writes_eq_canon _ _ _ (cover1_B_5 c i a2 h2 a3 h3 a4 h4 a5 h5 a6 h6 a7 h7 a8 h8 hc x0 x1 x2 x3 x4 xo5 xo6)]
  unfold kernelRun1_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S128x192) hz, View.ld_unit_zero (S := S384x192) hz, View.ld_unit_zero (S := S192x192) hz, View.ld_unit_zero (S := S128x3072) hz, shapeCast_self]

/-- A later run: the second result block becomes its update from what it held. -/
theorem pieceB6 (c : Dev nD) (i : grid1.Coords) (a2 : Memref sig .tc .vmem S384x192 .f32) (h2 : a2.IsWhole) (a3 : Memref sig .tc .vmem S384x192 .f32) (h3 : a3.IsWhole) (a4 : Memref sig .tc .vmem S192x192 .f32) (h4 : a4.IsWhole) (a5 : Memref sig .tc .vmem S192x192 .f32) (h5 : a5.IsWhole) (a6 : Memref sig .tc .vmem S128x3072 .f32) (h6 : a6.IsWhole) (a7 : Memref sig .tc .vmem S128x192 .f32) (h7 : a7.IsWhole) (a8 : Memref sig .tc .vmem S128x192 .f32) (h8 : a8.IsWhole) (hc : ¬cond1_0 i)
    (x0 x1 : Vec F S384x192 .f32) (x2 x3 : Vec F S192x192 .f32) (x4 : Vec F S128x3072 .f32) (xo5 xo6 : Vec F S128x192 .f32) :
    out1_B_6 c i a2 h2 a3 h3 a4 h4 a5 h5 a6 h6 a7 h7 a8 h8 hc x0 x1 x2 x3 x4 xo5 xo6
      = k1_pay2 (k1_pay7 (View.ld x0 (Rect.unit (s := S384x192) (k1_off1 i) S8x192.size (k1_off1_inb i))) (View.ld x1 (Rect.unit (s := S384x192) (k1_off1 i) S8x192.size (k1_off1_inb i))) x0 x1 x3) (k1_pay8 x4) xo6 := by
  unfold out1_B_6
  rw [View.read_writes_eq_canon _ _ _ (cover1_B_6 c i a2 h2 a3 h3 a4 h4 a5 h5 a6 h6 a7 h7 a8 h8 hc x0 x1 x2 x3 x4 xo5 xo6)]
  unfold kernelRun1_B
  dsimp only
  sl_unfold_words
  rw [View.canon_unit_zero hz]
  simp only [View.readAt_eq_ld, h2.read_unread, h3.read_unread, h4.read_unread, h5.read_unread, h6.read_unread, h7.read_unread, h8.read_unread, View.ld_unit_zero (S := S128x192) hz, View.ld_unit_zero (S := S384x192) hz, View.ld_unit_zero (S := S192x192) hz, View.ld_unit_zero (S := S128x3072) hz, shapeCast_self]

/-- A first run: the first result block becomes its update from the zero block. -/
theorem pieceA5 (c : Dev nD) (i : grid1.Coords) (a2 : Memref sig .tc .vmem S384x192 .f32) (h2 : a2.IsWhole) (a3 : Memref sig .tc .vmem S384x192 .f32) (h3 : a3.IsWhole) (a4 : Memref sig .tc .vmem S192x192 .f32) (h4 : a4.IsWhole) (a5 : Memref sig .tc .vmem S192x192 .f32) (h5 : a5.IsWhole) (a6 : Memref sig .tc .vmem S128x3072 .f32) (h6 : a6.IsWhole) (a7 : Memref sig .tc .vmem S128x192 .f32) (h7 : a7.IsWhole) (a8 : Memref sig .tc .vmem S128x192 .f32) (h8 : a8.IsWhole) (hc : cond1_0 i)
    (x0 x1 : Vec F S384x192 .f32) (x2 x3 : Vec F S192x192 .f32) (x4 : Vec F S128x3072 .f32) :
    out1_A_5 c i a2 h2 a3 h3 a4 h4 a5 h5 a6 h6 a7 h7 a8 h8 hc x0 x1 x2 x3 x4
      = k1_pay1 (k1_pay6 (View.ld x0 (Rect.unit (s := S384x192) (k1_off1 i) S8x192.size (k1_off1_inb i))) x0 x2) (k1_pay8 x4) (k1_pay3 (F := F)) := by
  unfold out1_A_5
  rw [View.read_writes_eq_canon _ _ _ (cover1_A_5 c i a2 h2 a3 h3 a4 h4 a5 h5 a6 h6 a7 h7 a8 h8 hc x0 x1 x2 x3 x4)]
  unfold kernelRun1_A
  dsimp only
  sl_unfold_words
  rw [View.canon_cons_unit_zero (S := S128x192) hz, View.readCov_unit_zero (S := S128x192) _ hz]
  simp only [View.readAt_eq_ld, h2.read_unread, h3.read_unread, h4.read_unread, h5.read_unread, h6.read_unread, h7.read_unread, h8.read_unread, View.ld_unit_zero (S := S128x192) hz, View.ld_unit_zero (S := S384x192) hz, View.ld_unit_zero (S := S192x192) hz, View.ld_unit_zero (S := S128x3072) hz, shapeCast_self]

/-- A first run: the second result block becomes its update from the zero block. -/
theorem pieceA6 (c : Dev nD) (i : grid1.Coords) (a2 : Memref sig .tc .vmem S384x192 .f32) (h2 : a2.IsWhole) (a3 : Memref sig .tc .vmem S384x192 .f32) (h3 : a3.IsWhole) (a4 : Memref sig .tc .vmem S192x192 .f32) (h4 : a4.IsWhole) (a5 : Memref sig .tc .vmem S192x192 .f32) (h5 : a5.IsWhole) (a6 : Memref sig .tc .vmem S128x3072 .f32) (h6 : a6.IsWhole) (a7 : Memref sig .tc .vmem S128x192 .f32) (h7 : a7.IsWhole) (a8 : Memref sig .tc .vmem S128x192 .f32) (h8 : a8.IsWhole) (hc : cond1_0 i)
    (x0 x1 : Vec F S384x192 .f32) (x2 x3 : Vec F S192x192 .f32) (x4 : Vec F S128x3072 .f32) :
    out1_A_6 c i a2 h2 a3 h3 a4 h4 a5 h5 a6 h6 a7 h7 a8 h8 hc x0 x1 x2 x3 x4
      = k1_pay2 (k1_pay7 (View.ld x0 (Rect.unit (s := S384x192) (k1_off1 i) S8x192.size (k1_off1_inb i))) (View.ld x1 (Rect.unit (s := S384x192) (k1_off1 i) S8x192.size (k1_off1_inb i))) x0 x1 x3) (k1_pay8 x4) (k1_pay4 (F := F)) := by
  unfold out1_A_6
  rw [View.read_writes_eq_canon _ _ _ (cover1_A_6 c i a2 h2 a3 h3 a4 h4 a5 h5 a6 h6 a7 h7 a8 h8 hc x0 x1 x2 x3 x4)]
  unfold kernelRun1_A
  dsimp only
  sl_unfold_words
  rw [View.canon_cons_unit_zero (S := S128x192) hz, View.readCov_unit_zero (S := S128x192) _ hz]
  simp only [View.readAt_eq_ld, h2.read_unread, h3.read_unread, h4.read_unread, h5.read_unread, h6.read_unread, h7.read_unread, h8.read_unread, View.ld_unit_zero (S := S128x192) hz, View.ld_unit_zero (S := S384x192) hz, View.ld_unit_zero (S := S192x192) hz, View.ld_unit_zero (S := S128x3072) hz, shapeCast_self]

end Pieces

/-! ## The blocks a run loads, as entries of the arrays

The two feature matrices and the two weight matrices are loaded whole at every run. The adjacency block of run `s` of
row block `b` holds rows `128·b …` and columns `3072·s …`. The eight rows a run loads from a feature matrix start at
row `8·s`. -/

section Blocks

/-- Which block of its array each window holds at a point: the whole array for the four small operands, block
    `(t / 48, t % 48)` of the adjacency, block `(t / 48, 0)` of a result. -/
theorem idx_facts : ∀ t : Fin cfg1.N,
    win1_0.index t 0 = 0 ∧ win1_0.index t 1 = 0 ∧ win1_1.index t 0 = 0 ∧ win1_1.index t 1 = 0
    ∧ win1_2.index t 0 = 0 ∧ win1_2.index t 1 = 0 ∧ win1_3.index t 0 = 0 ∧ win1_3.index t 1 = 0
    ∧ win1_4.index t 0 = t.val / 48 ∧ win1_4.index t 1 = t.val % 48
    ∧ win1_5.index t 0 = t.val / 48 ∧ win1_5.index t 1 = 0
    ∧ win1_6.index t 0 = t.val / 48 ∧ win1_6.index t 1 = 0 :=
  (by decide +kernel : ∀ t : Fin grid1.N, _)

/-- The eight rows a run loads start at row `8 · (t % 48)`, column 0. -/
theorem off_facts : ∀ t : Fin cfg1.N, k1_off1 (grid1.coords t) 0 = 8 * (t.val % 48) ∧ k1_off1 (grid1.coords t) 1 = 0 :=
  (by decide +kernel : ∀ t : Fin grid1.N, _)

/-- The first feature matrix is loaded whole. -/
theorem blk0_eq (c : Dev nD) (t : Fin cfg1.N) : (iblk1 V c 0 t : Vec Ideal S384x192 .f32) = V c main_v6_0 := by
  obtain ⟨e0, e1, -⟩ := idx_facts t
  funext j
  unfold iblk1
  rw [View.read_apply]
  show V c main_v6_0 _ = V c main_v6_0 j
  congr 1
  funext a
  apply Fin.ext
  match a with
  | ⟨0, _⟩ => show win1_0.index t 0 * 384 + 1 * (j 0).val = (j 0).val; rw [e0]; omega
  | ⟨1, _⟩ => show win1_0.index t 1 * 192 + 1 * (j 1).val = (j 1).val; rw [e1]; omega

/-- The second feature matrix is loaded whole. -/
theorem blk1_eq (c : Dev nD) (t : Fin cfg1.N) : (iblk1 V c 1 t : Vec Ideal S384x192 .f32) = V c main_v6_1 := by
  obtain ⟨-, -, e0, e1, -⟩ := idx_facts t
  funext j
  unfold iblk1
  rw [View.read_apply]
  show V c main_v6_1 _ = V c main_v6_1 j
  congr 1
  funext a
  apply Fin.ext
  match a with
  | ⟨0, _⟩ => show win1_1.index t 0 * 384 + 1 * (j 0).val = (j 0).val; rw [e0]; omega
  | ⟨1, _⟩ => show win1_1.index t 1 * 192 + 1 * (j 1).val = (j 1).val; rw [e1]; omega

/-- The first weight matrix is loaded whole. -/
theorem blk2_eq (c : Dev nD) (t : Fin cfg1.N) : (iblk1 V c 2 t : Vec Ideal S192x192 .f32) = V c main_arg11 := by
  obtain ⟨-, -, -, -, e0, e1, -⟩ := idx_facts t
  funext j
  unfold iblk1
  rw [View.read_apply]
  show V c main_arg11 _ = V c main_arg11 j
  congr 1
  funext a
  apply Fin.ext
  match a with
  | ⟨0, _⟩ => show win1_2.index t 0 * 192 + 1 * (j 0).val = (j 0).val; rw [e0]; omega
  | ⟨1, _⟩ => show win1_2.index t 1 * 192 + 1 * (j 1).val = (j 1).val; rw [e1]; omega

/-- The second weight matrix is loaded whole. -/
theorem blk3_eq (c : Dev nD) (t : Fin cfg1.N) : (iblk1 V c 3 t : Vec Ideal S192x192 .f32) = V c main_arg13 := by
  obtain ⟨-, -, -, -, -, -, e0, e1, -⟩ := idx_facts t
  funext j
  unfold iblk1
  rw [View.read_apply]
  show V c main_arg13 _ = V c main_arg13 j
  congr 1
  funext a
  apply Fin.ext
  match a with
  | ⟨0, _⟩ => show win1_3.index t 0 * 192 + 1 * (j 0).val = (j 0).val; rw [e0]; omega
  | ⟨1, _⟩ => show win1_3.index t 1 * 192 + 1 * (j 1).val = (j 1).val; rw [e1]; omega

/-- Entry `(r, k)` of the adjacency block at point `t` is entry `(128·(t/48) + r, 3072·(t%48) + k)` of the adjacency. -/
theorem blk4_apply (c : Dev nD) (t : Fin cfg1.N) (r : Fin 128) (k : Fin 3072) (p : Fin 384) (e : Fin 147456)
    (hp : p.val = 128 * (t.val / 48) + r.val) (he : e.val = 3072 * (t.val % 48) + k.val) :
    (iblk1 V c 4 t : Vec Ideal S128x3072 .f32) (ix2 r k) = (V c main_arg2 : Vec Ideal S384x147456 .f32) (ix2 p e) := by
  obtain ⟨-, -, -, -, -, -, -, -, e0, e1, -⟩ := idx_facts t
  unfold iblk1
  rw [View.read_apply]
  show V c main_arg2 _ = V c main_arg2 (ix2 p e)
  congr 1
  funext a
  apply Fin.ext
  match a with
  | ⟨0, _⟩ => show win1_4.index t 0 * 128 + 1 * r.val = p.val; rw [e0, hp]; omega
  | ⟨1, _⟩ => show win1_4.index t 1 * 3072 + 1 * k.val = e.val; rw [e1, he]; omega

/-- Row `a` of the eight rows a run loads from a feature matrix is row `8·(t%48) + a` of the matrix. -/
theorem ldrows_apply (x : Vec Ideal S384x192 .f32) (t : Fin cfg1.N) (a : Fin 8) (h : Fin 192) (p : Fin 384)
    (hp : p.val = 8 * (t.val % 48) + a.val) :
    View.ld x (Rect.unit (s := S384x192) (k1_off1 (grid1.coords t)) S8x192.size (k1_off1_inb (grid1.coords t))) (ix2 a h)
      = x (ix2 p h) := by
  obtain ⟨e0, e1⟩ := off_facts t
  show x _ = x (ix2 p h)
  congr 1
  funext b
  apply Fin.ext
  match b with
  | ⟨0, _⟩ => show k1_off1 (grid1.coords t) 0 + 1 * a.val = p.val; rw [e0, hp]; omega
  | ⟨1, _⟩ => show k1_off1 (grid1.coords t) 1 + 1 * h.val = h.val; rw [e1]; omega

end Blocks

/-! ## One run's addend, and the sum over the runs -/

section Fold

/-- Row `r` of row block `q`. -/
def rowOf (q : Fin 3) (r : Fin 128) : Fin 384 := ⟨128 * q.val + r.val, by have := q.isLt; have := r.isLt; omega⟩

/-- What run `s` adds to element `(r, c)` of row block `q` of an aggregation `B · (f · W)`: the part of the sum
    over the edges that the run's 3072 edges carry. -/
def addend (B : Mat 384 147456) (f : Mat 147456 192) (W : Mat 192 192) (q : Fin 3) (s : Fin 48) (r : Fin 128)
    (c' : Fin 192) : EReal :=
  ∑ k : Fin 3072, B (rowOf q r) (chunkEdge s k) * ∑ h : Fin 192, f (chunkEdge s k) h * W h c'

/-- The 48 runs' addends sum to the aggregation over all edges. -/
theorem sum_addend (B : Mat 384 147456) (f : Mat 147456 192) (W : Mat 192 192) (q : Fin 3) (r : Fin 128) (c' : Fin 192) :
    ∑ s : Fin 48, addend B f W q s r c' = eagg B f W (rowOf q r) c' :=
  (sum_edges (fun e => B (rowOf q r) e * ∑ h : Fin 192, f e h * W h c')).symm

/-- The first result's update at a point, over the blocks loaded there: it adds the run's addend of the squares of
    the first feature matrix. -/
theorem upd5_apply (t : Fin cfg1.N) (x0 X0 : Vec Ideal S384x192 .f32) (x2 X2 : Vec Ideal S192x192 .f32)
    (x4 : Vec Ideal S128x3072 .f32) (A : Vec Ideal S384x147456 .f32) (q : Fin 3) (s : Fin 48) (hs : s.val = t.val % 48)
    (h0 : x0 = X0) (h2 : x2 = X2) (h4 : ∀ r k, x4 (ix2 r k) = A (ix2 (rowOf q r) (chunkEdge s k)))
    (acc : Vec Ideal S128x192 .f32) (r : Fin 128) (c' : Fin 192) :
    k1_pay1 (F := Ideal) (k1_pay6 (View.ld x0 (Rect.unit (s := S384x192) (k1_off1 (grid1.coords t)) S8x192.size (k1_off1_inb (grid1.coords t)))) x0 x2) (k1_pay8 x4) acc (ix2 r c')
      = acc (ix2 r c') + addend (mat A) (outer (mat X0) (mat X0)) (mat X2) q s r c' := by
  subst h0 h2
  refine (Stage1Math.acc_apply _ x0 x2 x4 acc r c').trans ?_
  refine congrArg (acc (ix2 r c') + ·) ?_
  unfold addend
  refine Finset.sum_congr rfl fun k _ => ?_
  refine congrArg₂ (· * ·) (h4 r k) ?_
  refine Finset.sum_congr rfl fun h _ => ?_
  show _ = (x0 (ix2 (src (chunkEdge s k)) h) * x0 (ix2 (dst (chunkEdge s k)) h)) * x2 (ix2 h c')
  rw [ldrows_apply x0 t (Stage1Math.runSrc k) h (src (chunkEdge s k)) (by rw [src_chunkEdge, hs]; rfl),
    show Stage1Math.runDst k = dst (chunkEdge s k) from Fin.ext (dst_chunkEdge s k).symm]

/-- The second result's update at a point: it adds the run's addend of the sum of both feature matrices' squares. -/
theorem upd6_apply (t : Fin cfg1.N) (x0 X0 x1 X1 : Vec Ideal S384x192 .f32) (x3 X3 : Vec Ideal S192x192 .f32)
    (x4 : Vec Ideal S128x3072 .f32) (A : Vec Ideal S384x147456 .f32) (q : Fin 3) (s : Fin 48) (hs : s.val = t.val % 48)
    (h0 : x0 = X0) (h1 : x1 = X1) (h3 : x3 = X3) (h4 : ∀ r k, x4 (ix2 r k) = A (ix2 (rowOf q r) (chunkEdge s k)))
    (acc : Vec Ideal S128x192 .f32) (r : Fin 128) (c' : Fin 192) :
    k1_pay2 (F := Ideal) (k1_pay7 (View.ld x0 (Rect.unit (s := S384x192) (k1_off1 (grid1.coords t)) S8x192.size (k1_off1_inb (grid1.coords t)))) (View.ld x1 (Rect.unit (s := S384x192) (k1_off1 (grid1.coords t)) S8x192.size (k1_off1_inb (grid1.coords t)))) x0 x1 x3) (k1_pay8 x4) acc (ix2 r c')
      = acc (ix2 r c') + addend (mat A) (fun e h => outer (mat X0) (mat X0) e h + outer (mat X1) (mat X1) e h) (mat X3) q s r c' := by
  subst h0 h1 h3
  refine (Stage1Math.acc2_apply _ _ x0 x1 x3 x4 acc r c').trans ?_
  refine congrArg (acc (ix2 r c') + ·) ?_
  unfold addend
  refine Finset.sum_congr rfl fun k _ => ?_
  refine congrArg₂ (· * ·) (h4 r k) ?_
  refine Finset.sum_congr rfl fun h _ => ?_
  show _ = (x0 (ix2 (src (chunkEdge s k)) h) * x0 (ix2 (dst (chunkEdge s k)) h)
    + x1 (ix2 (src (chunkEdge s k)) h) * x1 (ix2 (dst (chunkEdge s k)) h)) * x3 (ix2 h c')
  rw [ldrows_apply x0 t (Stage1Math.runSrc k) h (src (chunkEdge s k)) (by rw [src_chunkEdge, hs]; rfl),
    ldrows_apply x1 t (Stage1Math.runSrc k) h (src (chunkEdge s k)) (by rw [src_chunkEdge, hs]; rfl),
    show Stage1Math.runDst k = dst (chunkEdge s k) from Fin.ext (dst_chunkEdge s k).symm]

end Fold

/-! ## The result blocks after each point: the sum of the addends of the runs so far -/

section Acc

/-- The blocks of the five operands at a point. -/
abbrev b0 (c : Dev nD) (t : Fin cfg1.N) : Vec Ideal S384x192 .f32 := iblk1 V c 0 t
abbrev b1 (c : Dev nD) (t : Fin cfg1.N) : Vec Ideal S384x192 .f32 := iblk1 V c 1 t
abbrev b2 (c : Dev nD) (t : Fin cfg1.N) : Vec Ideal S192x192 .f32 := iblk1 V c 2 t
abbrev b3 (c : Dev nD) (t : Fin cfg1.N) : Vec Ideal S192x192 .f32 := iblk1 V c 3 t
abbrev b4 (c : Dev nD) (t : Fin cfg1.N) : Vec Ideal S128x3072 .f32 := iblk1 V c 4 t

/-- The arrays, read as matrices. -/
abbrev adjM (c : Dev nD) : Mat 384 147456 := mat (m := 384) (n := 147456) (V c main_arg2)
abbrev xiM (c : Dev nD) : Mat 384 192 := mat (m := 384) (n := 192) (V c main_v6_0)
abbrev xhM (c : Dev nD) : Mat 384 192 := mat (m := 384) (n := 192) (V c main_v6_1)
abbrev w1M (c : Dev nD) : Mat 192 192 := mat (m := 192) (n := 192) (V c main_arg11)
abbrev w2M (c : Dev nD) : Mat 192 192 := mat (m := 192) (n := 192) (V c main_arg13)

/-- The first result block's update at point `n`, as a function of what the block held. -/
def step5 (c : Dev nD) (n : Nat) (h : n < cfg1.N) (acc : Vec Ideal S128x192 .f32) : Vec Ideal S128x192 .f32 :=
  k1_pay1 (F := Ideal) (k1_pay6 (View.ld (b0 V c ⟨n, h⟩) (Rect.unit (s := S384x192) (k1_off1 (grid1.coords ⟨n, h⟩)) S8x192.size (k1_off1_inb (grid1.coords ⟨n, h⟩)))) (b0 V c ⟨n, h⟩) (b2 V c ⟨n, h⟩)) (k1_pay8 (b4 V c ⟨n, h⟩)) acc

/-- The second result block's update at point `n`. -/
def step6 (c : Dev nD) (n : Nat) (h : n < cfg1.N) (acc : Vec Ideal S128x192 .f32) : Vec Ideal S128x192 .f32 :=
  k1_pay2 (F := Ideal) (k1_pay7 (View.ld (b0 V c ⟨n, h⟩) (Rect.unit (s := S384x192) (k1_off1 (grid1.coords ⟨n, h⟩)) S8x192.size (k1_off1_inb (grid1.coords ⟨n, h⟩)))) (View.ld (b1 V c ⟨n, h⟩) (Rect.unit (s := S384x192) (k1_off1 (grid1.coords ⟨n, h⟩)) S8x192.size (k1_off1_inb (grid1.coords ⟨n, h⟩)))) (b0 V c ⟨n, h⟩) (b1 V c ⟨n, h⟩) (b3 V c ⟨n, h⟩)) (k1_pay8 (b4 V c ⟨n, h⟩)) acc

/-- After point `t` the first result block is the update chain of its row block's runs so far, started from the
    zero block at the row block's first run. -/
theorem fold5 (c : Dev nD) (t : Nat) (ht : t < cfg1.N) (h' : 48 * (t / 48) + t % 48 < cfg1.N) :
    (outsAt1 V c t ht).1
      = Pipeline.accAt (fun n h => step5 V c n h (k1_pay3 (F := Ideal))) (step5 V c) (48 * (t / 48)) (t % 48) h' := by
  refine Pipeline.eq_accAt_of_mod (fun n hn => (outsAt1 V c n hn).1) 48 (fun n h => step5 V c n h (k1_pay3 (F := Ideal)))
    (step5 V c) ?_ ?_ (by decide) t ht h'
  · intro n h hm
    show (outsAt1 V c (⟨n, h⟩ : Fin cfg1.N).val (⟨n, h⟩ : Fin cfg1.N).isLt).1 = _
    rw [outsAt1_A V c ⟨n, h⟩ hm]
    dsimp only
    exact pieceA5 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) ((hcond1_0 ⟨n, h⟩).mpr hm) (iblk1 V c 0 ⟨n, h⟩) (iblk1 V c 1 ⟨n, h⟩) (iblk1 V c 2 ⟨n, h⟩) (iblk1 V c 3 ⟨n, h⟩) (iblk1 V c 4 ⟨n, h⟩)
  · intro n h hm
    show (outsAt1 V c (⟨n + 1, h⟩ : Fin cfg1.N).val (⟨n + 1, h⟩ : Fin cfg1.N).isLt).1 = _
    rw [outsAt1_B V c ⟨n + 1, h⟩ hm]
    dsimp only
    exact pieceB5 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hm ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) _ _

end Acc

section Acc2

/-- The same for the second result block. -/
theorem fold6 (c : Dev nD) (t : Nat) (ht : t < cfg1.N) (h' : 48 * (t / 48) + t % 48 < cfg1.N) :
    (outsAt1 V c t ht).2
      = Pipeline.accAt (fun n h => step6 V c n h (k1_pay4 (F := Ideal))) (step6 V c) (48 * (t / 48)) (t % 48) h' := by
  refine Pipeline.eq_accAt_of_mod (fun n hn => (outsAt1 V c n hn).2) 48 (fun n h => step6 V c n h (k1_pay4 (F := Ideal)))
    (step6 V c) ?_ ?_ (by decide) t ht h'
  · intro n h hm
    show (outsAt1 V c (⟨n, h⟩ : Fin cfg1.N).val (⟨n, h⟩ : Fin cfg1.N).isLt).2 = _
    rw [outsAt1_A V c ⟨n, h⟩ hm]
    dsimp only
    exact pieceA6 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) ((hcond1_0 ⟨n, h⟩).mpr hm) (iblk1 V c 0 ⟨n, h⟩) (iblk1 V c 1 ⟨n, h⟩) (iblk1 V c 2 ⟨n, h⟩) (iblk1 V c 3 ⟨n, h⟩) (iblk1 V c 4 ⟨n, h⟩)
  · intro n h hm
    show (outsAt1 V c (⟨n + 1, h⟩ : Fin cfg1.N).val (⟨n + 1, h⟩ : Fin cfg1.N).isLt).2 = _
    rw [outsAt1_B V c ⟨n + 1, h⟩ hm]
    dsimp only
    exact pieceB6 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hm ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) _ _

/-- Point `n`'s addend to the first result block at an index (zero past the grid, where it is never used). -/
def M5 (c : Dev nD) (n : Nat) (i : S128x192.Idx) : EReal :=
  if h : n < 144 then
    addend (adjM V c) (outer (xiM V c) (xiM V c)) (w1M V c) ⟨n / 48, by omega⟩ ⟨n % 48, Nat.mod_lt _ (by decide)⟩ (i 0) (i 1)
  else 0

/-- Point `n`'s addend to the second result block at an index. -/
def M6 (c : Dev nD) (n : Nat) (i : S128x192.Idx) : EReal :=
  if h : n < 144 then
    addend (adjM V c) (fun e h => outer (xiM V c) (xiM V c) e h + outer (xhM V c) (xhM V c) e h) (w2M V c)
      ⟨n / 48, by omega⟩ ⟨n % 48, Nat.mod_lt _ (by decide)⟩ (i 0) (i 1)
  else 0

/-- The first result's update adds the point's addend. -/
theorem step5_apply (c : Dev nD) (n : Nat) (h : n < cfg1.N) (acc : Vec Ideal S128x192 .f32) (i : S128x192.Idx) :
    step5 V c n h acc i = acc i + M5 V c n i := by
  have hN : n < 144 := lt_of_lt_of_eq h N_1
  obtain ⟨r, c', rfl⟩ : ∃ (r : Fin 128) (c' : Fin 192), i = ix2 r c' := ⟨i 0, i 1, eq_ix2 i⟩
  unfold M5 step5
  rw [dif_pos hN]
  exact upd5_apply ⟨n, h⟩ (b0 V c ⟨n, h⟩) (V c main_v6_0) (b2 V c ⟨n, h⟩) (V c main_arg11) (b4 V c ⟨n, h⟩) (V c main_arg2)
    ⟨n / 48, by omega⟩ ⟨n % 48, Nat.mod_lt _ (by decide)⟩ rfl (blk0_eq V c ⟨n, h⟩) (blk2_eq V c ⟨n, h⟩)
    (fun r k => blk4_apply V c ⟨n, h⟩ r k _ _ rfl rfl) acc r c'

/-- The second result's update adds the point's addend. -/
theorem step6_apply (c : Dev nD) (n : Nat) (h : n < cfg1.N) (acc : Vec Ideal S128x192 .f32) (i : S128x192.Idx) :
    step6 V c n h acc i = acc i + M6 V c n i := by
  have hN : n < 144 := lt_of_lt_of_eq h N_1
  obtain ⟨r, c', rfl⟩ : ∃ (r : Fin 128) (c' : Fin 192), i = ix2 r c' := ⟨i 0, i 1, eq_ix2 i⟩
  unfold M6 step6
  rw [dif_pos hN]
  exact upd6_apply ⟨n, h⟩ (b0 V c ⟨n, h⟩) (V c main_v6_0) (b1 V c ⟨n, h⟩) (V c main_v6_1) (b3 V c ⟨n, h⟩) (V c main_arg13) (b4 V c ⟨n, h⟩) (V c main_arg2)
    ⟨n / 48, by omega⟩ ⟨n % 48, Nat.mod_lt _ (by decide)⟩ rfl (blk0_eq V c ⟨n, h⟩) (blk1_eq V c ⟨n, h⟩) (blk3_eq V c ⟨n, h⟩)
    (fun r k => blk4_apply V c ⟨n, h⟩ r k _ _ rfl rfl) acc r c'

end Acc2

/-! ## The result arrays -/

section Final

/-- An addend depends on the numbers of its row block and run only. -/
theorem addend_congr (B : Mat 384 147456) (f : Mat 147456 192) (W : Mat 192 192) (q q' : Fin 3) (s s' : Fin 48)
    (r : Fin 128) (c' : Fin 192) (hq : q.val = q'.val) (hs : s.val = s'.val) :
    addend B f W q s r c' = addend B f W q' s' r c' := by
  obtain rfl := Fin.ext hq
  obtain rfl := Fin.ext hs
  rfl

/-- At the last run of a row block, element `(r, c)` of result block one is the aggregation over all edges at row
    `128·(t/48) + r`: the zero block plus the 48 runs' addends. -/
theorem last5_apply (c : Dev nD) (t : Fin cfg1.N) (hf : t.val % 48 = 47) (r : Fin 128) (c' : Fin 192) (p : Fin 384)
    (hp : p.val = 128 * (t.val / 48) + r.val) :
    (outsAt1 V c t.val t.isLt).1 (ix2 r c') = edgeRaw (adjM V c) (w1M V c) (xiM V c) p c' := by
  have hN : cfg1.N = 144 := N_1
  have hlt : t.val < 144 := lt_of_lt_of_eq t.isLt hN
  have h' : 48 * (t.val / 48) + t.val % 48 < cfg1.N :=
    lt_of_lt_of_eq (show 48 * (t.val / 48) + t.val % 48 < 144 by omega) hN.symm
  have hq : t.val / 48 < 3 := by omega
  rw [fold5 V c t.val t.isLt h',
    Pipeline.accAt_add_apply (fun n h => step5 V c n h (k1_pay3 (F := Ideal))) (step5 V c) (k1_pay3 (F := Ideal)) (M5 V c)
      (48 * (t.val / 48)) 47 (fun h i => step5_apply V c _ h _ i) (fun n h acc i _ _ => step5_apply V c n h acc i)
      (t.val % 48) (by omega) h' (ix2 r c')]
  rw [show t.val % 48 + 1 = 48 from by omega, Finset.sum_range]
  show Ideal.ofBits .f32 0x00000000#32 + _ = _
  rw [Ideal.ofBits_zero_f32, zero_add]
  obtain rfl : p = rowOf ⟨t.val / 48, hq⟩ r := Fin.ext hp
  refine (Finset.sum_congr rfl fun s _ => ?_).trans
    (sum_addend (adjM V c) (outer (xiM V c) (xiM V c)) (w1M V c) ⟨t.val / 48, hq⟩ r c')
  have hs : s.val < 48 := s.isLt
  unfold M5
  rw [dif_pos (by omega)]
  exact addend_congr _ _ _ _ _ _ _ r c' (by show (48 * (t.val / 48) + s.val) / 48 = t.val / 48; omega)
    (by show (48 * (t.val / 48) + s.val) % 48 = s.val; omega)

/-- At the last run of a row block, element `(r, c)` of result block two is the aggregation over all edges at row
    `128·(t/48) + r`: the zero block plus the 48 runs' addends. -/
theorem last6_apply (c : Dev nD) (t : Fin cfg1.N) (hf : t.val % 48 = 47) (r : Fin 128) (c' : Fin 192) (p : Fin 384)
    (hp : p.val = 128 * (t.val / 48) + r.val) :
    (outsAt1 V c t.val t.isLt).2 (ix2 r c') = edgeRaw2 (adjM V c) (w2M V c) (xiM V c) (xhM V c) p c' := by
  have hN : cfg1.N = 144 := N_1
  have hlt : t.val < 144 := lt_of_lt_of_eq t.isLt hN
  have h' : 48 * (t.val / 48) + t.val % 48 < cfg1.N :=
    lt_of_lt_of_eq (show 48 * (t.val / 48) + t.val % 48 < 144 by omega) hN.symm
  have hq : t.val / 48 < 3 := by omega
  rw [fold6 V c t.val t.isLt h',
    Pipeline.accAt_add_apply (fun n h => step6 V c n h (k1_pay4 (F := Ideal))) (step6 V c) (k1_pay4 (F := Ideal)) (M6 V c)
      (48 * (t.val / 48)) 47 (fun h i => step6_apply V c _ h _ i) (fun n h acc i _ _ => step6_apply V c n h acc i)
      (t.val % 48) (by omega) h' (ix2 r c')]
  rw [show t.val % 48 + 1 = 48 from by omega, Finset.sum_range]
  show Ideal.ofBits .f32 0x00000000#32 + _ = _
  rw [Ideal.ofBits_zero_f32, zero_add]
  obtain rfl : p = rowOf ⟨t.val / 48, hq⟩ r := Fin.ext hp
  refine (Finset.sum_congr rfl fun s _ => ?_).trans
    (sum_addend (adjM V c) (fun e h => outer (xiM V c) (xiM V c) e h + outer (xhM V c) (xhM V c) e h) (w2M V c) ⟨t.val / 48, hq⟩ r c')
  have hs : s.val < 48 := s.isLt
  unfold M6
  rw [dif_pos (by omega)]
  exact addend_congr _ _ _ _ _ _ _ r c' (by show (48 * (t.val / 48) + s.val) / 48 = t.val / 48; omega)
    (by show (48 * (t.val / 48) + s.val) % 48 = s.val; omega)

/-- What a point writes back of result one, when its block holds rows `128·(t/48) …` of a matrix `G`, is its
    block of `G`. -/
theorem flushed5_of (c : Dev nD) (t : Fin cfg1.N) (G : Mat 384 192)
    (hG : ∀ (r : Fin 128) (c' : Fin 192) (p : Fin 384), p.val = 128 * (t.val / 48) + r.val →
      (outsAt1 V c t.val t.isLt).1 (ix2 r c') = G p c') :
    (dat1 V c).flushed 5 t = ((cfg1.win 5).blk t).view.read (Elt Ideal) (arr G) := by
  have hN : cfg1.N = 144 := N_1
  have hlt : t.val < 144 := lt_of_lt_of_eq t.isLt hN
  obtain ⟨-, -, -, -, -, -, -, -, -, -, e50, e51, e60, e61⟩ := idx_facts t
  show (cfg1.win 5).cut (grid1.coords t) ((dat1 V c).after 5 t) = _
  rw [after1_5]
  funext j
  have hj0 : (j 0).val < 128 := (j 0).isLt
  have hj1 : (j 1).val < 192 := (j 1).isLt
  have e1 : (cfg1.win 5).xinj (grid1.coords t) j = ix2 (⟨(j 0).val, hj0⟩ : Fin 128) (⟨(j 1).val, hj1⟩ : Fin 192) :=
    funext fun a => by match a with | ⟨0, _⟩ => rfl | ⟨1, _⟩ => rfl
  have e2 : ((cfg1.win 5).blk t).view.emb j
      = ix2 (⟨128 * (t.val / 48) + (j 0).val, by omega⟩ : Fin 384) (⟨(j 1).val, hj1⟩ : Fin 192) :=
    funext fun a => Fin.ext (by
      match a with
      | ⟨0, _⟩ => show win1_5.index t 0 * 128 + 1 * (j 0).val = 128 * (t.val / 48) + (j 0).val; rw [e50]; omega
      | ⟨1, _⟩ => show win1_5.index t 1 * 192 + 1 * (j 1).val = (j 1).val; rw [e51]; omega)
  show (outsAt1 V c t.val t.isLt).1 ((cfg1.win 5).xinj (grid1.coords t) j)
    = arr G (((cfg1.win 5).blk t).view.emb j)
  exact (congrArg (outsAt1 V c t.val t.isLt).1 e1).trans
    ((hG _ _ _ rfl).trans (congrArg (arr G) e2).symm)

/-- What the last run of a row block writes back is that row block of the aggregation. -/
theorem flushed5_eq (c : Dev nD) (t : Fin cfg1.N) (hf : (cfg1.win 5).flush t = true) :
    (dat1 V c).flushed 5 t = ((cfg1.win 5).blk t).view.read (Elt Ideal) (arr (edgeRaw (adjM V c) (w1M V c) (xiM V c))) :=
  flushed5_of V c t _ fun r c' p hp => last5_apply V c t ((flush1_5 t).mp hf) r c' p hp

/-- Every row of the result lies in the block its row block's last run writes back. -/
theorem cover5 (i : S384x192.Idx) :
    ∃ t : Fin cfg1.N, (cfg1.win 5).flush t = true ∧ i ∈ ((cfg1.win 5).blk t).view.set := by
  have hN : cfg1.N = 144 := N_1
  have hi0 : (i 0).val < 384 := (i 0).isLt
  have hi1 : (i 1).val < 192 := (i 1).isLt
  have ht : 48 * ((i 0).val / 128) + 47 < cfg1.N :=
    lt_of_lt_of_eq (show 48 * ((i 0).val / 128) + 47 < 144 by omega) hN.symm
  obtain ⟨-, -, -, -, -, -, -, -, -, -, e50, e51, e60, e61⟩ := idx_facts ⟨48 * ((i 0).val / 128) + 47, ht⟩
  refine ⟨⟨48 * ((i 0).val / 128) + 47, ht⟩, (flush1_5 _).mpr (by show (48 * ((i 0).val / 128) + 47) % 48 = 47; omega), ?_⟩
  show i ∈ ((View.whole main_v7_0).slice (win1_5.rect ⟨48 * ((i 0).val / 128) + 47, ht⟩)).set
  rw [View.set_slice_whole, Rect.mem_set_unit]
  intro a
  match a with
  | ⟨0, _⟩ =>
    show win1_5.index ⟨48 * ((i 0).val / 128) + 47, ht⟩ 0 * 128 ≤ (i 0).val
      ∧ (i 0).val < win1_5.index ⟨48 * ((i 0).val / 128) + 47, ht⟩ 0 * 128 + 128
    rw [e50]; show (48 * ((i 0).val / 128) + 47) / 48 * 128 ≤ (i 0).val ∧ (i 0).val < (48 * ((i 0).val / 128) + 47) / 48 * 128 + 128
    omega
  | ⟨1, _⟩ =>
    show win1_5.index ⟨48 * ((i 0).val / 128) + 47, ht⟩ 1 * 192 ≤ (i 1).val
      ∧ (i 1).val < win1_5.index ⟨48 * ((i 0).val / 128) + 47, ht⟩ 1 * 192 + 192
    rw [e51]; omega

/-- What a point writes back of result two, when its block holds rows `128·(t/48) …` of a matrix `G`, is its
    block of `G`. -/
theorem flushed6_of (c : Dev nD) (t : Fin cfg1.N) (G : Mat 384 192)
    (hG : ∀ (r : Fin 128) (c' : Fin 192) (p : Fin 384), p.val = 128 * (t.val / 48) + r.val →
      (outsAt1 V c t.val t.isLt).2 (ix2 r c') = G p c') :
    (dat1 V c).flushed 6 t = ((cfg1.win 6).blk t).view.read (Elt Ideal) (arr G) := by
  have hN : cfg1.N = 144 := N_1
  have hlt : t.val < 144 := lt_of_lt_of_eq t.isLt hN
  obtain ⟨-, -, -, -, -, -, -, -, -, -, e50, e51, e60, e61⟩ := idx_facts t
  show (cfg1.win 6).cut (grid1.coords t) ((dat1 V c).after 6 t) = _
  rw [after1_6]
  funext j
  have hj0 : (j 0).val < 128 := (j 0).isLt
  have hj1 : (j 1).val < 192 := (j 1).isLt
  have e1 : (cfg1.win 6).xinj (grid1.coords t) j = ix2 (⟨(j 0).val, hj0⟩ : Fin 128) (⟨(j 1).val, hj1⟩ : Fin 192) :=
    funext fun a => by match a with | ⟨0, _⟩ => rfl | ⟨1, _⟩ => rfl
  have e2 : ((cfg1.win 6).blk t).view.emb j
      = ix2 (⟨128 * (t.val / 48) + (j 0).val, by omega⟩ : Fin 384) (⟨(j 1).val, hj1⟩ : Fin 192) :=
    funext fun a => Fin.ext (by
      match a with
      | ⟨0, _⟩ => show win1_6.index t 0 * 128 + 1 * (j 0).val = 128 * (t.val / 48) + (j 0).val; rw [e60]; omega
      | ⟨1, _⟩ => show win1_6.index t 1 * 192 + 1 * (j 1).val = (j 1).val; rw [e61]; omega)
  show (outsAt1 V c t.val t.isLt).2 ((cfg1.win 6).xinj (grid1.coords t) j)
    = arr G (((cfg1.win 6).blk t).view.emb j)
  exact (congrArg (outsAt1 V c t.val t.isLt).2 e1).trans
    ((hG _ _ _ rfl).trans (congrArg (arr G) e2).symm)

/-- What the last run of a row block writes back is that row block of the aggregation. -/
theorem flushed6_eq (c : Dev nD) (t : Fin cfg1.N) (hf : (cfg1.win 6).flush t = true) :
    (dat1 V c).flushed 6 t = ((cfg1.win 6).blk t).view.read (Elt Ideal) (arr (edgeRaw2 (adjM V c) (w2M V c) (xiM V c) (xhM V c))) :=
  flushed6_of V c t _ fun r c' p hp => last6_apply V c t ((flush1_6 t).mp hf) r c' p hp

/-- Every row of the result lies in the block its row block's last run writes back. -/
theorem cover6 (i : S384x192.Idx) :
    ∃ t : Fin cfg1.N, (cfg1.win 6).flush t = true ∧ i ∈ ((cfg1.win 6).blk t).view.set := by
  have hN : cfg1.N = 144 := N_1
  have hi0 : (i 0).val < 384 := (i 0).isLt
  have hi1 : (i 1).val < 192 := (i 1).isLt
  have ht : 48 * ((i 0).val / 128) + 47 < cfg1.N :=
    lt_of_lt_of_eq (show 48 * ((i 0).val / 128) + 47 < 144 by omega) hN.symm
  obtain ⟨-, -, -, -, -, -, -, -, -, -, e50, e51, e60, e61⟩ := idx_facts ⟨48 * ((i 0).val / 128) + 47, ht⟩
  refine ⟨⟨48 * ((i 0).val / 128) + 47, ht⟩, (flush1_6 _).mpr (by show (48 * ((i 0).val / 128) + 47) % 48 = 47; omega), ?_⟩
  show i ∈ ((View.whole main_v7_1).slice (win1_6.rect ⟨48 * ((i 0).val / 128) + 47, ht⟩)).set
  rw [View.set_slice_whole, Rect.mem_set_unit]
  intro a
  match a with
  | ⟨0, _⟩ =>
    show win1_6.index ⟨48 * ((i 0).val / 128) + 47, ht⟩ 0 * 128 ≤ (i 0).val
      ∧ (i 0).val < win1_6.index ⟨48 * ((i 0).val / 128) + 47, ht⟩ 0 * 128 + 128
    rw [e60]; show (48 * ((i 0).val / 128) + 47) / 48 * 128 ≤ (i 0).val ∧ (i 0).val < (48 * ((i 0).val / 128) + 47) / 48 * 128 + 128
    omega
  | ⟨1, _⟩ =>
    show win1_6.index ⟨48 * ((i 0).val / 128) + 47, ht⟩ 1 * 192 ≤ (i 1).val
      ∧ (i 1).val < win1_6.index ⟨48 * ((i 0).val / 128) + 47, ht⟩ 1 * 192 + 192
    rw [e61]; omega

end Final

/-- Result 0 ends holding the aggregated squares of the first operand's edge features. -/
theorem edge_out (c : Dev nD) :
    (dat1 (F := Ideal) V c).arrAt 5 cfg1.N
      = arr (edgeRaw (mat (m := 384) (n := 147456) (V c main_arg2)) (mat (m := 192) (n := 192) (V c main_arg11))
          (mat (m := 384) (n := 192) (V c main_v6_0))) :=
  (dat1 V c).arrAt_eq_of_cover 5 (arr (edgeRaw (adjM V c) (w1M V c) (xiM V c))) (flushed5_eq V c) cover5

/-- Result 1 ends holding the aggregation over the sum of both operands' edge features. -/
theorem edge2_out (c : Dev nD) :
    (dat1 (F := Ideal) V c).arrAt 6 cfg1.N
      = arr (edgeRaw2 (mat (m := 384) (n := 147456) (V c main_arg2)) (mat (m := 192) (n := 192) (V c main_arg13))
          (mat (m := 384) (n := 192) (V c main_v6_0)) (mat (m := 384) (n := 192) (V c main_v6_1))) :=
  (dat1 V c).arrAt_eq_of_cover 6 (arr (edgeRaw2 (adjM V c) (w2M V c) (xiM V c) (xhM V c))) (flushed6_eq V c) cover6

end Cert.KernelIdeal.Stage1

end
-- ==== Proof.Stage2.lean ====
/-
  What the third kernel leaves in its result array, for any contents `V` of the buffers it is entered with: one point,
  whole-array blocks, the body's stored value — the classifier head `logSoftmax(relu((A · (xs · W2) + b2) + xe2) · W_cls + b_cls)`.
-/
import proofs.«137686_j73504070304090_1_alg».proof.Proof.Gen.KernelIdeal.Frame
import proofs.«137686_j73504070304090_1_alg».proof.Proof.Spec
import proofs.«137686_j73504070304090_1_alg».proof.Proof.LibPlainDot
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)
open EdgeGcn

namespace Cert.KernelIdeal.Stage2

open Cert.KernelIdeal Cert.KernelIdeal.Gen

open scoped BigOperators

/-! ## Layout readings -/

/-- A column `[a]` cast to `[a, 1]` reads, at `(p, u)`, the operand at `p`. -/
theorem cast_col_apply {α : Type} {a : ℕ} (r : (⟨1, ![a]⟩ : Shape).Idx → α) (h : (⟨1, ![a]⟩ : Shape).ShapeCasts ⟨2, ![a, 1]⟩)
    (p : Fin a) (u : Fin 1) : shapeCast ⟨2, ![a, 1]⟩ r h (ix2 p u) = r (ix1 p) :=
  shapeCast_apply r h _ _ (by
    have hu : u.val = 0 := by omega
    rw [Shape.rowMajor_val_two, Shape.rowMajor_val_one]
    show p.val = p.val * 1 + u.val
    omega)

/-- A column `[a, 1]` broadcast to `[a, b]` reads, at `(p, q)`, the operand's row `p`. -/
theorem bcast_col_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A bias row `[1, b]`, cast to itself and broadcast over `a` rows, reads at `(p, q)` its entry `q`. -/
theorem bias_apply {α : Type} {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix2 (0 : Fin 1) q) := by
  rw [broadcastTo_1b_ab_apply, shapeCast_self]

/-! ## The body's value, stage by stage -/

section Stages

variable (xs : Vec Ideal S384x192 .f32) (W2 : Vec Ideal S192x192 .f32) (adj : Vec Ideal S384x384 .f32)
  (b2 : Vec Ideal S1x192 .f32) (xe2 : Vec Ideal S384x192 .f32) (Wc : Vec Ideal S192x64 .f32) (bc : Vec Ideal S1x64 .f32)

/-- The node features times the layer's weights. -/
def xwV : FVec Ideal S384x192 .f32 :=
  matmul dot_S384x192_S192x192_S384x192_1_0_0_1_n_n none
    (truncf .bf16 (shapeCast S384x192 xs shapeCasts_S384x192_S384x192) bitsLt_bf16_f32) (truncf .bf16 W2 bitsLt_bf16_f32)
    (constant S384x192 .f32 0x00000000#32)

/-- The graph convolution: the adjacency times that product, plus the bias row. -/
def midV : FVec Ideal S384x192 .f32 :=
  addf (matmul dot_S384x384_S384x192_S384x192_1_0_0_1_n_n none (truncf .bf16 adj bitsLt_bf16_f32)
      (truncf .bf16 (xwV xs W2) bitsLt_bf16_f32) (constant S384x192 .f32 0x00000000#32))
    (broadcastTo S384x192 (shapeCast S1x192 b2 shapeCasts_S1x192_S1x192) broadcasts_S1x192_S384x192)

/-- The classifier's input: the edge term added, then rectified. -/
def preV : FVec Ideal S384x192 .f32 :=
  maximumf (addf (midV xs W2 adj b2) (shapeCast S384x192 xe2 shapeCasts_S384x192_S384x192))
    (broadcast S384x192 (Scalar.ofBits .f32 0x00000000#32))

/-- The logits. -/
def logitsV : FVec Ideal S384x64 .f32 :=
  addf (matmul dot_S384x192_S192x64_S384x64_1_0_0_1_n_n none (truncf .bf16 (preV xs W2 adj b2 xe2) bitsLt_bf16_f32)
      (truncf .bf16 Wc bitsLt_bf16_f32) (constant S384x64 .f32 0x00000000#32))
    (broadcastTo S384x64 (shapeCast S1x64 bc shapeCasts_S1x64_S1x64) broadcasts_S1x64_S384x64)

/-- The row maxima of a logits block. -/
def rmaxV (z : FVec Ideal S384x64 .f32) : FVec Ideal S384 .f32 :=
  maximumf (broadcast S384 (Scalar.ofBits .f32 0xFF800000#32))
    (multiReduction .maximumf [1] S384 z 0xFF800000#32 reduces_S384x64_S384 (.inl rfl) rfl)

/-- A logits block shifted by its row maxima. -/
def shiftV (z : FVec Ideal S384x64 .f32) : FVec Ideal S384x64 .f32 :=
  subf z (broadcastTo S384x64 (shapeCast S384x1 (rmaxV z) shapeCasts_S384_S384x1) broadcasts_S384x1_S384x64)

/-- The logarithm of a block's row sums of exponentials, spread over the row. -/
def lseV (e : FVec Ideal S384x64 .f32) : FVec Ideal S384x64 .f32 :=
  broadcastTo S384x64 (log (shapeCast S384x1
    (multiReduction .add [1] S384 (exp e) 0x00000000#32 reduces_S384x64_S384 (.inl rfl) rfl) shapeCasts_S384_S384x1))
    broadcasts_S384x1_S384x64

theorem pay2_eq : k2_pay2 xs W2 adj b2 xe2 Wc bc = shiftV (logitsV xs W2 adj b2 xe2 Wc bc) := rfl

theorem pay3_eq : k2_pay3 xs W2 adj b2 xe2 Wc bc = lseV (k2_pay2 xs W2 adj b2 xe2 Wc bc) := rfl

end Stages

section Readings

variable (xs : Vec Ideal S384x192 .f32) (W2 : Vec Ideal S192x192 .f32) (adj : Vec Ideal S384x384 .f32)
  (b2 : Vec Ideal S1x192 .f32) (xe2 : Vec Ideal S384x192 .f32) (Wc : Vec Ideal S192x64 .f32) (bc : Vec Ideal S1x64 .f32)

/-- Entry `(p, q)` of the features times the weights: the sum over the 192 hidden positions. -/
theorem xwV_apply (p : Fin 384) (q : Fin 192) :
    xwV xs W2 (ix2 p q) = ∑ l : Fin 192, xs (ix2 p l) * W2 (ix2 l q) := by
  unfold xwV
  refine (PlainDot.matmul_zero_apply dot_S384x192_S192x192_S384x192_1_0_0_1_n_n rfl rfl rfl rfl rfl rfl rfl rfl none _ _ p q).trans ?_
  refine Finset.sum_congr rfl fun l _ => ?_
  rw [truncf_apply, truncf_apply, shapeCast_self]

/-- Entry `(p, q)` of the graph convolution. -/
theorem midV_apply (p : Fin 384) (q : Fin 192) :
    midV xs W2 adj b2 (ix2 p q) = gconv (mat adj) (mat xs) (mat W2) (row b2) p q := by
  unfold midV
  rw [addf_apply]
  refine congrArg₂ (· + ·) ?_ (bias_apply b2 _ _ p q)
  refine (PlainDot.matmul_zero_apply dot_S384x384_S384x192_S384x192_1_0_0_1_n_n rfl rfl rfl rfl rfl rfl rfl rfl none _ _ p q).trans ?_
  refine Finset.sum_congr rfl fun j _ => ?_
  rw [truncf_apply, truncf_apply, xwV_apply]
  rfl

/-- Entry `(p, q)` of the classifier's input. -/
theorem preV_apply (p : Fin 384) (q : Fin 192) :
    preV xs W2 adj b2 xe2 (ix2 p q) = preLogits (mat adj) (mat W2) (row b2) (mat xs) (mat xe2) p q := by
  unfold preV
  rw [maximumf_apply, addf_apply, broadcast_apply, shapeCast_self, midV_apply]
  rfl

/-- Entry `(p, q)` of the logits. -/
theorem logitsV_apply (p : Fin 384) (q : Fin 64) :
    logitsV xs W2 adj b2 xe2 Wc bc (ix2 p q)
      = affine (preLogits (mat adj) (mat W2) (row b2) (mat xs) (mat xe2)) (mat Wc) (row bc) p q := by
  unfold logitsV
  rw [addf_apply]
  refine congrArg₂ (· + ·) ?_ (bias_apply bc _ _ p q)
  refine (PlainDot.matmul_zero_apply dot_S384x192_S192x64_S384x64_1_0_0_1_n_n rfl rfl rfl rfl rfl rfl rfl rfl none _ _ p q).trans ?_
  refine Finset.sum_congr rfl fun j _ => ?_
  rw [truncf_apply, truncf_apply, preV_apply]
  rfl

end Readings

section Softmax

variable (z e : FVec Ideal S384x64 .f32)

/-- The index the row reduction inserts: position `q` of row `p`. -/
theorem lift_row (p : Fin 384) (q : Fin 64) : reduces_S384x64_S384.lift (ix1 p) q = ix2 p q :=
  funext fun a => Fin.ext (by match a with | ⟨0, _⟩ => rfl | ⟨1, _⟩ => rfl)

/-- Row `p`'s maximum, started from `-∞` and joined with `-∞` once more. -/
theorem rmaxV_apply (p : Fin 384) : rmaxV z (ix1 p) = rowMax (mat z) p := by
  unfold rmaxV
  rw [maximumf_apply, broadcast_apply]
  refine congrArg (max _) ?_
  refine (Ideal.multiReduction_maximumf_single z _ reduces_S384x64_S384 (.inl rfl) rfl (ix1 p)).trans ?_
  have hrow : z ∘ reduces_S384x64_S384.lift (ix1 p) = fun q : Fin 64 => z (ix2 p q) :=
    funext fun q => congrArg z (lift_row p q)
  rw [hrow]
  rfl

/-- A shifted block at `(p, q)`: the entry less its row's maximum. -/
theorem shiftV_apply (p : Fin 384) (q : Fin 64) : shiftV z (ix2 p q) = z (ix2 p q) - rowMax (mat z) p := by
  unfold shiftV
  rw [subf_apply, bcast_col_apply, cast_col_apply, rmaxV_apply]

/-- The spread logarithm at `(p, q)`: the logarithm of row `p`'s sum of exponentials. -/
theorem lseV_apply (p : Fin 384) (q : Fin 64) :
    lseV e (ix2 p q) = Ideal.log (∑ l : Fin 64, Ideal.exp (e (ix2 p l))) := by
  unfold lseV
  rw [bcast_col_apply]
  show Ideal.log (shapeCast S384x1 _ shapeCasts_S384_S384x1 (ix2 p (0 : Fin 1))) = _
  rw [cast_col_apply]
  refine congrArg Ideal.log ?_
  refine (Ideal.multiReduction_add_single (exp e) _ reduces_S384x64_S384 (.inl rfl) rfl (ix1 p)).trans ?_
  refine Finset.sum_congr rfl fun l _ => ?_
  exact congrArg (fun i => Ideal.exp (e i)) (lift_row p l)

end Softmax

/-! ## The stored value is the head -/

theorem stored_eq (xs : Vec Ideal S384x192 .f32) (W2 : Vec Ideal S192x192 .f32) (adj : Vec Ideal S384x384 .f32)
    (b2 : Vec Ideal S1x192 .f32) (xe2 : Vec Ideal S384x192 .f32) (Wc : Vec Ideal S192x64 .f32) (bc : Vec Ideal S1x64 .f32) :
    k2_pay1 (k2_pay2 xs W2 adj b2 xe2 Wc bc) (k2_pay3 xs W2 adj b2 xe2 Wc bc)
      = arr (head (mat (m := 384) (n := 384) adj) (mat (m := 192) (n := 64) Wc) (row (n := 64) bc)
          (mat (m := 192) (n := 192) W2) (row (n := 192) b2) (mat (m := 384) (n := 192) xs) (mat (m := 384) (n := 192) xe2)) := by
  refine arr_ext fun p q => ?_
  have hlogits : mat (logitsV xs W2 adj b2 xe2 Wc bc)
      = affine (preLogits (mat adj) (mat W2) (row b2) (mat xs) (mat xe2)) (mat Wc) (row bc) :=
    funext fun p => funext fun q => logitsV_apply xs W2 adj b2 xe2 Wc bc p q
  show k2_pay2 xs W2 adj b2 xe2 Wc bc (ix2 p q) - k2_pay3 xs W2 adj b2 xe2 Wc bc (ix2 p q) = _
  rw [pay3_eq, lseV_apply, pay2_eq]
  simp only [shiftV_apply]
  rw [hlogits]
  simp only [logitsV_apply]
  rfl

/-- The body's accesses start at offset zero on both axes. -/
theorem hz : (![0, 0] : Fin 2 → Nat) = fun _ => 0 := funext fun a => by fin_cases a <;> rfl

/-! ## The one point's blocks are the whole arrays -/

section Blocks

variable (V : (c : Dev nD) → (b : Ref sig .tc) → Buf (Elt Ideal) ((c : Thread nD τ).loc b))

/-- At the grid's one point every window's block starts at offset zero on both axes. -/
theorem off0 : (fun a => win2_0.index t2_0 a * main_v12.ty.shape.size a) = fun _ => 0 := funext fun a => by fin_cases a <;> decide
theorem off1 : (fun a => win2_1.index t2_0 a * main_arg9.ty.shape.size a) = fun _ => 0 := funext fun a => by fin_cases a <;> decide
theorem off2 : (fun a => win2_2.index t2_0 a * main_v2.ty.shape.size a) = fun _ => 0 := funext fun a => by fin_cases a <;> decide
theorem off3 : (fun a => win2_3.index t2_0 a * main_arg1.ty.shape.size a) = fun _ => 0 := funext fun a => by fin_cases a <;> decide
theorem off4 : (fun a => win2_4.index t2_0 a * main_v14.ty.shape.size a) = fun _ => 0 := funext fun a => by fin_cases a <;> decide
theorem off5 : (fun a => win2_5.index t2_0 a * main_arg5.ty.shape.size a) = fun _ => 0 := funext fun a => by fin_cases a <;> decide
theorem off6 : (fun a => win2_6.index t2_0 a * main_v5.ty.shape.size a) = fun _ => 0 := funext fun a => by fin_cases a <;> decide
theorem off7 : (fun a => win2_7.index t2_0 a * main_v15.ty.shape.size a) = fun _ => 0 := funext fun a => by fin_cases a <;> decide

/-- So each input block, read through its window, is the window's whole array. -/
theorem blk_xs (c : Dev nD) : (iblk2 V c 0 t2_0 : Vec Ideal S384x192 .f32) = V c main_v12 :=
  Memref.read_access_unit_zero (Elt Ideal) main_v12 off0 (fun a => by rw [congrFun off0 a]; simp) (V c main_v12)
theorem blk_W2 (c : Dev nD) : (iblk2 V c 1 t2_0 : Vec Ideal S192x192 .f32) = V c main_arg9 :=
  Memref.read_access_unit_zero (Elt Ideal) main_arg9 off1 (fun a => by rw [congrFun off1 a]; simp) (V c main_arg9)
theorem blk_b2 (c : Dev nD) : (iblk2 V c 2 t2_0 : Vec Ideal S1x192 .f32) = V c main_v2 :=
  Memref.read_access_unit_zero (Elt Ideal) main_v2 off2 (fun a => by rw [congrFun off2 a]; simp) (V c main_v2)
theorem blk_adj (c : Dev nD) : (iblk2 V c 3 t2_0 : Vec Ideal S384x384 .f32) = V c main_arg1 :=
  Memref.read_access_unit_zero (Elt Ideal) main_arg1 off3 (fun a => by rw [congrFun off3 a]; simp) (V c main_arg1)
theorem blk_xe2 (c : Dev nD) : (iblk2 V c 4 t2_0 : Vec Ideal S384x192 .f32) = V c main_v14 :=
  Memref.read_access_unit_zero (Elt Ideal) main_v14 off4 (fun a => by rw [congrFun off4 a]; simp) (V c main_v14)
theorem blk_Wc (c : Dev nD) : (iblk2 V c 5 t2_0 : Vec Ideal S192x64 .f32) = V c main_arg5 :=
  Memref.read_access_unit_zero (Elt Ideal) main_arg5 off5 (fun a => by rw [congrFun off5 a]; simp) (V c main_arg5)
theorem blk_bc (c : Dev nD) : (iblk2 V c 6 t2_0 : Vec Ideal S1x64 .f32) = V c main_v5 :=
  Memref.read_access_unit_zero (Elt Ideal) main_v5 off6 (fun a => by rw [congrFun off6 a]; simp) (V c main_v5)

/-- The head of the entry contents, as contents of the result array. -/
abbrev headOf (c : Dev nD) : Buf (Elt Ideal) ((c : Thread nD τ).loc main_v15) :=
  arr (head (mat (m := 384) (n := 384) (V c main_arg1)) (mat (m := 192) (n := 64) (V c main_arg5)) (row (n := 64) (V c main_v5))
    (mat (m := 192) (n := 192) (V c main_arg9)) (row (n := 192) (V c main_v2))
    (mat (m := 384) (n := 192) (V c main_v12)) (mat (m := 384) (n := 192) (V c main_v14)))

/-- What the one point writes back is the head's one block, the whole of it. -/
theorem written (c : Dev nD) (t : Fin cfg2.N) (hf : (cfg2.win 7).flush t = true) :
    (dat2 (F := Ideal) V c).flushed 7 t = ((cfg2.win 7).blk t).view.read (Elt Ideal) (headOf V c) := by
  obtain rfl : t = t2_0 := fin_N2 t
  show (cfg2.win 7).cut (grid2.coords t2_0) ((dat2 (F := Ideal) V c).after 7 t2_0) = _
  rw [after2_7]
  unfold out2_7
  rw [View.canon_unit_zero hz]
  simp only [View.ld_unit_zero (S := S384x192) hz, View.ld_unit_zero (S := S192x192) hz, View.ld_unit_zero (S := S384x384) hz,
    View.ld_unit_zero (S := S1x192) hz, View.ld_unit_zero (S := S192x64) hz, View.ld_unit_zero (S := S1x64) hz]
  rw [blk_xs, blk_W2, blk_b2, blk_adj, blk_xe2, blk_Wc, blk_bc, stored_eq]
  exact (Memref.read_access_unit_zero (Elt Ideal) main_v15 off7 (fun a => by rw [congrFun off7 a]; simp) _).symm

/-- Every index of the result array lies in that one block. -/
theorem covered (i : S384x64.Idx) : i ∈ ((cfg2.win 7).blk t2_0).view.set := by
  show i ∈ ((View.whole main_v15).slice (win2_7.rect t2_0)).set
  rw [View.set_slice_whole]
  exact View.mem_set_unit_zero (S := S384x64) off7 (fun a => by rw [congrFun off7 a]; simp) i

end Blocks

variable (V : (c : Dev nD) → (b : Ref sig .tc) → Buf (Elt Ideal) ((c : Thread nD τ).loc b))

/-- The result ends holding the head of the entry contents. -/
theorem head_out (c : Dev nD) :
    (dat2 (F := Ideal) V c).arrAt 7 cfg2.N
      = arr (head (mat (m := 384) (n := 384) (V c main_arg1)) (mat (m := 192) (n := 64) (V c main_arg5)) (row (n := 64) (V c main_v5))
          (mat (m := 192) (n := 192) (V c main_arg9)) (row (n := 192) (V c main_v2))
          (mat (m := 384) (n := 192) (V c main_v12)) (mat (m := 384) (n := 192) (V c main_v14))) :=
  (dat2 (F := Ideal) V c).arrAt_eq_of_cover 7 (headOf V c) (written V c) fun i => ⟨t2_0, flush2_7 t2_0, covered i⟩

end Cert.KernelIdeal.Stage2

end
-- ==== Proof.Glue.lean ====
/-
  The kernel program's result buffer holds the network of the specification applied to the launch contents of its
  arguments.

  The program is three kernels among stretches of host operations, and its run is read as a fold of the buffer
  contents from the launch memory through each stretch and each kernel. Here each boundary's contents are read at the
  buffers the next kernel takes: the reshaped biases are the bias vectors as one-row matrices; the first kernel leaves
  the embedding `xi` and the hidden features `xh`; the second leaves the two edge aggregations; the host operations
  between the second and the third form the skip sum `xh + relu(er + be) + xi` and add the last bias to the second
  aggregation; the third kernel leaves the classifier head of those. An argument is written by nothing, so it is read
  at its launch contents at every boundary.
-/
import proofs.«137686_j73504070304090_1_alg».proof.Proof.KernelRun
import proofs.«137686_j73504070304090_1_alg».proof.Proof.Stage0
import proofs.«137686_j73504070304090_1_alg».proof.Proof.Stage1
import proofs.«137686_j73504070304090_1_alg».proof.Proof.Stage2
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open EdgeGcn

namespace Cert.KernelIdeal.Glue

open Cert.KernelIdeal Cert.KernelIdeal.Gen

/-! ## Small readings -/

/-- A vector cast to a one-row matrix, read as a row, is the vector. -/
theorem row_cast {n : Nat} (b : (⟨1, ![n]⟩ : Shape).Idx → EReal) (h : (⟨1, ![n]⟩ : Shape).ShapeCasts ⟨2, ![1, n]⟩) :
    row (shapeCast ⟨2, ![1, n]⟩ b h) = vec b := by
  funext q
  unfold row vec
  refine (shapeCast_addUnit_apply ![n] b h (ix2 0 q)).trans (congrArg b ?_)
  funext a
  match a with
  | ⟨0, _⟩ => rfl

/-- A one-row matrix broadcast down the rows, at `(p, q)`, is its entry at column `q`. -/
theorem bcast_row_apply {r n : Nat} (v : (⟨2, ![1, n]⟩ : Shape).Idx → EReal)
    (h : (⟨2, ![1, n]⟩ : Shape).BroadcastsInDim ⟨2, ![r, n]⟩ ![0, 1]) (p : Fin r) (q : Fin n) :
    broadcastInDim ⟨2, ![r, n]⟩ ![0, 1] h v (ix2 p q) = v (ix2 0 q) :=
  broadcastInDim_apply ![0, 1] h v (ix2 p q) (ix2 0 q) fun a => by
    match a with
    | ⟨0, _⟩ => rfl
    | ⟨1, _⟩ =>
      show q.val = if n = 1 then 0 else q.val
      split
      · next hn => have := q.isLt; omega
      · rfl

/-- A scalar broadcast to a matrix is the scalar everywhere. -/
theorem bcast_scalar_apply {r n : Nat} (v : (⟨0, ![]⟩ : Shape).Idx → EReal)
    (h : (⟨0, ![]⟩ : Shape).BroadcastsInDim ⟨2, ![r, n]⟩ ![]) (i : (⟨2, ![r, n]⟩ : Shape).Idx) :
    broadcastInDim ⟨2, ![r, n]⟩ ![] h v i = v ix0 :=
  broadcastInDim_apply ![] h v i ix0 fun a => a.elim0

variable (m : (ℓ : Loc nD τ sig) → Buf (Elt Ideal) ℓ) (ρ : Dev nD → PrngReg)

/-! ## The arguments' launch contents, as the specification's inputs -/

abbrev X (c : Dev nD) : Mat 384 512 := mat (m := 384) (n := 512) (m ((c : Thread nD τ).loc main_arg0))
abbrev A (c : Dev nD) : Mat 384 384 := mat (m := 384) (n := 384) (m ((c : Thread nD τ).loc main_arg1))
abbrev B (c : Dev nD) : Mat 384 147456 := mat (m := 384) (n := 147456) (m ((c : Thread nD τ).loc main_arg2))
abbrev Wemb (c : Dev nD) : Mat 512 192 := mat (m := 512) (n := 192) (m ((c : Thread nD τ).loc main_arg3))
abbrev bemb (c : Dev nD) : Fin 192 → EReal := vec (n := 192) (m ((c : Thread nD τ).loc main_arg4))
abbrev Wcls (c : Dev nD) : Mat 192 64 := mat (m := 192) (n := 64) (m ((c : Thread nD τ).loc main_arg5))
abbrev bcls (c : Dev nD) : Fin 64 → EReal := vec (n := 64) (m ((c : Thread nD τ).loc main_arg6))
abbrev W1 (c : Dev nD) : Mat 192 192 := mat (m := 192) (n := 192) (m ((c : Thread nD τ).loc main_arg7))
abbrev b1 (c : Dev nD) : Fin 192 → EReal := vec (n := 192) (m ((c : Thread nD τ).loc main_arg8))
abbrev W2 (c : Dev nD) : Mat 192 192 := mat (m := 192) (n := 192) (m ((c : Thread nD τ).loc main_arg9))
abbrev b2 (c : Dev nD) : Fin 192 → EReal := vec (n := 192) (m ((c : Thread nD τ).loc main_arg10))
abbrev We (c : Dev nD) : Mat 192 192 := mat (m := 192) (n := 192) (m ((c : Thread nD τ).loc main_arg11))
abbrev be (c : Dev nD) : Fin 192 → EReal := vec (n := 192) (m ((c : Thread nD τ).loc main_arg12))
abbrev We2 (c : Dev nD) : Mat 192 192 := mat (m := 192) (n := 192) (m ((c : Thread nD τ).loc main_arg13))
abbrev be2 (c : Dev nD) : Fin 192 → EReal := vec (n := 192) (m ((c : Thread nD τ).loc main_arg14))

/-- The embedding of the launch contents. -/
abbrev XI (c : Dev nD) : Mat 384 192 := embed (X m c) (Wemb m c) (bemb m c)
/-- The hidden features of the launch contents. -/
abbrev XH (c : Dev nD) : Mat 384 192 := hidden (A m c) (W1 m c) (b1 m c) (XI m c)
/-- The first edge aggregation. -/
abbrev ER (c : Dev nD) : Mat 384 192 := edgeRaw (B m c) (We m c) (XI m c)
/-- The second edge aggregation. -/
abbrev ER2 (c : Dev nD) : Mat 384 192 := edgeRaw2 (B m c) (We2 m c) (XI m c) (XH m c)
/-- The skip sum. -/
abbrev XS (c : Dev nD) : Mat 384 192 := skip (be m c) (XI m c) (XH m c) (ER m c)
/-- The second aggregation with its bias. -/
abbrev XE2 (c : Dev nD) : Mat 384 192 := fun p q => ER2 m c p q + be2 m c q

/-! ## Before the first kernel: six biases reshaped to one-row matrices, the arguments untouched -/

theorem V1_arg0 (c : Dev nD) : V1 m ρ c main_arg0 = m ((c : Thread nD τ).loc main_arg0) := by
  show StableHlo.after hostOps0 (W0 m ρ c) (Proc.devRef .tc main_arg0) = _
  after_results <;> rfl
theorem V1_arg1 (c : Dev nD) : V1 m ρ c main_arg1 = m ((c : Thread nD τ).loc main_arg1) := by
  show StableHlo.after hostOps0 (W0 m ρ c) (Proc.devRef .tc main_arg1) = _
  after_results <;> rfl
theorem V1_arg2 (c : Dev nD) : V1 m ρ c main_arg2 = m ((c : Thread nD τ).loc main_arg2) := by
  show StableHlo.after hostOps0 (W0 m ρ c) (Proc.devRef .tc main_arg2) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_arg7 (c : Dev nD) : V1 m ρ c main_arg7 = m ((c : Thread nD τ).loc main_arg7) := by
  show StableHlo.after hostOps0 (W0 m ρ c) (Proc.devRef .tc main_arg7) = _
  after_results <;> rfl
theorem V1_arg9 (c : Dev nD) : V1 m ρ c main_arg9 = m ((c : Thread nD τ).loc main_arg9) := by
  show StableHlo.after hostOps0 (W0 m ρ c) (Proc.devRef .tc main_arg9) = _
  after_results <;> rfl
theorem V1_arg11 (c : Dev nD) : V1 m ρ c main_arg11 = m ((c : Thread nD τ).loc main_arg11) := by
  show StableHlo.after hostOps0 (W0 m ρ c) (Proc.devRef .tc main_arg11) = _
  after_results <;> rfl
theorem V1_arg13 (c : Dev nD) : V1 m ρ c main_arg13 = m ((c : Thread nD τ).loc main_arg13) := by
  show StableHlo.after hostOps0 (W0 m ρ c) (Proc.devRef .tc main_arg13) = _
  after_results <;> rfl

theorem V1_v0 (c : Dev nD) : V1 m ρ c main_v0 = shapeCast S1x192 (m ((c : Thread nD τ).loc main_arg4)) shapeCasts_S192_S1x192 := by
  show StableHlo.after hostOps0 (W0 m ρ c) (Proc.devRef .tc main_v0) = _
  after_results <;> rfl
theorem V1_v1 (c : Dev nD) : V1 m ρ c main_v1 = shapeCast S1x192 (m ((c : Thread nD τ).loc main_arg8)) shapeCasts_S192_S1x192 := by
  show StableHlo.after hostOps0 (W0 m ρ c) (Proc.devRef .tc main_v1) = _
  after_results <;> rfl
theorem V1_v2 (c : Dev nD) : V1 m ρ c main_v2 = shapeCast S1x192 (m ((c : Thread nD τ).loc main_arg10)) shapeCasts_S192_S1x192 := by
  show StableHlo.after hostOps0 (W0 m ρ c) (Proc.devRef .tc main_v2) = _
  after_results <;> rfl
theorem V1_v3 (c : Dev nD) : V1 m ρ c main_v3 = shapeCast S1x192 (m ((c : Thread nD τ).loc main_arg12)) shapeCasts_S192_S1x192 := by
  show StableHlo.after hostOps0 (W0 m ρ c) (Proc.devRef .tc main_v3) = _
  after_results <;> rfl
theorem V1_v4 (c : Dev nD) : V1 m ρ c main_v4 = shapeCast S1x192 (m ((c : Thread nD τ).loc main_arg14)) shapeCasts_S192_S1x192 := by
  show StableHlo.after hostOps0 (W0 m ρ c) (Proc.devRef .tc main_v4) = _
  after_results <;> rfl
theorem V1_v5 (c : Dev nD) : V1 m ρ c main_v5 = shapeCast S1x64 (m ((c : Thread nD τ).loc main_arg6)) shapeCasts_S64_S1x64 := by
  show StableHlo.after hostOps0 (W0 m ρ c) (Proc.devRef .tc main_v5) = _
  after_results <;> rfl

/-- The first kernel is entered with the embedding's three operands at their launch contents. -/
theorem xi_eq (c : Dev nD) : Stage0.xi (V1 m ρ) c = XI m c := by
  unfold Stage0.xi XI embed X Wemb bemb
  rw [V1_arg0, V1_arg3, V1_v0, row_cast]

/-! ## After the first kernel: its two results are the embedding and the hidden features -/

theorem V2_v6_0 (c : Dev nD) : V2 m ρ c main_v6_0 = arr (XI m c) :=
  (W2_arr m ρ c 6).trans ((Stage0.embed_out (V1 m ρ) c).trans (congrArg arr (xi_eq m ρ c)))

theorem V2_v6_1 (c : Dev nD) : V2 m ρ c main_v6_1 = arr (XH m c) := by
  refine (W2_arr m ρ c 7).trans ((Stage0.hidden_out (V1 m ρ) c).trans ?_)
  rw [xi_eq, V1_arg1, V1_arg7, V1_v1, row_cast]

theorem V2_arg1 (c : Dev nD) : V2 m ρ c main_arg1 = m ((c : Thread nD τ).loc main_arg1) :=
  (W2_arr m ρ c 3).trans ((((dat0 (V1 m ρ) c).arrAt_in 3 rfl _).trans (A_eq0 (V1 m ρ) c 3)).trans (V1_arg1 m ρ c))
theorem V2_arg2 (c : Dev nD) : V2 m ρ c main_arg2 = m ((c : Thread nD τ).loc main_arg2) :=
  (W2_of_ne m ρ c main_arg2 (by decide)).trans (V1_arg2 m ρ c)
theorem V2_arg5 (c : Dev nD) : V2 m ρ c main_arg5 = m ((c : Thread nD τ).loc main_arg5) :=
  (W2_of_ne m ρ c main_arg5 (by decide)).trans (V1_arg5 m ρ c)
theorem V2_arg9 (c : Dev nD) : V2 m ρ c main_arg9 = m ((c : Thread nD τ).loc main_arg9) :=
  (W2_of_ne m ρ c main_arg9 (by decide)).trans (V1_arg9 m ρ c)
theorem V2_arg11 (c : Dev nD) : V2 m ρ c main_arg11 = m ((c : Thread nD τ).loc main_arg11) :=
  (W2_of_ne m ρ c main_arg11 (by decide)).trans (V1_arg11 m ρ c)
theorem V2_arg13 (c : Dev nD) : V2 m ρ c main_arg13 = m ((c : Thread nD τ).loc main_arg13) :=
  (W2_of_ne m ρ c main_arg13 (by decide)).trans (V1_arg13 m ρ c)
theorem V2_v2 (c : Dev nD) : V2 m ρ c main_v2 = shapeCast S1x192 (m ((c : Thread nD τ).loc main_arg10)) shapeCasts_S192_S1x192 :=
  (W2_of_ne m ρ c main_v2 (by decide)).trans (V1_v2 m ρ c)
theorem V2_v3 (c : Dev nD) : V2 m ρ c main_v3 = shapeCast S1x192 (m ((c : Thread nD τ).loc main_arg12)) shapeCasts_S192_S1x192 :=
  (W2_of_ne m ρ c main_v3 (by decide)).trans (V1_v3 m ρ c)
theorem V2_v4 (c : Dev nD) : V2 m ρ c main_v4 = shapeCast S1x192 (m ((c : Thread nD τ).loc main_arg14)) shapeCasts_S192_S1x192 :=
  (W2_of_ne m ρ c main_v4 (by decide)).trans (V1_v4 m ρ c)
theorem V2_v5 (c : Dev nD) : V2 m ρ c main_v5 = shapeCast S1x64 (m ((c : Thread nD τ).loc main_arg6)) shapeCasts_S64_S1x64 :=
  (W2_of_ne m ρ c main_v5 (by decide)).trans (V1_v5 m ρ c)

/-! ## After the second kernel: its two results are the edge aggregations; its operands are as entered -/

theorem V3_v7_0 (c : Dev nD) : V3 m ρ c main_v7_0 = arr (ER m c) := by
  refine (W3_arr m ρ c 5).trans ((Stage1.edge_out (V2 m ρ) c).trans ?_)
  rw [V2_arg2, V2_arg11, V2_v6_0, mat_arr]

theorem V3_v7_1 (c : Dev nD) : V3 m ρ c main_v7_1 = arr (ER2 m c) := by
  refine (W3_arr m ρ c 6).trans ((Stage1.edge2_out (V2 m ρ) c).trans ?_)
  rw [V2_arg2, V2_arg13, V2_v6_0, V2_v6_1, mat_arr, mat_arr]

theorem V3_v6_0 (c : Dev nD) : V3 m ρ c main_v6_0 = arr (XI m c) :=
  (W3_arr m ρ c 0).trans ((((dat1 (V2 m ρ) c).arrAt_in 0 rfl _).trans (A_eq1 (V2 m ρ) c 0)).trans (V2_v6_0 m ρ c))
theorem V3_v6_1 (c : Dev nD) : V3 m ρ c main_v6_1 = arr (XH m c) :=
  (W3_arr m ρ c 1).trans ((((dat1 (V2 m ρ) c).arrAt_in 1 rfl _).trans (A_eq1 (V2 m ρ) c 1)).trans (V2_v6_1 m ρ c))
theorem V3_arg1 (c : Dev nD) : V3 m ρ c main_arg1 = m ((c : Thread nD τ).loc main_arg1) :=
  (W3_of_ne m ρ c main_arg1 (by decide)).trans (V2_arg1 m ρ c)
theorem V3_arg5 (c : Dev nD) : V3 m ρ c main_arg5 = m ((c : Thread nD τ).loc main_arg5) :=
  (W3_of_ne m ρ c main_arg5 (by decide)).trans (V2_arg5 m ρ c)
theorem V3_arg9 (c : Dev nD) : V3 m ρ c main_arg9 = m ((c : Thread nD τ).loc main_arg9) :=
  (W3_of_ne m ρ c main_arg9 (by decide)).trans (V2_arg9 m ρ c)
theorem V3_v2 (c : Dev nD) : V3 m ρ c main_v2 = shapeCast S1x192 (m ((c : Thread nD τ).loc main_arg10)) shapeCasts_S192_S1x192 :=
  (W3_of_ne m ρ c main_v2 (by decide)).trans (V2_v2 m ρ c)
theorem V3_v3 (c : Dev nD) : V3 m ρ c main_v3 = shapeCast S1x192 (m ((c : Thread nD τ).loc main_arg12)) shapeCasts_S192_S1x192 :=
  (W3_of_ne m ρ c main_v3 (by decide)).trans (V2_v3 m ρ c)
theorem V3_v4 (c : Dev nD) : V3 m ρ c main_v4 = shapeCast S1x192 (m ((c : Thread nD τ).loc main_arg14)) shapeCasts_S192_S1x192 :=
  (W3_of_ne m ρ c main_v4 (by decide)).trans (V2_v4 m ρ c)
theorem V3_v5 (c : Dev nD) : V3 m ρ c main_v5 = shapeCast S1x64 (m ((c : Thread nD τ).loc main_arg6)) shapeCasts_S64_S1x64 :=
  (W3_of_ne m ρ c main_v5 (by decide)).trans (V2_v5 m ρ c)

/-! ## Before the third kernel: the skip sum, and the second aggregation with its bias -/

/-- A reshaped bias, read in a one-row matrix at column `q`, is the bias at `q`. -/
theorem cast_row_apply {n : Nat} (b : (⟨1, ![n]⟩ : Shape).Idx → EReal) (h : (⟨1, ![n]⟩ : Shape).ShapeCasts ⟨2, ![1, n]⟩)
    (q : Fin n) : shapeCast ⟨2, ![1, n]⟩ b h (ix2 0 q) = vec b q :=
  congrFun (row_cast b h) q

theorem V6_v12 (c : Dev nD) : V6 m ρ c main_v12 = arr (XS m c) := by
  show StableHlo.after hostOps2_2 (W5 m ρ c) (Proc.devRef .tc main_v12) = _
  after_results
  simp only [StableHlo.TRef.ofBuf, StableHlo.TRef.toBuf, cast_eq]
  have h61 : W3 m ρ c (Proc.devRef .tc main_v6_1) = arr (XH m c) := V3_v6_1 m ρ c
  have h70 : W3 m ρ c (Proc.devRef .tc main_v7_0) = arr (ER m c) := V3_v7_0 m ρ c
  have h3 : W3 m ρ c (Proc.devRef .tc main_v3) = shapeCast S1x192 (m ((c : Thread nD τ).loc main_arg12)) shapeCasts_S192_S1x192 := V3_v3 m ρ c
  have h60 : W3 m ρ c (Proc.devRef .tc main_v6_0) = arr (XI m c) := V3_v6_0 m ρ c
  rw [h61, h70, h3, h60]
  refine arr_ext fun p q => ?_
  rw [addf_apply, addf_apply, maximumf_apply, addf_apply, bcast_row_apply, bcast_scalar_apply, cast_row_apply,
    constant_apply, arr_apply, arr_apply, arr_apply]
  rfl

theorem V6_v14 (c : Dev nD) : V6 m ρ c main_v14 = arr (XE2 m c) := by
  show StableHlo.after hostOps2_2 (W5 m ρ c) (Proc.devRef .tc main_v14) = _
  after_results
  have h71 : W3 m ρ c (Proc.devRef .tc main_v7_1) = arr (ER2 m c) := V3_v7_1 m ρ c
  have h4 : W3 m ρ c (Proc.devRef .tc main_v4) = shapeCast S1x192 (m ((c : Thread nD τ).loc main_arg14)) shapeCasts_S192_S1x192 := V3_v4 m ρ c
  rw [h71, h4]
  refine arr_ext fun p q => ?_
  rw [addf_apply, bcast_row_apply, cast_row_apply, arr_apply]

theorem V6_v2 (c : Dev nD) : V6 m ρ c main_v2 = shapeCast S1x192 (m ((c : Thread nD τ).loc main_arg10)) shapeCasts_S192_S1x192 := by
  show StableHlo.after hostOps2_2 (W5 m ρ c) (Proc.devRef .tc main_v2) = _
  after_results
  exact V3_v2 m ρ c
theorem V6_v5 (c : Dev nD) : V6 m ρ c main_v5 = shapeCast S1x64 (m ((c : Thread nD τ).loc main_arg6)) shapeCasts_S64_S1x64 := by
  show StableHlo.after hostOps2_2 (W5 m ρ c) (Proc.devRef .tc main_v5) = _
  after_results
  exact V3_v5 m ρ c
theorem V6_arg1 (c : Dev nD) : V6 m ρ c main_arg1 = m ((c : Thread nD τ).loc main_arg1) := by
  show StableHlo.after hostOps2_2 (W5 m ρ c) (Proc.devRef .tc main_arg1) = _
  after_results
  exact V3_arg1 m ρ c
theorem V6_arg5 (c : Dev nD) : V6 m ρ c main_arg5 = m ((c : Thread nD τ).loc main_arg5) := by
  show StableHlo.after hostOps2_2 (W5 m ρ c) (Proc.devRef .tc main_arg5) = _
  after_results
  exact V3_arg5 m ρ c
theorem V6_arg9 (c : Dev nD) : V6 m ρ c main_arg9 = m ((c : Thread nD τ).loc main_arg9) := by
  show StableHlo.after hostOps2_2 (W5 m ρ c) (Proc.devRef .tc main_arg9) = _
  after_results
  exact V3_arg9 m ρ c

/-! ## After the third kernel: the result -/

/-- The result buffer ends holding the network of the arguments' launch contents. -/
theorem result_eq (c : Dev nD) :
    W7 m ρ c (Proc.devRef .tc main_v15)
      = arr (forward (X m c) (A m c) (B m c) (Wemb m c) (bemb m c) (Wcls m c) (bcls m c) (W1 m c) (b1 m c) (W2 m c)
          (b2 m c) (We m c) (be m c) (We2 m c) (be2 m c)) := by
  refine (W7_arr m ρ c 7).trans ((Stage2.head_out (V6 m ρ) c).trans ?_)
  rw [V6_arg1, V6_arg5, V6_v5, row_cast, V6_arg9, V6_v2, row_cast, V6_v12, V6_v14, mat_arr, mat_arr]
  rfl

end Cert.KernelIdeal.Glue

end
-- ==== Proof.RefLogits.lean ====
/-
  The reference program up to its logits, stage by stage, is the specification's network up to its logits.
  Each contraction is the specification's sum over the contracted position; a bias broadcast over the rows is its
  vector at the column; the reshaped product of two broadcast copies of a feature matrix is the edge feature matrix
  (edge `e` of the `[147456, 192]` array is the pair (`e / 384`, `e % 384`) of the `[384, 384, 192]` array); the
  rectifier is `max(·, 0)` with the zero the value of the pattern `+0.0`.
-/
import proofs.«137686_j73504070304090_1_alg».proof.Proof.RefRead
import proofs.«137686_j73504070304090_1_alg».proof.Proof.Spec
import Idealize.ShloMosaic.Lib.Pipeline.Value
import Idealize.ShloMosaic.Lib.ValueLayout

noncomputable section

open Idealize.ShloMosaic Idealize.ShloMosaic.TcCoe Idealize.ShloMosaic.ValueIdx
open EdgeGcn

namespace Cert.ReferenceIdeal.RefLogits

open Cert.ReferenceIdeal Cert.ReferenceIdeal.ReadP

section
variable (x : Mat 384 512) (adj : Mat 384 384) (adj1 : Mat 384 147456) (Wemb : Mat 512 192)
  (bemb : Fin 192 → EReal) (Wcls : Mat 192 64) (bcls : Fin 64 → EReal) (W1 : Mat 192 192) (b1 : Fin 192 → EReal)
  (W2 : Mat 192 192) (b2 : Fin 192 → EReal) (We : Mat 192 192) (be : Fin 192 → EReal) (We2 : Mat 192 192)
  (be2 : Fin 192 → EReal)

/-- The network up to its logits: the classifier's affine map on the rectified sum of the second graph convolution
    and the second edge convolution. -/
def netLogits : Mat 384 64 :=
  let xi := embed x Wemb bemb
  let xh := hidden adj W1 b1 xi
  let xs := skip be xi xh (edgeRaw adj1 We xi)
  let xe2 : Mat 384 192 := fun p q => edgeRaw2 adj1 We2 xi xh p q + be2 q
  affine (preLogits adj W2 b2 xs xe2) Wcls bcls

/-- The network is the row-wise log-softmax of its logits. -/
theorem forward_eq :
    forward x adj adj1 Wemb bemb Wcls bcls W1 b1 W2 b2 We be We2 be2
      = logSoftmax (netLogits x adj adj1 Wemb bemb Wcls bcls W1 b1 W2 b2 We be We2 be2) := rfl
end

/-- A rank-2 array at an index whose coordinates are `p` and `q` is its matrix at `(p, q)`. -/
theorem read2 {m n : Nat} (X : (⟨2, ![m, n]⟩ : Shape).Idx → EReal) (i : (⟨2, ![m, n]⟩ : Shape).Idx)
    (p : Fin m) (q : Fin n) (h0 : i 0 = p) (h1 : i 1 = q) : X i = mat X p q := by
  subst h0; subst h1; exact congrArg X (eq_ix2 i)

/-- A rank-1 array at an index whose coordinate is `q` is its vector at `q`. -/
theorem read1 {n : Nat} (b : (⟨1, ![n]⟩ : Shape).Idx → EReal) (i : (⟨1, ![n]⟩ : Shape).Idx)
    (q : Fin n) (h0 : i 0 = q) : b i = vec b q := by
  subst h0; exact congrArg b (eq_ix1 i)

section
variable (x0 : (⟨S384x512, .f32⟩ : BufTy).Contents (Elt Ideal)) (x1 : (⟨S384x384, .f32⟩ : BufTy).Contents (Elt Ideal)) (x2 : (⟨S384x147456, .f32⟩ : BufTy).Contents (Elt Ideal)) (x3 : (⟨S512x192, .f32⟩ : BufTy).Contents (Elt Ideal)) (x4 : (⟨S192, .f32⟩ : BufTy).Contents (Elt Ideal)) (x5 : (⟨S192x64, .f32⟩ : BufTy).Contents (Elt Ideal)) (x6 : (⟨S64, .f32⟩ : BufTy).Contents (Elt Ideal)) (x7 : (⟨S192x192, .f32⟩ : BufTy).Contents (Elt Ideal)) (x8 : (⟨S192, .f32⟩ : BufTy).Contents (Elt Ideal)) (x9 : (⟨S192x192, .f32⟩ : BufTy).Contents (Elt Ideal)) (x10 : (⟨S192, .f32⟩ : BufTy).Contents (Elt Ideal)) (x11 : (⟨S192x192, .f32⟩ : BufTy).Contents (Elt Ideal)) (x12 : (⟨S192, .f32⟩ : BufTy).Contents (Elt Ideal)) (x13 : (⟨S192x192, .f32⟩ : BufTy).Contents (Elt Ideal)) (x14 : (⟨S192, .f32⟩ : BufTy).Contents (Elt Ideal))

/-- %0–%3: the embedding. -/
theorem v3_eq : val_main_v3 (F := Ideal) x0 x3 x4 = arr (embed (mat (m := 384) (n := 512) x0) (mat (m := 512) (n := 192) x3) (vec (n := 192) x4)) := by
  refine arr_ext fun p q => ?_
  rw [val_main_v3_apply, val_main_v0_apply, val_main_v2_apply, val_main_v1_apply]
  refine congrArg₂ (· + ·) (Finset.sum_congr rfl fun k _ => ?_) (read1 x4 _ q rfl)
  exact congrArg₂ (· * ·) (read2 x0 _ p k rfl rfl) (read2 x3 _ k q rfl rfl)

/-- The reshaped index of edge `e`, feature `h`: the pair of nodes of the edge, and the feature. -/
theorem idx9_eq (e : Fin 147456) (h : Fin 192) : idx_main_v9 (ix2 e h) = ix3 (src e) (dst e) h := by
  funext a
  match a with
  | ⟨0, _⟩ => exact Fin.ext (by show (e.val * 192 + h.val) / 73728 = e.val / 384; have := h.isLt; omega)
  | ⟨1, _⟩ => exact Fin.ext (by show (e.val * 192 + h.val) / 192 % 384 = e.val % 384; have := h.isLt; omega)
  | ⟨2, _⟩ => exact Fin.ext (by show (e.val * 192 + h.val) % 192 = h.val; have := h.isLt; omega)

/-- %4–%9: the edge features of the embedding with itself. -/
theorem v9_eq (xi : Mat 384 192) (h3 : val_main_v3 (F := Ideal) x0 x3 x4 = arr xi) :
    val_main_v9 (F := Ideal) x0 x3 x4 = arr (outer xi xi) := by
  refine arr_ext fun e h => ?_
  rw [val_main_v9_apply, val_main_v8_apply, val_main_v6_apply, val_main_v7_apply, val_main_v4_apply, val_main_v5_apply, h3, idx9_eq]
  rfl

/-- %10–%11: the two contractions of the first edge convolution. -/
theorem v11_eq (f : Mat 147456 192) (h9 : val_main_v9 (F := Ideal) x0 x3 x4 = arr f) :
    val_main_v11 (F := Ideal) x0 x2 x3 x4 x11 = arr (eagg (mat (m := 384) (n := 147456) x2) f (mat (m := 192) (n := 192) x11)) := by
  refine arr_ext fun p q => ?_
  rw [val_main_v11_apply]
  refine Finset.sum_congr rfl fun e _ => ?_
  rw [val_main_v10_apply, h9]
  refine congrArg₂ (· * ·) (read2 x2 _ p e rfl rfl) (Finset.sum_congr rfl fun k _ => ?_)
  exact congrArg₂ (· * ·) rfl (read2 x11 _ k q rfl rfl)

/-- The first rectifier's zero at an index. -/
theorem zero0 (i : S384x192.Idx) : val_main_call0_v0 (F := Ideal) i = zero32 := by
  rw [val_main_call0_v0_apply, val_main_call0_cst_apply]; rfl

/-- The second rectifier's zero at an index. -/
theorem zero1 (i : S384x192.Idx) : val_main_call1_v0 (F := Ideal) i = zero32 := by
  rw [val_main_call1_v0_apply, val_main_call1_cst_apply]; rfl

/-- The third rectifier's zero at an index. -/
theorem zero2 (i : S384x192.Idx) : val_main_call2_v0 (F := Ideal) i = zero32 := by
  rw [val_main_call2_v0_apply, val_main_call2_cst_apply]; rfl

/-- %12–%15: the first edge convolution plus its bias, rectified. -/
theorem v15_eq (er : Mat 384 192) (h11 : val_main_v11 (F := Ideal) x0 x2 x3 x4 x11 = arr er) :
    val_main_v15 (F := Ideal) x0 x2 x3 x4 x11 x12
      = arr (fun p q => max (er p q + vec (n := 192) x12 q) zero32) := by
  refine arr_ext fun p q => ?_
  rw [val_main_v15_apply, val_main_v14_apply, val_main_v13_apply, val_main_v12_apply, h11, zero0]
  exact congrArg₂ max (congrArg₂ (· + ·) rfl (read1 x12 _ q rfl)) rfl

/-- %16–%21: the first graph convolution, rectified. -/
theorem v21_eq (xi : Mat 384 192) (h3 : val_main_v3 (F := Ideal) x0 x3 x4 = arr xi) :
    val_main_v21 (F := Ideal) x0 x1 x3 x4 x7 x8
      = arr (hidden (mat (m := 384) (n := 384) x1) (mat (m := 192) (n := 192) x7) (vec (n := 192) x8) xi) := by
  refine arr_ext fun p q => ?_
  rw [val_main_v21_apply, val_main_v20_apply, val_main_v17_apply, val_main_v19_apply, val_main_v18_apply, zero1]
  refine congrArg₂ max (congrArg₂ (· + ·) (Finset.sum_congr rfl fun j _ => ?_) (read1 x8 _ q rfl)) rfl
  rw [val_main_v16_apply, h3]
  refine congrArg₂ (· * ·) (read2 x1 _ p j rfl rfl) (Finset.sum_congr rfl fun l _ => ?_)
  exact congrArg₂ (· * ·) rfl (read2 x7 _ l q rfl rfl)

/-- %22–%23: the skip sum, in the order (hidden + rectified edge term) + embedding. -/
theorem v23_eq (xi xh er : Mat 384 192) (h3 : val_main_v3 (F := Ideal) x0 x3 x4 = arr xi)
    (h21 : val_main_v21 (F := Ideal) x0 x1 x3 x4 x7 x8 = arr xh)
    (h15 : val_main_v15 (F := Ideal) x0 x2 x3 x4 x11 x12 = arr (fun p q => max (er p q + vec (n := 192) x12 q) zero32)) :
    val_main_v23 (F := Ideal) x0 x1 x2 x3 x4 x7 x8 x11 x12 = arr (skip (vec (n := 192) x12) xi xh er) := by
  refine arr_ext fun p q => ?_
  rw [val_main_v23_apply, val_main_v22_apply, h3, h21, h15]
  rfl

/-- %24–%28: the second graph convolution. -/
theorem v28_eq (xs : Mat 384 192) (h23 : val_main_v23 (F := Ideal) x0 x1 x2 x3 x4 x7 x8 x11 x12 = arr xs) :
    val_main_v28 (F := Ideal) x0 x1 x2 x3 x4 x7 x8 x9 x10 x11 x12
      = arr (gconv (mat (m := 384) (n := 384) x1) xs (mat (m := 192) (n := 192) x9) (vec (n := 192) x10)) := by
  refine arr_ext fun p q => ?_
  rw [val_main_v28_apply, val_main_v25_apply, val_main_v27_apply, val_main_v26_apply]
  refine congrArg₂ (· + ·) (Finset.sum_congr rfl fun j _ => ?_) (read1 x10 _ q rfl)
  rw [val_main_v24_apply, h23]
  refine congrArg₂ (· * ·) (read2 x1 _ p j rfl rfl) (Finset.sum_congr rfl fun l _ => ?_)
  exact congrArg₂ (· * ·) rfl (read2 x9 _ l q rfl rfl)

/-- The second reshape's index of edge `e`, feature `h`. -/
theorem idx34_eq (e : Fin 147456) (h : Fin 192) : idx_main_v34 (ix2 e h) = ix3 (src e) (dst e) h := by
  funext a
  match a with
  | ⟨0, _⟩ => exact Fin.ext (by show (e.val * 192 + h.val) / 73728 = e.val / 384; have := h.isLt; omega)
  | ⟨1, _⟩ => exact Fin.ext (by show (e.val * 192 + h.val) / 192 % 384 = e.val % 384; have := h.isLt; omega)
  | ⟨2, _⟩ => exact Fin.ext (by show (e.val * 192 + h.val) % 192 = h.val; have := h.isLt; omega)

/-- %29–%34: the edge features of the hidden layer with itself. -/
theorem v34_eq (xh : Mat 384 192) (h21 : val_main_v21 (F := Ideal) x0 x1 x3 x4 x7 x8 = arr xh) :
    val_main_v34 (F := Ideal) x0 x1 x3 x4 x7 x8 = arr (outer xh xh) := by
  refine arr_ext fun e h => ?_
  rw [val_main_v34_apply, val_main_v33_apply, val_main_v31_apply, val_main_v32_apply, val_main_v29_apply, val_main_v30_apply, h21, idx34_eq]
  rfl

/-- %35–%40: the second edge convolution, over the sum of both layers' edge features, plus its bias. -/
theorem v40_eq (f1 f2 : Mat 147456 192) (h9 : val_main_v9 (F := Ideal) x0 x3 x4 = arr f1)
    (h34 : val_main_v34 (F := Ideal) x0 x1 x3 x4 x7 x8 = arr f2) :
    val_main_v40 (F := Ideal) x0 x1 x2 x3 x4 x7 x8 x13 x14
      = arr (fun p q => eagg (mat (m := 384) (n := 147456) x2) (fun e h => f1 e h + f2 e h) (mat (m := 192) (n := 192) x13) p q
          + vec (n := 192) x14 q) := by
  refine arr_ext fun p q => ?_
  rw [val_main_v40_apply, val_main_v37_apply, val_main_v39_apply, val_main_v38_apply]
  refine congrArg₂ (· + ·) (Finset.sum_congr rfl fun e _ => ?_) (read1 x14 _ q rfl)
  rw [val_main_v36_apply]
  refine congrArg₂ (· * ·) (read2 x2 _ p e rfl rfl) (Finset.sum_congr rfl fun k _ => ?_)
  rw [val_main_v35_apply, h9, h34]
  exact congrArg₂ (· * ·) rfl (read2 x13 _ k q rfl rfl)

/-- %41–%42: the sum of the second graph convolution and the second edge convolution, rectified. -/
theorem v42_eq (g xe2 : Mat 384 192)
    (h28 : val_main_v28 (F := Ideal) x0 x1 x2 x3 x4 x7 x8 x9 x10 x11 x12 = arr g)
    (h40 : val_main_v40 (F := Ideal) x0 x1 x2 x3 x4 x7 x8 x13 x14 = arr xe2) :
    val_main_v42 (F := Ideal) x0 x1 x2 x3 x4 x7 x8 x9 x10 x11 x12 x13 x14 = arr (relu fun p q => g p q + xe2 p q) := by
  refine arr_ext fun p q => ?_
  rw [val_main_v42_apply, val_main_v41_apply, h28, h40, zero2]
  rfl

/-- %43–%46: the classifier's affine map. -/
theorem v46_eq (pre : Mat 384 192)
    (h42 : val_main_v42 (F := Ideal) x0 x1 x2 x3 x4 x7 x8 x9 x10 x11 x12 x13 x14 = arr pre) :
    val_main_v46 (F := Ideal) x0 x1 x2 x3 x4 x5 x6 x7 x8 x9 x10 x11 x12 x13 x14
      = arr (affine pre (mat (m := 192) (n := 64) x5) (vec (n := 64) x6)) := by
  refine arr_ext fun p q => ?_
  rw [val_main_v46_apply, val_main_v43_apply, val_main_v45_apply, val_main_v44_apply, h42]
  refine congrArg₂ (· + ·) (Finset.sum_congr rfl fun k _ => ?_) (read1 x6 _ q rfl)
  exact congrArg₂ (· * ·) rfl (read2 x5 _ k q rfl rfl)

end

/-- The reference's logits stage is the network's logits of its fifteen arguments. -/
theorem logits_eq (x0 : (⟨S384x512, .f32⟩ : BufTy).Contents (Elt Ideal)) (x1 : (⟨S384x384, .f32⟩ : BufTy).Contents (Elt Ideal)) (x2 : (⟨S384x147456, .f32⟩ : BufTy).Contents (Elt Ideal)) (x3 : (⟨S512x192, .f32⟩ : BufTy).Contents (Elt Ideal)) (x4 : (⟨S192, .f32⟩ : BufTy).Contents (Elt Ideal)) (x5 : (⟨S192x64, .f32⟩ : BufTy).Contents (Elt Ideal)) (x6 : (⟨S64, .f32⟩ : BufTy).Contents (Elt Ideal)) (x7 : (⟨S192x192, .f32⟩ : BufTy).Contents (Elt Ideal)) (x8 : (⟨S192, .f32⟩ : BufTy).Contents (Elt Ideal)) (x9 : (⟨S192x192, .f32⟩ : BufTy).Contents (Elt Ideal)) (x10 : (⟨S192, .f32⟩ : BufTy).Contents (Elt Ideal)) (x11 : (⟨S192x192, .f32⟩ : BufTy).Contents (Elt Ideal)) (x12 : (⟨S192, .f32⟩ : BufTy).Contents (Elt Ideal)) (x13 : (⟨S192x192, .f32⟩ : BufTy).Contents (Elt Ideal)) (x14 : (⟨S192, .f32⟩ : BufTy).Contents (Elt Ideal)) :
    val_main_v46 (F := Ideal) x0 x1 x2 x3 x4 x5 x6 x7 x8 x9 x10 x11 x12 x13 x14
      = arr (netLogits (mat (m := 384) (n := 512) x0) (mat (m := 384) (n := 384) x1) (mat (m := 384) (n := 147456) x2) (mat (m := 512) (n := 192) x3) (vec (n := 192) x4) (mat (m := 192) (n := 64) x5) (vec (n := 64) x6) (mat (m := 192) (n := 192) x7) (vec (n := 192) x8) (mat (m := 192) (n := 192) x9) (vec (n := 192) x10) (mat (m := 192) (n := 192) x11) (vec (n := 192) x12) (mat (m := 192) (n := 192) x13) (vec (n := 192) x14)) := by
  have h3 := v3_eq x0 x3 x4
  have h9 := v9_eq x0 x3 x4 _ h3
  have h11 := v11_eq x0 x2 x3 x4 x11 _ h9
  have h15 := v15_eq x0 x2 x3 x4 x11 x12 _ h11
  have h21 := v21_eq x0 x1 x3 x4 x7 x8 _ h3
  have h23 := v23_eq x0 x1 x2 x3 x4 x7 x8 x11 x12 _ _ _ h3 h21 h15
  have h28 := v28_eq x0 x1 x2 x3 x4 x7 x8 x9 x10 x11 x12 _ h23
  have h34 := v34_eq x0 x1 x3 x4 x7 x8 _ h21
  have h40 := v40_eq x0 x1 x2 x3 x4 x7 x8 x13 x14 _ _ h9 h34
  have h42 := v42_eq x0 x1 x2 x3 x4 x7 x8 x9 x10 x11 x12 x13 x14 _ _ h28 h40
  exact v46_eq x0 x1 x2 x3 x4 x5 x6 x7 x8 x9 x10 x11 x12 x13 x14 _ h42

end Cert.ReferenceIdeal.RefLogits

end
-- ==== Proof.RefSoftmax.lean ====
/-
  The reference's outlined log-softmax, read over ANY logits matrix: the row maximum is the fold of `max` from `-∞`
  joined once more with `-∞`, broadcast back over the row and subtracted; the exponentials are summed from the
  initial zero; the logarithm of the sum is broadcast back and subtracted.
-/
import proofs.«137686_j73504070304090_1_alg».proof.Proof.RefRead
import proofs.«137686_j73504070304090_1_alg».proof.Proof.Spec
import Idealize.ShloMosaic.Lib.Pipeline.Value
import Idealize.ShloMosaic.Lib.ValueLayout

noncomputable section

open Idealize.ShloMosaic Idealize.ShloMosaic.TcCoe Idealize.ShloMosaic.ValueIdx
open EdgeGcn

namespace Cert.ReferenceIdeal.RefSoftmax

open Cert.ReferenceIdeal Cert.ReferenceIdeal.ReadP

section Stages

variable (x0 : (⟨S384x512, .f32⟩ : BufTy).Contents (Elt Ideal)) (x1 : (⟨S384x384, .f32⟩ : BufTy).Contents (Elt Ideal)) (x2 : (⟨S384x147456, .f32⟩ : BufTy).Contents (Elt Ideal)) (x3 : (⟨S512x192, .f32⟩ : BufTy).Contents (Elt Ideal)) (x4 : (⟨S192, .f32⟩ : BufTy).Contents (Elt Ideal)) (x5 : (⟨S192x64, .f32⟩ : BufTy).Contents (Elt Ideal)) (x6 : (⟨S64, .f32⟩ : BufTy).Contents (Elt Ideal)) (x7 : (⟨S192x192, .f32⟩ : BufTy).Contents (Elt Ideal)) (x8 : (⟨S192, .f32⟩ : BufTy).Contents (Elt Ideal)) (x9 : (⟨S192x192, .f32⟩ : BufTy).Contents (Elt Ideal)) (x10 : (⟨S192, .f32⟩ : BufTy).Contents (Elt Ideal)) (x11 : (⟨S192x192, .f32⟩ : BufTy).Contents (Elt Ideal)) (x12 : (⟨S192, .f32⟩ : BufTy).Contents (Elt Ideal)) (x13 : (⟨S192x192, .f32⟩ : BufTy).Contents (Elt Ideal)) (x14 : (⟨S192, .f32⟩ : BufTy).Contents (Elt Ideal)) (z : Mat 384 64)

/-- The witness, in the form that carries a lifted index, that dropping axis 1 of a 384 × 64 array leaves 384 entries. -/
theorem reduces_rows : S384x64.Reduces [1] S384 := by decide

/-- Row `p` with column `k` put back on the dropped axis is the element `(p, k)`. -/
theorem lift_row (p : Fin 384) (k : Fin (S384x64.size 1)) :
    reduces_rows.lift (ix1 p) k = ix2 p (⟨k.val, k.isLt⟩ : Fin 64) := by
  funext c; apply Fin.ext
  match c with
  | ⟨0, _⟩ => rfl
  | ⟨1, _⟩ => rfl

/-- The joined row maximum of the reference is the specification's. -/
theorem rowmax_eq (hz : val_main_v46 (F := Ideal) x0 x1 x2 x3 x4 x5 x6 x7 x8 x9 x10 x11 x12 x13 x14 = arr z) (p : Fin 384) :
    val_main_call3_v2 (F := Ideal) x0 x1 x2 x3 x4 x5 x6 x7 x8 x9 x10 x11 x12 x13 x14 (ix1 p) = rowMax z p := by
  rw [val_main_call3_v2_apply, val_main_call3_v1_apply, val_main_call3_cst_0_apply]
  unfold val_main_call3_v0
  rw [Host.reduce_eq_fold_single FloatOps.maximumf _ _ Gen.reducesTo_S384x64_S384_d1 reduces_rows Gen.h_S_, hz,
    val_main_call3_cst_apply]
  have hf : (arr z ∘ reduces_rows.lift (ix1 p)) = z p :=
    funext fun k => (congrArg (arr z) (lift_row p k)).trans (arr_apply z p _)
  rw [hf]
  rfl

/-- The shifted logits: each entry less its row's maximum. -/
theorem shifted_eq (hz : val_main_v46 (F := Ideal) x0 x1 x2 x3 x4 x5 x6 x7 x8 x9 x10 x11 x12 x13 x14 = arr z) (p : Fin 384) (q : Fin 64) :
    val_main_call3_v5 (F := Ideal) x0 x1 x2 x3 x4 x5 x6 x7 x8 x9 x10 x11 x12 x13 x14 (ix2 p q) = z p q - rowMax z p := by
  have hi : idx_main_call3_v3 (idx_main_call3_v4 (ix2 p q)) = ix1 p :=
    funext fun a => Fin.ext (by match a with | ⟨0, _⟩ => rfl)
  rw [val_main_call3_v5_apply, val_main_call3_v4_apply, val_main_call3_v3_apply, hi, rowmax_eq x0 x1 x2 x3 x4 x5 x6 x7 x8 x9 x10 x11 x12 x13 x14 z hz p, hz,
    arr_apply, Ideal.subf_def]

/-- The row's sum of exponentials: the initial value is the pattern of `+0.0`, whose value is `0`. -/
theorem sumexp_eq (hz : val_main_v46 (F := Ideal) x0 x1 x2 x3 x4 x5 x6 x7 x8 x9 x10 x11 x12 x13 x14 = arr z) (p : Fin 384) :
    val_main_call3_v7 (F := Ideal) x0 x1 x2 x3 x4 x5 x6 x7 x8 x9 x10 x11 x12 x13 x14 (ix1 p) = ∑ l : Fin 64, Ideal.exp (z p l - rowMax z p) := by
  rw [val_main_call3_v7_apply, val_main_call3_cst_1_apply]
  show Ideal.ofBits .f32 0x00000000#32 + _ = _
  rw [Ideal.ofBits_zero_f32, zero_add]
  refine Finset.sum_congr rfl fun k _ => ?_
  have hi : idx_main_call3_v7 (ix1 p) k = ix2 p k :=
    funext fun a => Fin.ext (by match a with | ⟨0, _⟩ => rfl | ⟨1, _⟩ => rfl)
  rw [hi, val_main_call3_v6_apply, shifted_eq x0 x1 x2 x3 x4 x5 x6 x7 x8 x9 x10 x11 x12 x13 x14 z hz p k, Ideal.hostUnary_exp_def]

end Stages

/-- If the logits stage holds the matrix `z`, the result stage holds its row-wise log-softmax. -/
theorem softmax_eq (x0 : (⟨S384x512, .f32⟩ : BufTy).Contents (Elt Ideal)) (x1 : (⟨S384x384, .f32⟩ : BufTy).Contents (Elt Ideal)) (x2 : (⟨S384x147456, .f32⟩ : BufTy).Contents (Elt Ideal)) (x3 : (⟨S512x192, .f32⟩ : BufTy).Contents (Elt Ideal)) (x4 : (⟨S192, .f32⟩ : BufTy).Contents (Elt Ideal)) (x5 : (⟨S192x64, .f32⟩ : BufTy).Contents (Elt Ideal)) (x6 : (⟨S64, .f32⟩ : BufTy).Contents (Elt Ideal)) (x7 : (⟨S192x192, .f32⟩ : BufTy).Contents (Elt Ideal)) (x8 : (⟨S192, .f32⟩ : BufTy).Contents (Elt Ideal)) (x9 : (⟨S192x192, .f32⟩ : BufTy).Contents (Elt Ideal)) (x10 : (⟨S192, .f32⟩ : BufTy).Contents (Elt Ideal)) (x11 : (⟨S192x192, .f32⟩ : BufTy).Contents (Elt Ideal)) (x12 : (⟨S192, .f32⟩ : BufTy).Contents (Elt Ideal)) (x13 : (⟨S192x192, .f32⟩ : BufTy).Contents (Elt Ideal)) (x14 : (⟨S192, .f32⟩ : BufTy).Contents (Elt Ideal)) (z : Mat 384 64)
    (hz : val_main_v46 (F := Ideal) x0 x1 x2 x3 x4 x5 x6 x7 x8 x9 x10 x11 x12 x13 x14 = arr z) :
    val_main_v47 (F := Ideal) x0 x1 x2 x3 x4 x5 x6 x7 x8 x9 x10 x11 x12 x13 x14 = arr (logSoftmax z) := by
  refine arr_ext fun p q => ?_
  have hi : idx_main_call3_v8 (idx_main_call3_v10 (ix2 p q)) = ix1 p :=
    funext fun a => Fin.ext (by match a with | ⟨0, _⟩ => rfl)
  rw [val_main_v47_apply, shifted_eq x0 x1 x2 x3 x4 x5 x6 x7 x8 x9 x10 x11 x12 x13 x14 z hz p q, val_main_call3_v10_apply, val_main_call3_v9_apply,
    val_main_call3_v8_apply, hi, sumexp_eq x0 x1 x2 x3 x4 x5 x6 x7 x8 x9 x10 x11 x12 x13 x14 z hz p, Ideal.hostUnary_log_def, Ideal.subf_def]
  rfl

end Cert.ReferenceIdeal.RefSoftmax

end
-- ==== Proof.RefValue.lean ====
/-
  The reference program's result is the network of the specification applied to its arguments: its logits stage is
  the network's logits, and its outlined log-softmax of any logits matrix is the specification's.
-/
import proofs.«137686_j73504070304090_1_alg».proof.Proof.RefLogits
import proofs.«137686_j73504070304090_1_alg».proof.Proof.RefSoftmax

noncomputable section

open Idealize.ShloMosaic Idealize.ShloMosaic.TcCoe Idealize.ShloMosaic.ValueIdx
open EdgeGcn

namespace Cert.ReferenceIdeal.RefValue

open Cert.ReferenceIdeal Cert.ReferenceIdeal.ReadP

/-- The last stage of the reference is the network of its fifteen arguments. -/
theorem ref_eq (x0 : (⟨S384x512, .f32⟩ : BufTy).Contents (Elt Ideal)) (x1 : (⟨S384x384, .f32⟩ : BufTy).Contents (Elt Ideal)) (x2 : (⟨S384x147456, .f32⟩ : BufTy).Contents (Elt Ideal)) (x3 : (⟨S512x192, .f32⟩ : BufTy).Contents (Elt Ideal)) (x4 : (⟨S192, .f32⟩ : BufTy).Contents (Elt Ideal)) (x5 : (⟨S192x64, .f32⟩ : BufTy).Contents (Elt Ideal)) (x6 : (⟨S64, .f32⟩ : BufTy).Contents (Elt Ideal)) (x7 : (⟨S192x192, .f32⟩ : BufTy).Contents (Elt Ideal)) (x8 : (⟨S192, .f32⟩ : BufTy).Contents (Elt Ideal)) (x9 : (⟨S192x192, .f32⟩ : BufTy).Contents (Elt Ideal)) (x10 : (⟨S192, .f32⟩ : BufTy).Contents (Elt Ideal)) (x11 : (⟨S192x192, .f32⟩ : BufTy).Contents (Elt Ideal)) (x12 : (⟨S192, .f32⟩ : BufTy).Contents (Elt Ideal)) (x13 : (⟨S192x192, .f32⟩ : BufTy).Contents (Elt Ideal)) (x14 : (⟨S192, .f32⟩ : BufTy).Contents (Elt Ideal)) :
    val_main_v47 (F := Ideal) x0 x1 x2 x3 x4 x5 x6 x7 x8 x9 x10 x11 x12 x13 x14
      = arr (forward (mat (m := 384) (n := 512) x0) (mat (m := 384) (n := 384) x1) (mat (m := 384) (n := 147456) x2) (mat (m := 512) (n := 192) x3) (vec (n := 192) x4) (mat (m := 192) (n := 64) x5) (vec (n := 64) x6) (mat (m := 192) (n := 192) x7) (vec (n := 192) x8) (mat (m := 192) (n := 192) x9) (vec (n := 192) x10) (mat (m := 192) (n := 192) x11) (vec (n := 192) x12) (mat (m := 192) (n := 192) x13) (vec (n := 192) x14)) := by
  rw [RefLogits.forward_eq]
  exact RefSoftmax.softmax_eq x0 x1 x2 x3 x4 x5 x6 x7 x8 x9 x10 x11 x12 x13 x14 _ (RefLogits.logits_eq x0 x1 x2 x3 x4 x5 x6 x7 x8 x9 x10 x11 x12 x13 x14)

end Cert.ReferenceIdeal.RefValue

end
-- ==== Proof.Claims.lean ====
/-
  The five claims of the certificate.

  The two kernel programs' frames are the generated frame certificates; the reference has no kernel, and its frame is
  its run with the result forgotten. The ideal pass rewrote nothing, so the kernel's idealization preserves it
  trivially. At the ideal values the kernel program ends with its result array at the network of the specification
  applied to its arguments' launch contents, and the reference ends with its result at the same network of its own
  arguments; the arguments agree, so the results are equal.
-/
import proofs.«137686_j73504070304090_1_alg».proof.Defs
import proofs.«137686_j73504070304090_1_alg».proof.Proof.Gen.Kernel.Frame
import proofs.«137686_j73504070304090_1_alg».proof.Proof.Gen.KernelIdeal.Frame
import proofs.«137686_j73504070304090_1_alg».proof.Proof.Gen.ReferenceIdeal
import proofs.«137686_j73504070304090_1_alg».proof.Proof.Gen.Pre_finite_inputs
import proofs.«137686_j73504070304090_1_alg».proof.Proof.Glue
import proofs.«137686_j73504070304090_1_alg».proof.Proof.RefValue

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the network of arguments that agree. -/
theorem algebraic : Cert.algebraic_KernelIdeal_ReferenceIdeal := by
  intro m ρ m' ρ' _ hagree
  refine ⟨fun c => Cert.KernelIdeal.Gen.W7 m ρ c (Proc.devRef .tc Cert.KernelIdeal.main_v15),
    Cert.KernelIdeal.RunV.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14⟩ := hagree c
  rw [Cert.ReferenceIdeal.ReadP.val_main_v47_eq, Cert.ReferenceIdeal.RefValue.ref_eq, h0, h1, h2, h3, h4, h5, h6, h7, h8, h9, h10, h11, h12, h13, h14]
  exact (Cert.KernelIdeal.Glue.result_eq m ρ c).symm

end Cert.Proof.Claims

end
-- ==== Proof.lean ====
/-
  The proof of `Cert.Claim`: the frames of the kernel program, of its idealization and of the reference; the
  idealization's (empty) list of rewrites; and the equality of the two idealized programs' results over the extended
  reals. Both programs compute one network — an embedding, two graph convolutions, two edge convolutions over all
  pairs of nodes, a skip sum, a classifier and a row-wise log-softmax — written once as the specification
  (Proof/Spec.lean). The kernel program computes it in three kernels: the second one accumulates the edge
  convolutions over 48 runs of 3072 edges into a zeroed block, which is the sum over all 147456 edges regrouped
  (Proof/Stage1.lean over Proof/Stage1Math.lean); the first and the third store their values whole (Proof/Stage0.lean,
  Proof/Stage2.lean); the host operations between them are read in Proof/Glue.lean. The reference's stages are read in
  Proof/RefLogits.lean and Proof/RefSoftmax.lean. The claims are assembled in Proof/Claims.lean.
-/
import proofs.«137686_j73504070304090_1_alg».proof.Defs
import proofs.«137686_j73504070304090_1_alg».proof.Proof.Gen.Kernel
import proofs.«137686_j73504070304090_1_alg».proof.Proof.Gen.KernelIdeal
import proofs.«137686_j73504070304090_1_alg».proof.Proof.Gen.ReferenceIdeal
import proofs.«137686_j73504070304090_1_alg».proof.Proof.Gen.Pre_finite_inputs
import proofs.«137686_j73504070304090_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
